-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S4x128 : Shape := ⟨2, ![4, 128]⟩
abbrev S4 : Shape := ⟨1, ![4]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S4096x128 .f32) (main_arg1 : IVec S4096x4096 32) (main_arg2 : FVec F S4x128 .f32) (main_arg3 : FVec F S4 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S4096x128 : Shape := ⟨2, ![4096, 128]⟩
abbrev S4096x4096 : Shape := ⟨2, ![4096, 4096]⟩
abbrev S4x128 : Shape := ⟨2, ![4, 128]⟩
abbrev S4 : Shape := ⟨1, ![4]⟩
abbrev S1024x128 : Shape := ⟨2, ![1024, 128]⟩
abbrev S512x128 : Shape := ⟨2, ![512, 128]⟩
abbrev S1024x512 : Shape := ⟨2, ![1024, 512]⟩
abbrev S1024x1 : Shape := ⟨2, ![1024, 1]⟩
abbrev S1x128 : Shape := ⟨2, ![1, 128]⟩
abbrev S128 : Shape := ⟨1, ![128]⟩
abbrev S2048x128 : Shape := ⟨2, ![2048, 128]⟩
abbrev S128x2048 : Shape := ⟨2, ![128, 2048]⟩
abbrev S1024x2048 : Shape := ⟨2, ![1024, 2048]⟩
abbrev S1 : Shape := ⟨1, ![1]⟩
abbrev S1024 : Shape := ⟨1, ![1024]⟩

abbrev nBuf : Space → Nat
  | .hbm => 5
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S4096x4096, .i32⟩
  | .hbm, ⟨2, _⟩ => ⟨S4x128, .f32⟩
  | .hbm, ⟨3, _⟩ => ⟨S4, .f32⟩
  | .hbm, ⟨4, _⟩ => ⟨S4096x128, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x512, .i32⟩
  | .local _ .vmem, ⟨5, _⟩ => ⟨S1024x512, .i32⟩
  | .local _ .vmem, ⟨6, _⟩ => ⟨S4x128, .f32⟩
  | .local _ .vmem, ⟨7, _⟩ => ⟨S4, .f32⟩
  | .local _ .vmem, ⟨8, _⟩ => ⟨S1024x128, .f32⟩
  | .local _ .vmem, ⟨9, _⟩ => ⟨S1024x128, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v115 : BitVec 1 := Scalar.cmpi .eq arg1 c7_i32
  let v116 : BitVec 32 := Scalar.extui v115
  let c0_i32_33 : BitVec 32 := 0#32
  let v117 : BitVec 1 := Scalar.cmpi .ne v116 c0_i32_33
  v117

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  inb_S4x128_S4x128_0_0 : ∀ a, (![0, 0] : Fin 2 → Nat) a + S4x128.size a ≤ S4x128.size a
  h_S4x128 : 0 < S4x128.numel
  inb_S1024x512_S1024x512_0_0 : ∀ a, (![0, 0] : Fin 2 → Nat) a + S1024x512.size a ≤ S1024x512.size a
  h_S1024x512 : 0 < S1024x512.numel
  slices_S4x128_o0_0_S1x128 : S4x128.Slices ![0, 0] S1x128
  shapeCasts_S1x128_S128 : S1x128.ShapeCasts S128
  shapeCasts_S128_S1x128 : S128.ShapeCasts S1x128
  broadcasts_S1x128_S512x128 : S1x128.Broadcasts S512x128
  slices_S4x128_o1_0_S1x128 : S4x128.Slices ![1, 0] S1x128
  slices_S4x128_o2_0_S1x128 : S4x128.Slices ![2, 0] S1x128
  slices_S4x128_o3_0_S1x128 : S4x128.Slices ![3, 0] S1x128
  concatenates_S512x128_S512x128_S512x128_S512x128_S2048x128_d0 : Shape.Concatenates [S512x128, S512x128, S512x128, S512x128] S2048x128 0
  bitsLt_bf16_f32 : FTy.bits .bf16 < FTy.bits .f32
  transposes_S2048x128_p1_0_S128x2048 : S2048x128.Transposes [1, 0] S128x2048
  slices_S1024x2048_o0_0_S1024x512 : S1024x2048.Slices ![0, 0] S1024x512
  inb_S4_S1_0 : ∀ a, (![0] : Fin 1 → Nat) a + S1.size a ≤ S4.size a
  h_S1 : 0 < S1.numel
  inpos_S1_p0 : ∀ a, (![0] : Fin 1 → Nat) a < S1.size a
  slices_S1024x2048_o0_512_S1024x512 : S1024x2048.Slices ![0, 512] S1024x512
  inb_S4_S1_1 : ∀ a, (![1] : Fin 1 → Nat) a + S1.size a ≤ S4.size a
  slices_S1024x2048_o0_1024_S1024x512 : S1024x2048.Slices ![0, 1024] S1024x512
  inb_S4_S1_2 : ∀ a, (![2] : Fin 1 → Nat) a + S1.size a ≤ S4.size a
  slices_S1024x2048_o0_1536_S1024x512 : S1024x2048.Slices ![0, 1536] S1024x512
  inb_S4_S1_3 : ∀ a, (![3] : Fin 1 → Nat) a + S1.size a ≤ S4.size a
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x128 : S1024x1.Broadcasts S1024x128
  dot_S1024x128_S128x2048_S1024x2048_1_0_0_1_n_n_wf : DotDims.WF S1024x128 S128x2048 S1024x2048 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .i32 = 32 ∨ (Rect.block (s := S4096x4096) S1024x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4.size a ≤ S4.size a
  hwx0_4 : ∀ i : grid0.Coords, EltTy.bits .f32 = 32 ∨ (Rect.block (s := S4) S4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S4096x128.size a
  hwx0_5 : ∀ i : grid0.Coords, EltTy.bits .f32 = 32 ∨ (Rect.block (s := S4096x128) S1024x128.size (cc0_transform_5 i) (hinb0_5 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S4x128 : Shape := ⟨2, ![4, 128]⟩
abbrev S4 : Shape := ⟨1, ![4]⟩
abbrev S1x4096x128 : Shape := ⟨3, ![1, 4096, 128]⟩
abbrev S4x1x128 : Shape := ⟨3, ![4, 1, 128]⟩
abbrev S4x4096x128 : Shape := ⟨3, ![4, 4096, 128]⟩
abbrev S4x4096x4096 : Shape := ⟨3, ![4, 4096, 4096]⟩
abbrev S4x1x1 : Shape := ⟨3, ![4, 1, 1]⟩
abbrev S_ : Shape := ⟨0, ![]⟩
abbrev S1x4096x4096 : Shape := ⟨3, ![1, 4096, 4096]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .i32⟩
  | .hbm, ⟨2, _⟩ => ⟨S4x128, .f32⟩
  | .hbm, ⟨3, _⟩ => ⟨S4, .f32⟩
  | .hbm, ⟨4, _⟩ => ⟨S1x4096x128, .f32⟩
  | .hbm, ⟨5, _⟩ => ⟨S4x1x128, .f32⟩
  | .hbm, ⟨6, _⟩ => ⟨S4x4096x128, .f32⟩
  | .hbm, ⟨7, _⟩ => ⟨S4x4096x128, .f32⟩
  | .hbm, ⟨8, _⟩ => ⟨S4x4096x128, .f32⟩
  | .hbm, ⟨9, _⟩ => ⟨S4x4096x4096, .f32⟩
  | .hbm, ⟨10, _⟩ => ⟨S4x1x1, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S_, .f32⟩
  | .hbm, ⟨15, _⟩ => ⟨S4x4096x4096, .f32⟩
  | .hbm, ⟨16, _⟩ => ⟨S4x4096x4096, .i1⟩
  | .hbm, ⟨17, _⟩ => ⟨S_, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .i32⟩
  | .hbm, ⟨22, _⟩ => ⟨S4096x4096, .i32⟩
  | .hbm, ⟨23, _⟩ => ⟨S4096x4096, .i1⟩
  | .hbm, ⟨24, _⟩ => ⟨S1x4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .i32⟩
  | .hbm, ⟨30, _⟩ => ⟨S4096x4096, .i32⟩
  | .hbm, ⟨31, _⟩ => ⟨S4096x4096, .i1⟩
  | .hbm, ⟨32, _⟩ => ⟨S1x4096x4096, .f32⟩
  | .hbm, ⟨33, _⟩ => ⟨S4096x4096, .f32⟩
  | .hbm, ⟨34, _⟩ => ⟨S4096x4096, .f32⟩
  | .hbm, ⟨35, _⟩ => ⟨S_, .i32⟩
  | .hbm, ⟨36, _⟩ => ⟨S4096x4096, .i32⟩
  | .hbm, ⟨37, _⟩ => ⟨S4096x4096, .i1⟩
  | .hbm, ⟨38, _⟩ => ⟨S1x4096x4096, .f32⟩
  | .hbm, ⟨39, _⟩ => ⟨S4096x4096, .f32⟩
  | .hbm, ⟨40, _⟩ => ⟨S4096x4096, .f32⟩
  | .hbm, ⟨41, _⟩ => ⟨S_, .i32⟩
  | .hbm, ⟨42, _⟩ => ⟨S4096x4096, .i32⟩
  | .hbm, ⟨43, _⟩ => ⟨S4096x4096, .i1⟩
  | .hbm, ⟨44, _⟩ => ⟨S1x4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x4096, .f32⟩
  | .hbm, ⟨60, _⟩ => ⟨S4096x4096, .f32⟩
  | .hbm, ⟨61, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_call1_v0 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  bcast_S4096x128_S1x4096x128_1_2 : S4096x128.BroadcastsInDim S1x4096x128 (![1, 2] : Fin 2 → Fin S1x4096x128.rank)
  bcast_S4x128_S4x1x128_0_2 : S4x128.BroadcastsInDim S4x1x128 (![0, 2] : Fin 2 → Fin S4x1x128.rank)
  bcast_S1x4096x128_S4x4096x128_0_1_2 : S1x4096x128.BroadcastsInDim S4x4096x128 (![0, 1, 2] : Fin 3 → Fin S4x4096x128.rank)
  bcast_S4x1x128_S4x4096x128_0_1_2 : S4x1x128.BroadcastsInDim S4x4096x128 (![0, 1, 2] : Fin 3 → Fin S4x4096x128.rank)
  bcast_S4_S4x1x1_0 : S4.BroadcastsInDim S4x1x1 (![0] : Fin 1 → Fin S4x1x1.rank)
  bcast_S4x1x1_S4x4096x4096_0_1_2 : S4x1x1.BroadcastsInDim S4x4096x4096 (![0, 1, 2] : Fin 3 → Fin S4x4096x4096.rank)
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  slices_S4x4096x4096_S1x4096x4096_0_0_0 : S4x4096x4096.Slices ![0, 0, 0] S1x4096x4096
  shapeCasts_S1x4096x4096_S4096x4096 : S1x4096x4096.ShapeCasts S4096x4096
  slices_S4x4096x4096_S1x4096x4096_1_0_0 : S4x4096x4096.Slices ![1, 0, 0] S1x4096x4096
  slices_S4x4096x4096_S1x4096x4096_2_0_0 : S4x4096x4096.Slices ![2, 0, 0] S1x4096x4096
  slices_S4x4096x4096_S1x4096x4096_3_0_0 : S4x4096x4096.Slices ![3, 0, 0] S1x4096x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4x4096x128_S4096x128_S4x4096x4096_2_1_01_0_n_n_wf : DotDims.WF S4x4096x128 S4096x128 S4x4096x4096 [2] [1] [0, 1] [0] [] []
  dot_S4096x4096_S4096x128_S4096x128_1_0_0_1_n_n_wf : DotDims.WF S4096x4096 S4096x128 S4096x128 [1] [0] [0] [1] [] []

variable [Facts₀]

def dot_S4x4096x128_S4096x128_S4x4096x4096_2_1_01_0_n_n : DotDims S4x4096x128 S4096x128 S4x4096x4096 where
  lhsContracting := [2]
  rhsContracting := [1]
  lhsNonContracting := [0, 1]
  rhsNonContracting := [0]
  lhsBatch := []
  rhsBatch := []
  wf := dot_S4x4096x128_S4096x128_S4x4096x4096_2_1_01_0_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.Bits.KState.lean ====
/-
  The kernel body as a step on the online-softmax state, at any float instance.

  A grid point (i, j) holds a 1024-row block of node features (x0), a 512-row block of them (x1: the columns'
  nodes), the 1024 x 512 tile of relation codes (x2), the relations' weights (x3) and biases (x4). The body forms
  the tile's gated logits and folds them into three running quantities per row, kept in scratch between the
  points of one row block: the running maximum, the running sum of exponentials below it, and the running
  weighted sum of the column nodes' features. Each is one payload of the body's skeleton; this module only names
  their composition, so that the frame side (what the scratch holds after each point) and the value side (what
  that is, index by index) are stated over the same terms.
-/
import proofs.«416319_j42090679501528_3_alg».proof.Proof.Gen.Kernel.Skeleton
import Idealize.ShloMosaic.Lib.ValueIdx

noncomputable section

namespace Cert.Kernel.Hand

open Idealize.ShloMosaic Idealize.ShloMosaic.ValueIdx Cert.Kernel Cert.Kernel.Gen

variable {F : FTy → Type} [FloatOps F]

/-- Relation `k`'s bias as the one-element vector a load of cell `k` of the bias block answers. -/
def biasAt (x4 : Vec F S4 .f32) (k : Fin 4) : Vec F S1 .f32 := fun _ => x4 (ix1 k)

/-- The tile's gated logits: the four relations' rectified scores, selected by the relation code, the fill elsewhere. -/
def tileAlpha (x0 : Vec F S1024x128 .f32) (x1 : Vec F S512x128 .f32) (x2 : Vec F S1024x512 .i32) (x3 : Vec F S4x128 .f32)
    (x4 : Vec F S4 .f32) : FVec F S1024x512 .f32 :=
  k0_pay16 x2 (k0_pay11 x0 x1 x3) (k0_pay12 (F := F)) (k0_pay13 x0 x1 x3 (biasAt x4 0)) (k0_pay14 x0 x1 x3 (biasAt x4 0))
    (k0_pay15 x0 x1 x3 (biasAt x4 0)) (biasAt x4 1) (biasAt x4 2) (biasAt x4 3)

/-- The three running quantities of a row block: per row the maximum so far, the sum of exponentials below it, and
    the weighted sum of features. -/
structure St (F : FTy → Type) where
  mx : Vec F S1024x1 .f32
  sm : Vec F S1024x1 .f32
  acc : Vec F S1024x128 .f32

/-- The state a row block starts from: maximum -inf, both sums zero. -/
def St.init : St F := ⟨k0_pay8 (F := F), k0_pay9 (F := F), k0_pay10 (F := F)⟩

/-- One column tile folded in: the new maximum, the old sums rescaled to it plus the tile's. -/
def St.step (x0 : Vec F S1024x128 .f32) (x1 : Vec F S512x128 .f32) (x2 : Vec F S1024x512 .i32) (x3 : Vec F S4x128 .f32)
    (x4 : Vec F S4 .f32) (s : St F) : St F :=
  ⟨k0_pay6 (tileAlpha x0 x1 x2 x3 x4) s.mx, k0_pay4 (tileAlpha x0 x1 x2 x3 x4) s.mx s.sm,
    k0_pay5 x1 (tileAlpha x0 x1 x2 x3 x4) s.mx s.acc⟩

/-- What the last column tile's point writes out: the weighted sum over the sum of weights. -/
def St.result (s : St F) : FVec F S1024x128 .f32 := k0_pay7 s.acc s.sm

/-- The state after column tiles 0..j of a row block whose tiles' blocks are `x1 j`, `x2 j`. -/
def tileSt (x0 : Vec F S1024x128 .f32) (x1 : ℕ → Vec F S512x128 .f32) (x2 : ℕ → Vec F S1024x512 .i32) (x3 : Vec F S4x128 .f32)
    (x4 : Vec F S4 .f32) : ℕ → St F
  | 0 => St.step x0 (x1 0) (x2 0) x3 x4 St.init
  | j + 1 => St.step x0 (x1 (j + 1)) (x2 (j + 1)) x3 x4 (tileSt x0 x1 x2 x3 x4 j)

end Cert.Kernel.Hand

end
-- ==== Proof.Bits.KBlocks.lean ====
/-
  The vocabulary the frame and the value side of the kernel share: the argument arrays as the region finds them,
  each window's block at a grid point read off its array, the two conditions of the body in closed form over the
  32 grid points (the first column tile of a row block: point ≡ 0 mod 8; the last: point ≡ 7 mod 8), where the
  output window is idle, and the online-softmax state after each grid point as a recursion over the points: a
  row block's first point starts from the initial state, every other point from what the point before left.
-/
import proofs.«416319_j42090679501528_3_alg».proof.Proof.Gen.Kernel.Launch
import proofs.«416319_j42090679501528_3_alg».proof.Proof.Gen.Kernel.Skeleton
import proofs.«416319_j42090679501528_3_alg».proof.Proof.Gen.Kernel.Points
import proofs.«416319_j42090679501528_3_alg».proof.Proof.Bits.KState
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the blocks -/

/-- Core `c`'s TensorCore buffer contents when the region is entered: @main has no operation before it. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions over the grid -/

/-- The reset's condition: the column-tile coordinate is 0. -/
abbrev cond0 (i : grid0.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-- The write-out's condition: the column-tile coordinate is 7. -/
abbrev cond1 (i : grid0.Coords) : Prop := k0_cond2 i = 1#1
/-- It holds at the points ≡ 7 (mod 8). -/
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- Away from a row block's last column tile the body stores nothing into the output window: it is idle there, -/
theorem idleAt5 : ∀ t : Fin cfg0.N, ¬cond1 (grid0.coords t) → cfg0.idle 5 (grid0.coords t) = true := by decide +kernel
/-- and not written back there; -/
theorem noFlush5 : ∀ t : Fin cfg0.N, ¬cond1 (grid0.coords t) → (cfg0.win 5).flush t = false := by decide +kernel
/-- at the last column tile it is live. -/
theorem liveAt5 : ∀ t : Fin cfg0.N, cond1 (grid0.coords t) → cfg0.idle 5 (grid0.coords t) = false := by decide +kernel

/-! ## The memrefs the body is called with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)
/-- The three scratch operands: the running maximum, the running sum, the running weighted sum. -/
abbrev scMx : Memref sig .tc .vmem S1024x1 .f32 := Memref.whole cc0_scratch0
abbrev scSm : Memref sig .tc .vmem S1024x1 .f32 := Memref.whole cc0_scratch1
abbrev scAcc : Memref sig .tc .vmem S1024x128 .f32 := Memref.whole cc0_scratch2
/-- One staging buffer of the output window, through which its contents are stated. -/
abbrev VO5 : View sig .tc .vmem S1024x128 .f32 := (Memref.whole cc0_stg5_0 : Memref sig .tc .vmem S1024x128 .f32).view

/-- The region's class invariant with the scratch operands as memrefs owned at some contents. -/
theorem PhiA0_eq (c : Dev nD) :
    (Pipeline.ΦA spec0 c : sProp 𝕄)
      = iprop(iprop((∃ d, owns (c : Thread nD τ) scMx fullShare d) ∗ (∃ d, owns (c : Thread nD τ) scSm fullShare d) ∗ (∃ d, owns (c : Thread nD τ) scAcc fullShare d)) ∗ (∃ r, prngReg c r)) := by
  unfold Pipeline.ΦA; rw [scopedRest0_eq]; simp only [scMx, scSm, scAcc, owns_whole]; try rfl

/-! ## The state after each grid point -/

/-- The body's step at point `t`: the point's five input blocks folded into a state. -/
def ptStep (c : Dev nD) (t : Fin cfg0.N) (s : St F) : St F :=
  St.step (iblk m c 0 t) (iblk m c 1 t) (iblk m c 2 t) (iblk m c 3 t) (iblk m c 4 t) s

/-- What the three scratch buffers hold after the body at position `n`: at a row block's first point the step from
    the initial state, elsewhere the step from what the point before left. -/
def stAt (c : Dev nD) : (n : ℕ) → n < cfg0.N → St F
  | 0, hn => ptStep m c ⟨0, hn⟩ St.init
  | n + 1, hn =>
    if (n + 1) % 8 = 0 then ptStep m c ⟨n + 1, hn⟩ St.init
    else ptStep m c ⟨n + 1, hn⟩ (stAt c n (Nat.lt_of_succ_lt hn))

/-- At a row block's first point. -/
theorem stAt_first (c : Dev nD) (t : Fin cfg0.N) (h0 : t.val % 8 = 0) : stAt m c t.val t.isLt = ptStep m c t St.init := by
  obtain ⟨n, hn⟩ := t
  cases n with
  | zero => rfl
  | succ n => exact if_pos h0

/-- At any other point. -/
theorem stAt_next (c : Dev nD) (t : Fin cfg0.N) (h0 : ¬t.val % 8 = 0) :
    stAt m c t.val t.isLt = ptStep m c t (stAt m c (t.val - 1) (Nat.lt_of_le_of_lt (Nat.sub_le _ _) t.isLt)) := by
  obtain ⟨n, hn⟩ := t
  cases n with
  | zero => exact absurd (Nat.zero_mod _) h0
  | succ n => exact if_neg h0

end Cert.Kernel.Hand

end
-- ==== Proof.Bits.KRunLib.lean ====
/-
  What the three runs of the body share: a buffer stored whole reads back the stored value; a whole-buffer load
  reads the contents; a one-cell load of the bias block reads that relation's bias.
-/
import proofs.«416319_j42090679501528_3_alg».proof.Proof.Bits.KBlocks
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

/-- The zero offsets of a rank-2 whole-buffer access, however spelt. -/
theorem hz2 : (![0, 0] : Fin 2 → Nat) = fun _ => 0 := funext fun a => by fin_cases a <;> rfl

/-- A buffer whose LAST store is of the whole shape reads back that store's value, whatever it held before and whatever
    the earlier stores were. -/
theorem read_store_whole {S : Shape} {e : EltTy} (v : View sig .tc .vmem S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A one-cell load of the bias block at cell `n` reads the one-element vector of relation `n`'s bias: the cell's only
    index is `n` (offset `n`, stride one, the local coordinate zero). -/
theorem ld_bias (x4 : Vec F S4 .f32) (n : ℕ) (hn : n < 4) (inb : ∀ a, (![n] : Fin 1 → ℕ) a + S1.size a ≤ S4.size a) :
    View.ld x4 (Rect.unit (s := S4) ![n] S1.size inb) = biasAt x4 ⟨n, hn⟩ := by
  funext j
  show x4 _ = x4 _
  congr 1
  funext a
  match a with
  | ⟨0, h0⟩ =>
    apply Fin.ext
    have h1 : (j ⟨0, h0⟩ : ℕ) < 1 := (j ⟨0, h0⟩).isLt
    show n + 1 * (j ⟨0, h0⟩ : ℕ) = n
    omega

theorem ld_bias0 (x4 : Vec F S4 .f32) : View.ld x4 (Rect.unit (s := S4) ![0] S1.size inb_S4_S1_0) = biasAt x4 0 :=
  ld_bias x4 0 (by decide) _
theorem ld_bias1 (x4 : Vec F S4 .f32) : View.ld x4 (Rect.unit (s := S4) ![1] S1.size inb_S4_S1_1) = biasAt x4 1 :=
  ld_bias x4 1 (by decide) _
theorem ld_bias2 (x4 : Vec F S4 .f32) : View.ld x4 (Rect.unit (s := S4) ![2] S1.size inb_S4_S1_2) = biasAt x4 2 :=
  ld_bias x4 2 (by decide) _
theorem ld_bias3 (x4 : Vec F S4 .f32) : View.ld x4 (Rect.unit (s := S4) ![3] S1.size inb_S4_S1_3) = biasAt x4 3 :=
  ld_bias x4 3 (by decide) _

end Cert.Kernel.Hand

end
-- ==== Proof.Bits.KRunA.lean ====
/-
  The body at a row block's FIRST column tile (the reset taken, the write-out not): whatever the three scratch buffers
  held, they end at the step from the initial state; the input buffers and the idle output buffer are handed back as found.
-/
import proofs.«416319_j42090679501528_3_alg».proof.Proof.Bits.KRunLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runA (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x512 .i32) (harg4 : arg4.IsWhole) (arg5 : Memref sig .tc .vmem S4x128 .f32) (harg5 : arg5.IsWhole) (arg6 : Memref sig .tc .vmem S4 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (hc0 : cond0 i) (hc1 : ¬cond1 i) (x0 : Vec F S1024x128 .f32) (x1 : Vec F S512x128 .f32) (x2 : Vec F S1024x512 .i32) (x3 : Vec F S4x128 .f32) (x4 : Vec F S4 .f32) (xi5 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (St.step x0 x1 x2 x3 x4 (St.init (F := F))).mx ∗ owns (c : Thread nD τ) arg9 fullShare (St.step x0 x1 x2 x3 x4 (St.init (F := F))).sm ∗ owns (c : Thread nD τ) arg10 fullShare (St.step x0 x1 x2 x3 x4 (St.init (F := F))).acc) -∗ K ⟨⟩))
      ⊢ wp frame (wpE (defs₀ (F := F)) Variants.none c none) E (cc0__local_agg_kernel i arg2 harg2 arg3 harg3 arg4 harg4 arg5 harg5 arg6 harg6 arg7 harg7 arg8 harg8 arg9 harg9 arg10 harg10) K := by
  simp only [cc0__local_agg_kernel_eq_skeleton]; unfold cc0__local_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; rotate_left
    · iexact H6
    · ipureintro
      refine (read_store_whole _ _ hz2 _ _ _).trans ?_
      sl_unfold_run_names
      simp only [View.readAt_eq_ld, harg2.read_unread, harg3.read_unread, harg4.read_unread, harg5.read_unread, harg6.read_unread, View.ld_unit_zero (S := S1024x128) hz2, View.ld_unit_zero (S := S512x128) hz2, View.ld_unit_zero (S := S1024x512) hz2, View.ld_unit_zero (S := S4x128) hz2, View.ld_unit_zero (S := S1024x1) hz2, View.readCov_unit_zero (S := S1024x1) _ hz2, View.readCov_unit_zero (S := S1024x128) _ hz2, St.step, St.init, tileAlpha]
      rw [ld_bias0, ld_bias1, ld_bias2, ld_bias3]
  isplitl [H7]
  · iexists _; isplitr; rotate_left
    · iexact H7
    · ipureintro
      refine (read_store_whole _ _ hz2 _ _ _).trans ?_
      sl_unfold_run_names
      simp only [View.readAt_eq_ld, harg2.read_unread, harg3.read_unread, harg4.read_unread, harg5.read_unread, harg6.read_unread, View.ld_unit_zero (S := S1024x128) hz2, View.ld_unit_zero (S := S512x128) hz2, View.ld_unit_zero (S := S1024x512) hz2, View.ld_unit_zero (S := S4x128) hz2, View.ld_unit_zero (S := S1024x1) hz2, View.readCov_unit_zero (S := S1024x1) _ hz2, View.readCov_unit_zero (S := S1024x128) _ hz2, St.step, St.init, tileAlpha]
      rw [ld_bias0, ld_bias1, ld_bias2, ld_bias3]
  · iexists _; isplitr; rotate_left
    · iexact H8
    · ipureintro
      refine (read_store_whole _ _ hz2 _ _ _).trans ?_
      sl_unfold_run_names
      simp only [View.readAt_eq_ld, harg2.read_unread, harg3.read_unread, harg4.read_unread, harg5.read_unread, harg6.read_unread, View.ld_unit_zero (S := S1024x128) hz2, View.ld_unit_zero (S := S512x128) hz2, View.ld_unit_zero (S := S1024x512) hz2, View.ld_unit_zero (S := S4x128) hz2, View.ld_unit_zero (S := S1024x1) hz2, View.readCov_unit_zero (S := S1024x1) _ hz2, View.readCov_unit_zero (S := S1024x128) _ hz2, St.step, St.init, tileAlpha]
      rw [ld_bias0, ld_bias1, ld_bias2, ld_bias3]

end Cert.Kernel.Hand

end
-- ==== Proof.Bits.KRunB.lean ====
/-
  The body at a column tile that is neither the first nor the last of its row block: the scratch buffers go from a
  state to its step; the input buffers and the idle output buffer are handed back as found.
-/
import proofs.«416319_j42090679501528_3_alg».proof.Proof.Bits.KRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runB (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x512 .i32) (harg4 : arg4.IsWhole) (arg5 : Memref sig .tc .vmem S4x128 .f32) (harg5 : arg5.IsWhole) (arg6 : Memref sig .tc .vmem S4 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (hc0 : ¬cond0 i) (hc1 : ¬cond1 i) (x0 : Vec F S1024x128 .f32) (x1 : Vec F S512x128 .f32) (x2 : Vec F S1024x512 .i32) (x3 : Vec F S4x128 .f32) (x4 : Vec F S4 .f32) (xi5 : Vec F S1024x128 .f32) (s : St F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ owns (c : Thread nD τ) arg8 fullShare s.mx ∗ owns (c : Thread nD τ) arg9 fullShare s.sm ∗ owns (c : Thread nD τ) arg10 fullShare s.acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (St.step x0 x1 x2 x3 x4 s).mx ∗ owns (c : Thread nD τ) arg9 fullShare (St.step x0 x1 x2 x3 x4 s).sm ∗ owns (c : Thread nD τ) arg10 fullShare (St.step x0 x1 x2 x3 x4 s).acc) -∗ K ⟨⟩))
      ⊢ wp frame (wpE (defs₀ (F := F)) Variants.none c none) E (cc0__local_agg_kernel i arg2 harg2 arg3 harg3 arg4 harg4 arg5 harg5 arg6 harg6 arg7 harg7 arg8 harg8 arg9 harg9 arg10 harg10) K := by
  simp only [cc0__local_agg_kernel_eq_skeleton]; unfold cc0__local_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; rotate_left
    · iexact H6
    · ipureintro
      refine (read_store_whole _ _ hz2 _ _ _).trans ?_
      sl_unfold_run_names
      simp only [View.readAt_eq_ld, harg2.read_unread, harg3.read_unread, harg4.read_unread, harg5.read_unread, harg6.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, tileAlpha]
      rw [ld_bias0, ld_bias1, ld_bias2, ld_bias3]
  isplitl [H7]
  · iexists _; isplitr; rotate_left
    · iexact H7
    · ipureintro
      refine (read_store_whole _ _ hz2 _ _ _).trans ?_
      sl_unfold_run_names
      simp only [View.readAt_eq_ld, harg2.read_unread, harg3.read_unread, harg4.read_unread, harg5.read_unread, harg6.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, tileAlpha]
      rw [ld_bias0, ld_bias1, ld_bias2, ld_bias3]
  · iexists _; isplitr; rotate_left
    · iexact H8
    · ipureintro
      refine (read_store_whole _ _ hz2 _ _ _).trans ?_
      sl_unfold_run_names
      simp only [View.readAt_eq_ld, harg2.read_unread, harg3.read_unread, harg4.read_unread, harg5.read_unread, harg6.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, tileAlpha]
      rw [ld_bias0, ld_bias1, ld_bias2, ld_bias3]

end Cert.Kernel.Hand

end
-- ==== Proof.Bits.KRunC.lean ====
/-
  The body at a row block's LAST column tile (the write-out taken, the reset not): the scratch buffers go from a state
  to its step, and the output buffer, whatever it held, ends at the step's result.
-/
import proofs.«416319_j42090679501528_3_alg».proof.Proof.Bits.KRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runC (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x512 .i32) (harg4 : arg4.IsWhole) (arg5 : Memref sig .tc .vmem S4x128 .f32) (harg5 : arg5.IsWhole) (arg6 : Memref sig .tc .vmem S4 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (hc0 : ¬cond0 i) (hc1 : cond1 i) (x0 : Vec F S1024x128 .f32) (x1 : Vec F S512x128 .f32) (x2 : Vec F S1024x512 .i32) (x3 : Vec F S4x128 .f32) (x4 : Vec F S4 .f32) (s : St F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ owns (c : Thread nD τ) arg8 fullShare s.mx ∗ owns (c : Thread nD τ) arg9 fullShare s.sm ∗ owns (c : Thread nD τ) arg10 fullShare s.acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (St.step x0 x1 x2 x3 x4 s).result
            ∗ owns (c : Thread nD τ) arg8 fullShare (St.step x0 x1 x2 x3 x4 s).mx ∗ owns (c : Thread nD τ) arg9 fullShare (St.step x0 x1 x2 x3 x4 s).sm ∗ owns (c : Thread nD τ) arg10 fullShare (St.step x0 x1 x2 x3 x4 s).acc) -∗ K ⟨⟩))
      ⊢ wp frame (wpE (defs₀ (F := F)) Variants.none c none) E (cc0__local_agg_kernel i arg2 harg2 arg3 harg3 arg4 harg4 arg5 harg5 arg6 harg6 arg7 harg7 arg8 harg8 arg9 harg9 arg10 harg10) K := by
  simp only [cc0__local_agg_kernel_eq_skeleton]; unfold cc0__local_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; rotate_left
    · iexact H5
    · ipureintro
      refine (read_store_whole _ _ hz2 _ _ _).trans ?_
      sl_unfold_run_names
      simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, St.result, tileAlpha, View.readCov_unit_zero (S := S1024x128) _ hz2, View.readCov_unit_zero (S := S1024x1) _ hz2]
      rw [ld_bias0, ld_bias1, ld_bias2, ld_bias3]
  isplitl [H6]
  · iexists _; isplitr; rotate_left
    · iexact H6
    · ipureintro
      refine (read_store_whole _ _ hz2 _ _ _).trans ?_
      sl_unfold_run_names
      simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, St.result, tileAlpha]
      rw [ld_bias0, ld_bias1, ld_bias2, ld_bias3]
  isplitl [H7]
  · iexists _; isplitr; rotate_left
    · iexact H7
    · ipureintro
      refine (read_store_whole _ _ hz2 _ _ _).trans ?_
      sl_unfold_run_names
      simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, St.result, tileAlpha]
      rw [ld_bias0, ld_bias1, ld_bias2, ld_bias3]
  · iexists _; isplitr; rotate_left
    · iexact H8
    · ipureintro
      refine (read_store_whole _ _ hz2 _ _ _).trans ?_
      sl_unfold_run_names
      simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, St.result, tileAlpha]
      rw [ld_bias0, ld_bias1, ld_bias2, ld_bias3]

end Cert.Kernel.Hand

end
-- ==== Proof.Bits.KFrame.lean ====
/-
  The kernel's frame and its launch: the pipeline's proof data on a core (what each window's buffer holds after the
  body at every grid point, the invariant the body keeps between points), the body obligation at every point from the
  three runs of the body, and the run of @main. The node features are handed to the kernel twice, as the row block's
  window and as the column tile's: the two windows read one array, each holding half of its share.
-/
import proofs.«416319_j42090679501528_3_alg».proof.Proof.Bits.KRunC
import Idealize.ShloMosaic.Lib.Pipeline.Frame
import Idealize.ShloMosaic.Lib.Pipeline.Launch
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- The scoped buffers the pipeline does not stage, as the three scratch memrefs owned at some contents. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scMx fullShare d) ∗ (∃ d, owns (c : Thread nD τ) scSm fullShare d) ∗ (∃ d, owns (c : Thread nD τ) scAcc fullShare d)) := by
  rw [scopedRest0_eq]; simp only [scMx, scSm, scAcc, owns_whole]; try rfl

/-- The invariant before position `n`: before the first point the three scratch buffers at anything; afterwards at
    the state the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scMx fullShare (stAt m c n hn).mx ∗ owns (c : Thread nD τ) scSm fullShare (stAt m c n hn).sm ∗ owns (c : Thread nD τ) scAcc fullShare (stAt m c n hn).acc)

/-! ## The proof data -/

/-- The proof data of the pipeline on core `c`: the arrays as the region finds them; after the body at a point each
    input's buffer at its block, the output's at the result of the state there (where the output window is idle that
    value is a placeholder nothing consults); the invariant `PhiS`; the node features' array held half by the row
    block's window and half by the column tile's, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).result
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after5 (c : Dev nD) (t : Fin cfg0.N) : (dats m 0 c).after 5 t = (stAt m c t.val t.isLt).result := by
  dsimp only [dats]

/-! ## What the body finds in the inputs' buffers -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The invariant, restated -/

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scMx fullShare (stAt m c n hn).mx ∗ owns (c : Thread nD τ) scSm fullShare (stAt m c n hn).sm ∗ owns (c : Thread nD τ) scAcc fullShare (stAt m c n hn).acc) := rfl

theorem PhiS_pos (c : Dev nD) (n : ℕ) (h : n ≤ cfg0.N) (hz : n ≠ 0) :
    PhiS m c n h = iprop(owns (c : Thread nD τ) scMx fullShare (stAt m c (n - 1) (by omega)).mx ∗ owns (c : Thread nD τ) scSm fullShare (stAt m c (n - 1) (by omega)).sm ∗ owns (c : Thread nD τ) scAcc fullShare (stAt m c (n - 1) (by omega)).acc) := by
  cases n with
  | zero => exact absurd rfl hz
  | succ n => rfl

theorem PhiS_castSucc (c : Dev nD) (t : Fin cfg0.N) :
    (dats m 0 c).Φ t.castSucc = PhiS m c t.val (Nat.le_of_lt t.isLt) := by
  dsimp only [dats]; simp only [Fin.coe_castSucc]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]
theorem leaves4 (c : Dev nD) (t : Fin cfg0.N) : (dats m 0 c).leavesExact 4 t = owns (c : Thread nD τ) (ms4 t) fullShare (iblk m c 4 t) := by
  unfold Dat.leavesExact; rw [liveAt4 t, after4]
/-- Where the write-out is taken the output's buffer ends at the state's result; -/
theorem leaves5_live (c : Dev nD) (t : Fin cfg0.N) (h1 : t.val % 8 = 7) :
    (dats m 0 c).leavesExact 5 t = owns (c : Thread nD τ) (ms5 t) fullShare (stAt m c t.val t.isLt).result := by
  unfold Dat.leavesExact; rw [liveAt5 t ((hcond1 t).mpr h1), after5]
/-- elsewhere it is handed back as found. -/
theorem leaves5_idle (c : Dev nD) (t : Fin cfg0.N) (h1 : ¬t.val % 8 = 7) :
    (dats m 0 c).leavesExact 5 t = iprop(∃ d, owns (c : Thread nD τ) (ms5 t) fullShare ((dats m 0 c).before 5 t d)) :=
  Dat.leavesExact_idle (dats m 0 c) 5 t (idleAt5 t (fun h => h1 ((hcond1 t).mp h))) (noFlush5 t (fun h => h1 ((hcond1 t).mp h)))

set_option maxHeartbeats 4800000 in
/-- The body at any point. The inputs' buffers hold their blocks; the point's position in its row block selects the
    run: at the first column tile the scratch, whatever it held, ends at the step from the initial state; at a middle
    tile it goes from the state the point before left to its step; at the last tile so too, and the output's buffer
    ends at the step's result. Elsewhere the output's buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4]
  have hN : t.val < 32 := lt_of_lt_of_eq t.isLt (show cfg0.N = 32 from N_0)
  by_cases h0 : t.val % 8 = 0
  · have h1 : ¬t.val % 8 = 7 := by omega
    rw [leaves5_idle m c t h1, stAt_first m c t h0]
    unfold ptStep
    by_cases hz : t.val = 0
    · rw [PhiS_castSucc m c t, PhiS_zero m c _ _ hz, scoped0_eq]
      iintro ⟨⟨HM, HS, HA⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ ((hcond0 t).mpr h0) (fun h => h1 ((hcond1 t).mp h))
        (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      isplitl [HA]; · iexact HA
      iintro ⟨H0, H1, H2, H3, H4, H5, HM, HS, HA⟩
      isplitl [HM HS HA]
      · isplitl [HM]; · iexact HM
        isplitl [HS]; · iexact HS
        iexact HA
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HM, HS, HA⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ ((hcond0 t).mpr h0) (fun h => h1 ((hcond1 t).mp h))
        (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexists _; iexact HM
      isplitl [HS]; · iexists _; iexact HS
      isplitl [HA]; · iexists _; iexact HA
      iintro ⟨H0, H1, H2, H3, H4, H5, HM, HS, HA⟩
      isplitl [HM HS HA]
      · isplitl [HM]; · iexact HM
        isplitl [HS]; · iexact HS
        iexact HA
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [leaves5_live m c t h1, stAt_next m c t h0]
      unfold ptStep
      rw [PhiS_castSucc m c t, PhiS_pos m c _ _ hz]
      iintro ⟨⟨HM, HS, HA⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ _ _ _ _ (fun h => h0 ((hcond0 t).mp h)) ((hcond1 t).mpr h1)
        (iblk m c 0 t) (iblk m c 1 t) (iblk m c 2 t) (iblk m c 3 t) (iblk m c 4 t)
        (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HM]; · iexact HM
      isplitl [HS]; · iexact HS
      isplitl [HA]; · iexact HA
      iintro ⟨H0, H1, H2, H3, H4, H5, HM, HS, HA⟩
      isplitl [HM HS HA]
      · isplitl [HM]; · iexact HM
        isplitl [HS]; · iexact HS
        iexact HA
      isplitl [Ho]; · iexact Ho
      isplitl [H0]; · iexact H0
      isplitl [H1]; · iexact H1
      isplitl [H2]; · iexact H2
      isplitl [H3]; · iexact H3
      isplitl [H4]; · iexact H4
      iexact H5
    · rw [leaves5_idle m c t h1, stAt_next m c t h0]
      unfold ptStep
      rw [PhiS_castSucc m c t, PhiS_pos m c _ _ hz]
      iintro ⟨⟨HM, HS, HA⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ _ _ (fun h => h0 ((hcond0 t).mp h)) (fun h => h1 ((hcond1 t).mp h))
        (iblk m c 0 t) (iblk m c 1 t) (iblk m c 2 t) (iblk m c 3 t) (iblk m c 4 t) _
        (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      isplitl [HA]; · iexact HA
      iintro ⟨H0, H1, H2, H3, H4, H5, HM, HS, HA⟩
      isplitl [HM HS HA]
      · isplitl [HM]; · iexact HM
        isplitl [HS]; · iexact HS
        iexact HA
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The invariant at the region's two ends -/

/-- The scoped buffers the launch hands the region are the invariant before the first point. -/
theorem Phi_in (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the invariant gives them back: the state the scratch holds is forgotten. -/
theorem Phi_out (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scoped0_eq]
  iintro ⟨HM, HS, HA⟩
  isplitl [HM]; · iexists _; iexact HM
  isplitl [HS]; · iexists _; iexact HS
  iexists _; iexact HA

end Cert.Kernel.Hand

end
-- ==== Proof.Bits.KLaunch.lean ====
/-
  The kernel's launch: the run of the program from the body's obligation at every grid point. The buffers behind the
  windows' arrays make the proof data's arrays at entry (the node features' buffer split between its two windows), the
  three scratch buffers enter and leave the invariant at whatever they hold, and nothing else is routed.
-/
import proofs.«416319_j42090679501528_3_alg».proof.Proof.Bits.KFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The buffers behind the windows' arrays, each whole at the full share, are the proof data's arrays at entry: the
    node features' buffer, read by the row block's window and by the column tile's, splits into its two halves, one
    for each; every other buffer is one window's array, held whole. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0,
    show (bigSep (Finset.univ.image (Pipeline.arrRef spec0)) fun b => (((c.tc : Thread nD τ).loc b) ↦{fullShare} V m c b : sProp 𝕄))
        = iprop((((c.tc : Thread nD τ).loc main_arg0) ↦{fullShare} V m c main_arg0) ∗ (((c.tc : Thread nD τ).loc main_arg1) ↦{fullShare} V m c main_arg1)
            ∗ (((c.tc : Thread nD τ).loc main_arg2) ↦{fullShare} V m c main_arg2) ∗ (((c.tc : Thread nD τ).loc main_arg3) ↦{fullShare} V m c main_arg3)
            ∗ (((c.tc : Thread nD τ).loc main_v0) ↦{fullShare} V m c main_v0))
      from bigSep_eq_bigSepL_of_eq [main_arg0, main_arg1, main_arg2, main_arg3, main_v0] (by decide) (by decide) _]
  simp only [View.set_whole]
  have e0 : (dats m 0 c).share 0 = fullShare.left := rfl
  have e1 : (dats m 0 c).share 1 = fullShare.right := rfl
  have e2 : (dats m 0 c).share 2 = fullShare := rfl
  have e3 : (dats m 0 c).share 3 = fullShare := rfl
  have e4 : (dats m 0 c).share 4 = fullShare := rfl
  have e5 : (dats m 0 c).share 5 = fullShare := rfl
  rw [e0, e1, e2, e3, e4, e5]
  iintro ⟨H0, H1, H2, H3, H4⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  isplitl [H3]; · iexact H3
  iexact H4

/-! ## The launch -/

/-- The staging cells' launch element: every cell's owner at round 0 and a duty token for every transfer the
    pipeline issues. -/
def launchElt : UR sig nD τ := initOf (Pipeline.cells cfgs cellOf_inj) (Pipeline.launchToks cfgs cellOf_inj)

/-- Before the first point the invariant is the three scratch buffers at whatever they hold. -/
theorem phi_first (c : Dev nD) :
    iprop(emp ∗ Pipeline.scopedRest (Ix := Unit) (Name := ℕ) (U := UR sig nD τ) (Lvl := ℕ) (Val := Elt F) spec0 c)
      ⊢ (dats m 0 c).Φ 0 := by
  show _ ⊢ PhiS m c 0 (Nat.zero_le _)
  unfold PhiS
  iintro ⟨-, H⟩; iexact H

/-- What the invariant holds after the last point gives the three scratch buffers back, at whatever they hold. -/
theorem phi_last (c : Dev nD) :
    (dats m 0 c).Φ (Fin.last cfg0.N)
      ⊢ iprop(emp ∗ Pipeline.scopedRest (Ix := Unit) (Name := ℕ) (U := UR sig nD τ) (Lvl := ℕ) (Val := Elt F) spec0 c) := by
  rw [scoped0_eq]
  show PhiS m c (31 + 1) _ ⊢ _
  unfold PhiS
  iintro ⟨H1, H2, H3⟩
  isplitr; · iempintro
  isplitl [H1]; · iexists _; iexact H1
  isplitl [H2]; · iexists _; iexact H2
  iexists _; iexact H3

set_option backward.isDefEq.respectTransparency.types false in
/-- From any memory with zero counters, given the body's obligation at every grid point: every weakly fair execution
    of the program terminates, and every window's array ends at what the write-backs of all the points leave in it. -/
theorem run_main_of (hbody : ∀ c : Dev nD, Pipeline.BodyObligationLoose (dats m 0 c) (defs₀ (F := F)) Variants.none () Set.univ) :
    θ_run (defs (F := F)) (onTc (τ := τ) (main (F := F))) ⟨m, fun _ => 0, ρ⟩ (fun r => ∀ c : Dev nD, ∀ w : Fin cfg0.W,
      r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := hbody) (hne := block_pos0) (harr := arr_whole0) (hstage := stage_whole0) (howed := fun _ _ => rfl)
    (u₀ := launchElt) (hu₀ := .rfl)
    (V := V m)
    (hmain := fun c Q => by
      simp only [main, Prog.lift, Prog.bind_op, Prog.bind_ret]
      iintro ⟨Hk, Hb⟩; iapply Hk; iexact Hb)
    (hsplit := arrays_entry m)
    (X := fun _ => iprop(emp)) (Y := fun _ => iprop(emp)) (Z := fun _ => iprop(emp))
    (hX := fun c => by rw [unscopedRest0_eq]; iintro -; isplitr <;> iempintro)
    (hin := phi_first m)
    (hout := phi_last m)
    (QY := fun _ _ => True)
    (hY := fun c s' => by
      iintro ⟨-, -, HSI⟩; imodintro
      isplitr; · ipureintro; trivial
      iexact HSI)
    (hQ := fun _ h c w => (h c).1 w)

end Cert.Kernel.Hand

end
-- ==== Proof.Bits.KFrameOf.lean ====
/-
  The frame claim's post, and the result array named, from the launch's post: an input window's array ends as it
  began, so each of the four argument arrays is unchanged, and the result array ends at what the pipeline's
  write-backs leave.
-/
import proofs.«416319_j42090679501528_3_alg».proof.Proof.Bits.KLaunch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The run of @main: the launch, given the body obligation at every grid point. -/
theorem run_main : θ_run (defs (F := F)) (onTc (τ := τ) (main (F := F))) ⟨m, fun _ => 0, ρ⟩ (fun r => ∀ c : Dev nD, ∀ w : Fin cfg0.W,
      r.2.mem (((cfg0).spec w).arr.view.loc (c.tc : Thread nD τ)) = (dats m 0 c).arrAt w cfg0.N) :=
  run_main_of m ρ (fun c => (body_obligation m c).loose)

/-- An input window's array after the run is the array the region found. -/
theorem kept0 (c : Dev nD) : (dats m 0 c).arrAt 0 cfg0.N = m ((c : Thread nD τ).loc main_arg0) :=
  ((dats m 0 c).arrAt_in 0 rfl _).trans (A_eq m c 0)
theorem kept2 (c : Dev nD) : (dats m 0 c).arrAt 2 cfg0.N = m ((c : Thread nD τ).loc main_arg1) :=
  ((dats m 0 c).arrAt_in 2 rfl _).trans (A_eq m c 2)
theorem kept3 (c : Dev nD) : (dats m 0 c).arrAt 3 cfg0.N = m ((c : Thread nD τ).loc main_arg2) :=
  ((dats m 0 c).arrAt_in 3 rfl _).trans (A_eq m c 3)
theorem kept4 (c : Dev nD) : (dats m 0 c).arrAt 4 cfg0.N = m ((c : Thread nD τ).loc main_arg3) :=
  ((dats m 0 c).arrAt_in 4 rfl _).trans (A_eq m c 4)

/-- The run with the result array named and the four arguments unchanged. -/
theorem run_out : θ_run (defs (F := F)) (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨h c 5, (h c 0).trans (kept0 m c), (h c 2).trans (kept2 m c), (h c 3).trans (kept3 m c),
    (h c 4).trans (kept4 m c)⟩) (run_main m ρ)

/-- The frame: the program runs and its argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_out m ρ)

end Cert.Kernel.Hand

end
-- ==== Proof.KState.lean ====
/-
  The kernel body as a step on the online-softmax state, at any float instance.

  A grid point (i, j) holds a 1024-row block of node features (x0), a 512-row block of them (x1: the columns'
  nodes), the 1024 x 512 tile of relation codes (x2), the relations' weights (x3) and biases (x4). The body forms
  the tile's gated logits and folds them into three running quantities per row, kept in scratch between the
  points of one row block: the running maximum, the running sum of exponentials below it, and the running
  weighted sum of the column nodes' features. Each is one payload of the body's skeleton; this module only names
  their composition, so that the frame side (what the scratch holds after each point) and the value side (what
  that is, index by index) are stated over the same terms.
-/
import proofs.«416319_j42090679501528_3_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- Relation `k`'s bias as the one-element vector a load of cell `k` of the bias block answers. -/
def biasAt (x4 : Vec F S4 .f32) (k : Fin 4) : Vec F S1 .f32 := fun _ => x4 (ix1 k)

/-- The tile's gated logits: the four relations' rectified scores, selected by the relation code, the fill elsewhere. -/
def tileAlpha (x0 : Vec F S1024x128 .f32) (x1 : Vec F S512x128 .f32) (x2 : Vec F S1024x512 .i32) (x3 : Vec F S4x128 .f32)
    (x4 : Vec F S4 .f32) : FVec F S1024x512 .f32 :=
  k0_pay16 x2 (k0_pay11 x0 x1 x3) (k0_pay12 (F := F)) (k0_pay13 x0 x1 x3 (biasAt x4 0)) (k0_pay14 x0 x1 x3 (biasAt x4 0))
    (k0_pay15 x0 x1 x3 (biasAt x4 0)) (biasAt x4 1) (biasAt x4 2) (biasAt x4 3)

/-- The three running quantities of a row block: per row the maximum so far, the sum of exponentials below it, and
    the weighted sum of features. -/
structure St (F : FTy → Type) where
  mx : Vec F S1024x1 .f32
  sm : Vec F S1024x1 .f32
  acc : Vec F S1024x128 .f32

/-- The state a row block starts from: maximum -inf, both sums zero. -/
def St.init : St F := ⟨k0_pay8 (F := F), k0_pay9 (F := F), k0_pay10 (F := F)⟩

/-- One column tile folded in: the new maximum, the old sums rescaled to it plus the tile's. -/
def St.step (x0 : Vec F S1024x128 .f32) (x1 : Vec F S512x128 .f32) (x2 : Vec F S1024x512 .i32) (x3 : Vec F S4x128 .f32)
    (x4 : Vec F S4 .f32) (s : St F) : St F :=
  ⟨k0_pay6 (tileAlpha x0 x1 x2 x3 x4) s.mx, k0_pay4 (tileAlpha x0 x1 x2 x3 x4) s.mx s.sm,
    k0_pay5 x1 (tileAlpha x0 x1 x2 x3 x4) s.mx s.acc⟩

/-- What the last column tile's point writes out: the weighted sum over the sum of weights. -/
def St.result (s : St F) : FVec F S1024x128 .f32 := k0_pay7 s.acc s.sm

/-- The state after column tiles 0..j of a row block whose tiles' blocks are `x1 j`, `x2 j`. -/
def tileSt (x0 : Vec F S1024x128 .f32) (x1 : ℕ → Vec F S512x128 .f32) (x2 : ℕ → Vec F S1024x512 .i32) (x3 : Vec F S4x128 .f32)
    (x4 : Vec F S4 .f32) : ℕ → St F
  | 0 => St.step x0 (x1 0) (x2 0) x3 x4 St.init
  | j + 1 => St.step x0 (x1 (j + 1)) (x2 (j + 1)) x3 x4 (tileSt x0 x1 x2 x3 x4 j)

end Cert.KernelIdeal.Hand

end
-- ==== Proof.KBlocks.lean ====
/-
  The vocabulary the frame and the value side of the kernel share: the argument arrays as the region finds them,
  each window's block at a grid point read off its array, the two conditions of the body in closed form over the
  32 grid points (the first column tile of a row block: point ≡ 0 mod 8; the last: point ≡ 7 mod 8), where the
  output window is idle, and the online-softmax state after each grid point as a recursion over the points: a
  row block's first point starts from the initial state, every other point from what the point before left.
-/
import proofs.«416319_j42090679501528_3_alg».proof.Proof.Gen.KernelIdeal.Launch
import proofs.«416319_j42090679501528_3_alg».proof.Proof.Gen.KernelIdeal.Skeleton
import proofs.«416319_j42090679501528_3_alg».proof.Proof.Gen.KernelIdeal.Points
import proofs.«416319_j42090679501528_3_alg».proof.Proof.KState
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the blocks -/

/-- Core `c`'s TensorCore buffer contents when the region is entered: @main has no operation before it. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions over the grid -/

/-- The reset's condition: the column-tile coordinate is 0. -/
abbrev cond0 (i : grid0.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-- The write-out's condition: the column-tile coordinate is 7. -/
abbrev cond1 (i : grid0.Coords) : Prop := k0_cond2 i = 1#1
/-- It holds at the points ≡ 7 (mod 8). -/
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- Away from a row block's last column tile the body stores nothing into the output window: it is idle there, -/
theorem idleAt5 : ∀ t : Fin cfg0.N, ¬cond1 (grid0.coords t) → cfg0.idle 5 (grid0.coords t) = true := by decide +kernel
/-- and not written back there; -/
theorem noFlush5 : ∀ t : Fin cfg0.N, ¬cond1 (grid0.coords t) → (cfg0.win 5).flush t = false := by decide +kernel
/-- at the last column tile it is live. -/
theorem liveAt5 : ∀ t : Fin cfg0.N, cond1 (grid0.coords t) → cfg0.idle 5 (grid0.coords t) = false := by decide +kernel

/-! ## The memrefs the body is called with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)
/-- The three scratch operands: the running maximum, the running sum, the running weighted sum. -/
abbrev scMx : Memref sig .tc .vmem S1024x1 .f32 := Memref.whole cc0_scratch0
abbrev scSm : Memref sig .tc .vmem S1024x1 .f32 := Memref.whole cc0_scratch1
abbrev scAcc : Memref sig .tc .vmem S1024x128 .f32 := Memref.whole cc0_scratch2
/-- One staging buffer of the output window, through which its contents are stated. -/
abbrev VO5 : View sig .tc .vmem S1024x128 .f32 := (Memref.whole cc0_stg5_0 : Memref sig .tc .vmem S1024x128 .f32).view

/-- The region's class invariant with the scratch operands as memrefs owned at some contents. -/
theorem PhiA0_eq (c : Dev nD) :
    (Pipeline.ΦA spec0 c : sProp 𝕄)
      = iprop(iprop((∃ d, owns (c : Thread nD τ) scMx fullShare d) ∗ (∃ d, owns (c : Thread nD τ) scSm fullShare d) ∗ (∃ d, owns (c : Thread nD τ) scAcc fullShare d)) ∗ (∃ r, prngReg c r)) := by
  unfold Pipeline.ΦA; rw [scopedRest0_eq]; simp only [scMx, scSm, scAcc, owns_whole]; try rfl

/-! ## The state after each grid point -/

/-- The body's step at point `t`: the point's five input blocks folded into a state. -/
def ptStep (c : Dev nD) (t : Fin cfg0.N) (s : St F) : St F :=
  St.step (iblk m c 0 t) (iblk m c 1 t) (iblk m c 2 t) (iblk m c 3 t) (iblk m c 4 t) s

/-- What the three scratch buffers hold after the body at position `n`: at a row block's first point the step from
    the initial state, elsewhere the step from what the point before left. -/
def stAt (c : Dev nD) : (n : ℕ) → n < cfg0.N → St F
  | 0, hn => ptStep m c ⟨0, hn⟩ St.init
  | n + 1, hn =>
    if (n + 1) % 8 = 0 then ptStep m c ⟨n + 1, hn⟩ St.init
    else ptStep m c ⟨n + 1, hn⟩ (stAt c n (Nat.lt_of_succ_lt hn))

/-- At a row block's first point. -/
theorem stAt_first (c : Dev nD) (t : Fin cfg0.N) (h0 : t.val % 8 = 0) : stAt m c t.val t.isLt = ptStep m c t St.init := by
  obtain ⟨n, hn⟩ := t
  cases n with
  | zero => rfl
  | succ n => exact if_pos h0

/-- At any other point. -/
theorem stAt_next (c : Dev nD) (t : Fin cfg0.N) (h0 : ¬t.val % 8 = 0) :
    stAt m c t.val t.isLt = ptStep m c t (stAt m c (t.val - 1) (Nat.lt_of_le_of_lt (Nat.sub_le _ _) t.isLt)) := by
  obtain ⟨n, hn⟩ := t
  cases n with
  | zero => exact absurd (Nat.zero_mod _) h0
  | succ n => exact if_neg h0

end Cert.KernelIdeal.Hand

end
-- ==== Proof.KRunLib.lean ====
/-
  What the three runs of the body share: a buffer stored whole reads back the stored value; a whole-buffer load
  reads the contents; a one-cell load of the bias block reads that relation's bias.
-/
import proofs.«416319_j42090679501528_3_alg».proof.Proof.KBlocks
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

/-- The zero offsets of a rank-2 whole-buffer access, however spelt. -/
theorem hz2 : (![0, 0] : Fin 2 → Nat) = fun _ => 0 := funext fun a => by fin_cases a <;> rfl

/-- A buffer whose LAST store is of the whole shape reads back that store's value, whatever it held before and whatever
    the earlier stores were. -/
theorem read_store_whole {S : Shape} {e : EltTy} (v : View sig .tc .vmem S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A one-cell load of the bias block at cell `n` reads the one-element vector of relation `n`'s bias: the cell's only
    index is `n` (offset `n`, stride one, the local coordinate zero). -/
theorem ld_bias (x4 : Vec F S4 .f32) (n : ℕ) (hn : n < 4) (inb : ∀ a, (![n] : Fin 1 → ℕ) a + S1.size a ≤ S4.size a) :
    View.ld x4 (Rect.unit (s := S4) ![n] S1.size inb) = biasAt x4 ⟨n, hn⟩ := by
  funext j
  show x4 _ = x4 _
  congr 1
  funext a
  match a with
  | ⟨0, h0⟩ =>
    apply Fin.ext
    have h1 : (j ⟨0, h0⟩ : ℕ) < 1 := (j ⟨0, h0⟩).isLt
    show n + 1 * (j ⟨0, h0⟩ : ℕ) = n
    omega

theorem ld_bias0 (x4 : Vec F S4 .f32) : View.ld x4 (Rect.unit (s := S4) ![0] S1.size inb_S4_S1_0) = biasAt x4 0 :=
  ld_bias x4 0 (by decide) _
theorem ld_bias1 (x4 : Vec F S4 .f32) : View.ld x4 (Rect.unit (s := S4) ![1] S1.size inb_S4_S1_1) = biasAt x4 1 :=
  ld_bias x4 1 (by decide) _
theorem ld_bias2 (x4 : Vec F S4 .f32) : View.ld x4 (Rect.unit (s := S4) ![2] S1.size inb_S4_S1_2) = biasAt x4 2 :=
  ld_bias x4 2 (by decide) _
theorem ld_bias3 (x4 : Vec F S4 .f32) : View.ld x4 (Rect.unit (s := S4) ![3] S1.size inb_S4_S1_3) = biasAt x4 3 :=
  ld_bias x4 3 (by decide) _

end Cert.KernelIdeal.Hand

end
-- ==== Proof.KRunA.lean ====
/-
  The body at a row block's FIRST column tile (the reset taken, the write-out not): whatever the three scratch buffers
  held, they end at the step from the initial state; the input buffers and the idle output buffer are handed back as found.
-/
import proofs.«416319_j42090679501528_3_alg».proof.Proof.KRunLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runA (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x512 .i32) (harg4 : arg4.IsWhole) (arg5 : Memref sig .tc .vmem S4x128 .f32) (harg5 : arg5.IsWhole) (arg6 : Memref sig .tc .vmem S4 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (hc0 : cond0 i) (hc1 : ¬cond1 i) (x0 : Vec F S1024x128 .f32) (x1 : Vec F S512x128 .f32) (x2 : Vec F S1024x512 .i32) (x3 : Vec F S4x128 .f32) (x4 : Vec F S4 .f32) (xi5 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (St.step x0 x1 x2 x3 x4 (St.init (F := F))).mx ∗ owns (c : Thread nD τ) arg9 fullShare (St.step x0 x1 x2 x3 x4 (St.init (F := F))).sm ∗ owns (c : Thread nD τ) arg10 fullShare (St.step x0 x1 x2 x3 x4 (St.init (F := F))).acc) -∗ K ⟨⟩))
      ⊢ wp frame (wpE (defs₀ (F := F)) Variants.none c none) E (cc0__local_agg_kernel i arg2 harg2 arg3 harg3 arg4 harg4 arg5 harg5 arg6 harg6 arg7 harg7 arg8 harg8 arg9 harg9 arg10 harg10) K := by
  simp only [cc0__local_agg_kernel_eq_skeleton]; unfold cc0__local_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; rotate_left
    · iexact H6
    · ipureintro
      refine (read_store_whole _ _ hz2 _ _ _).trans ?_
      sl_unfold_run_names
      simp only [View.readAt_eq_ld, harg2.read_unread, harg3.read_unread, harg4.read_unread, harg5.read_unread, harg6.read_unread, View.ld_unit_zero (S := S1024x128) hz2, View.ld_unit_zero (S := S512x128) hz2, View.ld_unit_zero (S := S1024x512) hz2, View.ld_unit_zero (S := S4x128) hz2, View.ld_unit_zero (S := S1024x1) hz2, View.readCov_unit_zero (S := S1024x1) _ hz2, View.readCov_unit_zero (S := S1024x128) _ hz2, St.step, St.init, tileAlpha]
      rw [ld_bias0, ld_bias1, ld_bias2, ld_bias3]
  isplitl [H7]
  · iexists _; isplitr; rotate_left
    · iexact H7
    · ipureintro
      refine (read_store_whole _ _ hz2 _ _ _).trans ?_
      sl_unfold_run_names
      simp only [View.readAt_eq_ld, harg2.read_unread, harg3.read_unread, harg4.read_unread, harg5.read_unread, harg6.read_unread, View.ld_unit_zero (S := S1024x128) hz2, View.ld_unit_zero (S := S512x128) hz2, View.ld_unit_zero (S := S1024x512) hz2, View.ld_unit_zero (S := S4x128) hz2, View.ld_unit_zero (S := S1024x1) hz2, View.readCov_unit_zero (S := S1024x1) _ hz2, View.readCov_unit_zero (S := S1024x128) _ hz2, St.step, St.init, tileAlpha]
      rw [ld_bias0, ld_bias1, ld_bias2, ld_bias3]
  · iexists _; isplitr; rotate_left
    · iexact H8
    · ipureintro
      refine (read_store_whole _ _ hz2 _ _ _).trans ?_
      sl_unfold_run_names
      simp only [View.readAt_eq_ld, harg2.read_unread, harg3.read_unread, harg4.read_unread, harg5.read_unread, harg6.read_unread, View.ld_unit_zero (S := S1024x128) hz2, View.ld_unit_zero (S := S512x128) hz2, View.ld_unit_zero (S := S1024x512) hz2, View.ld_unit_zero (S := S4x128) hz2, View.ld_unit_zero (S := S1024x1) hz2, View.readCov_unit_zero (S := S1024x1) _ hz2, View.readCov_unit_zero (S := S1024x128) _ hz2, St.step, St.init, tileAlpha]
      rw [ld_bias0, ld_bias1, ld_bias2, ld_bias3]

end Cert.KernelIdeal.Hand

end
-- ==== Proof.KRunB.lean ====
/-
  The body at a column tile that is neither the first nor the last of its row block: the scratch buffers go from a
  state to its step; the input buffers and the idle output buffer are handed back as found.
-/
import proofs.«416319_j42090679501528_3_alg».proof.Proof.KRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runB (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x512 .i32) (harg4 : arg4.IsWhole) (arg5 : Memref sig .tc .vmem S4x128 .f32) (harg5 : arg5.IsWhole) (arg6 : Memref sig .tc .vmem S4 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (hc0 : ¬cond0 i) (hc1 : ¬cond1 i) (x0 : Vec F S1024x128 .f32) (x1 : Vec F S512x128 .f32) (x2 : Vec F S1024x512 .i32) (x3 : Vec F S4x128 .f32) (x4 : Vec F S4 .f32) (xi5 : Vec F S1024x128 .f32) (s : St F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
        ∗ owns (c : Thread nD τ) arg8 fullShare s.mx ∗ owns (c : Thread nD τ) arg9 fullShare s.sm ∗ owns (c : Thread nD τ) arg10 fullShare s.acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare (St.step x0 x1 x2 x3 x4 s).mx ∗ owns (c : Thread nD τ) arg9 fullShare (St.step x0 x1 x2 x3 x4 s).sm ∗ owns (c : Thread nD τ) arg10 fullShare (St.step x0 x1 x2 x3 x4 s).acc) -∗ K ⟨⟩))
      ⊢ wp frame (wpE (defs₀ (F := F)) Variants.none c none) E (cc0__local_agg_kernel i arg2 harg2 arg3 harg3 arg4 harg4 arg5 harg5 arg6 harg6 arg7 harg7 arg8 harg8 arg9 harg9 arg10 harg10) K := by
  simp only [cc0__local_agg_kernel_eq_skeleton]; unfold cc0__local_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; rotate_left
    · iexact H6
    · ipureintro
      refine (read_store_whole _ _ hz2 _ _ _).trans ?_
      sl_unfold_run_names
      simp only [View.readAt_eq_ld, harg2.read_unread, harg3.read_unread, harg4.read_unread, harg5.read_unread, harg6.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, tileAlpha]
      rw [ld_bias0, ld_bias1, ld_bias2, ld_bias3]
  isplitl [H7]
  · iexists _; isplitr; rotate_left
    · iexact H7
    · ipureintro
      refine (read_store_whole _ _ hz2 _ _ _).trans ?_
      sl_unfold_run_names
      simp only [View.readAt_eq_ld, harg2.read_unread, harg3.read_unread, harg4.read_unread, harg5.read_unread, harg6.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, tileAlpha]
      rw [ld_bias0, ld_bias1, ld_bias2, ld_bias3]
  · iexists _; isplitr; rotate_left
    · iexact H8
    · ipureintro
      refine (read_store_whole _ _ hz2 _ _ _).trans ?_
      sl_unfold_run_names
      simp only [View.readAt_eq_ld, harg2.read_unread, harg3.read_unread, harg4.read_unread, harg5.read_unread, harg6.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, tileAlpha]
      rw [ld_bias0, ld_bias1, ld_bias2, ld_bias3]

end Cert.KernelIdeal.Hand

end
-- ==== Proof.KRunC.lean ====
/-
  The body at a row block's LAST column tile (the write-out taken, the reset not): the scratch buffers go from a state
  to its step, and the output buffer, whatever it held, ends at the step's result.
-/
import proofs.«416319_j42090679501528_3_alg».proof.Proof.KRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runC (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x512 .i32) (harg4 : arg4.IsWhole) (arg5 : Memref sig .tc .vmem S4x128 .f32) (harg5 : arg5.IsWhole) (arg6 : Memref sig .tc .vmem S4 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (hc0 : ¬cond0 i) (hc1 : cond1 i) (x0 : Vec F S1024x128 .f32) (x1 : Vec F S512x128 .f32) (x2 : Vec F S1024x512 .i32) (x3 : Vec F S4x128 .f32) (x4 : Vec F S4 .f32) (s : St F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ owns (c : Thread nD τ) arg8 fullShare s.mx ∗ owns (c : Thread nD τ) arg9 fullShare s.sm ∗ owns (c : Thread nD τ) arg10 fullShare s.acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (St.step x0 x1 x2 x3 x4 s).result
            ∗ owns (c : Thread nD τ) arg8 fullShare (St.step x0 x1 x2 x3 x4 s).mx ∗ owns (c : Thread nD τ) arg9 fullShare (St.step x0 x1 x2 x3 x4 s).sm ∗ owns (c : Thread nD τ) arg10 fullShare (St.step x0 x1 x2 x3 x4 s).acc) -∗ K ⟨⟩))
      ⊢ wp frame (wpE (defs₀ (F := F)) Variants.none c none) E (cc0__local_agg_kernel i arg2 harg2 arg3 harg3 arg4 harg4 arg5 harg5 arg6 harg6 arg7 harg7 arg8 harg8 arg9 harg9 arg10 harg10) K := by
  simp only [cc0__local_agg_kernel_eq_skeleton]; unfold cc0__local_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; rotate_left
    · iexact H5
    · ipureintro
      refine (read_store_whole _ _ hz2 _ _ _).trans ?_
      sl_unfold_run_names
      simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, St.result, tileAlpha, View.readCov_unit_zero (S := S1024x128) _ hz2, View.readCov_unit_zero (S := S1024x1) _ hz2]
      rw [ld_bias0, ld_bias1, ld_bias2, ld_bias3]
  isplitl [H6]
  · iexists _; isplitr; rotate_left
    · iexact H6
    · ipureintro
      refine (read_store_whole _ _ hz2 _ _ _).trans ?_
      sl_unfold_run_names
      simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, St.result, tileAlpha]
      rw [ld_bias0, ld_bias1, ld_bias2, ld_bias3]
  isplitl [H7]
  · iexists _; isplitr; rotate_left
    · iexact H7
    · ipureintro
      refine (read_store_whole _ _ hz2 _ _ _).trans ?_
      sl_unfold_run_names
      simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, St.result, tileAlpha]
      rw [ld_bias0, ld_bias1, ld_bias2, ld_bias3]
  · iexists _; isplitr; rotate_left
    · iexact H8
    · ipureintro
      refine (read_store_whole _ _ hz2 _ _ _).trans ?_
      sl_unfold_run_names
      simp only [View.readAt_eq_ld, harg2.read_unread, harg3.read_unread, harg4.read_unread, harg5.read_unread, harg6.read_unread, harg7.read_unread, harg8.read_unread, harg9.read_unread, harg10.read_unread, View.ld_unit_zero (S := S1024x128) hz2, View.ld_unit_zero (S := S512x128) hz2, View.ld_unit_zero (S := S1024x512) hz2, View.ld_unit_zero (S := S4x128) hz2, View.ld_unit_zero (S := S1024x1) hz2, St.step, St.result, tileAlpha]
      rw [ld_bias0, ld_bias1, ld_bias2, ld_bias3]

end Cert.KernelIdeal.Hand

end
-- ==== Proof.KFrame.lean ====
/-
  The kernel's frame and its launch: the pipeline's proof data on a core (what each window's buffer holds after the
  body at every grid point, the invariant the body keeps between points), the body obligation at every point from the
  three runs of the body, and the run of @main. The node features are handed to the kernel twice, as the row block's
  window and as the column tile's: the two windows read one array, each holding half of its share.
-/
import proofs.«416319_j42090679501528_3_alg».proof.Proof.KRunC
import Idealize.ShloMosaic.Lib.Pipeline.Frame
import Idealize.ShloMosaic.Lib.Pipeline.Launch
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- The scoped buffers the pipeline does not stage, as the three scratch memrefs owned at some contents. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scMx fullShare d) ∗ (∃ d, owns (c : Thread nD τ) scSm fullShare d) ∗ (∃ d, owns (c : Thread nD τ) scAcc fullShare d)) := by
  rw [scopedRest0_eq]; simp only [scMx, scSm, scAcc, owns_whole]; try rfl

/-- The invariant before position `n`: before the first point the three scratch buffers at anything; afterwards at
    the state the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scMx fullShare (stAt m c n hn).mx ∗ owns (c : Thread nD τ) scSm fullShare (stAt m c n hn).sm ∗ owns (c : Thread nD τ) scAcc fullShare (stAt m c n hn).acc)

/-! ## The proof data -/

/-- The proof data of the pipeline on core `c`: the arrays as the region finds them; after the body at a point each
    input's buffer at its block, the output's at the result of the state there (where the output window is idle that
    value is a placeholder nothing consults); the invariant `PhiS`; the node features' array held half by the row
    block's window and half by the column tile's, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).result
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after5 (c : Dev nD) (t : Fin cfg0.N) : (dats m 0 c).after 5 t = (stAt m c t.val t.isLt).result := by
  dsimp only [dats]

/-! ## What the body finds in the inputs' buffers -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The invariant, restated -/

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scMx fullShare (stAt m c n hn).mx ∗ owns (c : Thread nD τ) scSm fullShare (stAt m c n hn).sm ∗ owns (c : Thread nD τ) scAcc fullShare (stAt m c n hn).acc) := rfl

theorem PhiS_pos (c : Dev nD) (n : ℕ) (h : n ≤ cfg0.N) (hz : n ≠ 0) :
    PhiS m c n h = iprop(owns (c : Thread nD τ) scMx fullShare (stAt m c (n - 1) (by omega)).mx ∗ owns (c : Thread nD τ) scSm fullShare (stAt m c (n - 1) (by omega)).sm ∗ owns (c : Thread nD τ) scAcc fullShare (stAt m c (n - 1) (by omega)).acc) := by
  cases n with
  | zero => exact absurd rfl hz
  | succ n => rfl

theorem PhiS_castSucc (c : Dev nD) (t : Fin cfg0.N) :
    (dats m 0 c).Φ t.castSucc = PhiS m c t.val (Nat.le_of_lt t.isLt) := by
  dsimp only [dats]; simp only [Fin.coe_castSucc]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]
theorem leaves4 (c : Dev nD) (t : Fin cfg0.N) : (dats m 0 c).leavesExact 4 t = owns (c : Thread nD τ) (ms4 t) fullShare (iblk m c 4 t) := by
  unfold Dat.leavesExact; rw [liveAt4 t, after4]
/-- Where the write-out is taken the output's buffer ends at the state's result; -/
theorem leaves5_live (c : Dev nD) (t : Fin cfg0.N) (h1 : t.val % 8 = 7) :
    (dats m 0 c).leavesExact 5 t = owns (c : Thread nD τ) (ms5 t) fullShare (stAt m c t.val t.isLt).result := by
  unfold Dat.leavesExact; rw [liveAt5 t ((hcond1 t).mpr h1), after5]
/-- elsewhere it is handed back as found. -/
theorem leaves5_idle (c : Dev nD) (t : Fin cfg0.N) (h1 : ¬t.val % 8 = 7) :
    (dats m 0 c).leavesExact 5 t = iprop(∃ d, owns (c : Thread nD τ) (ms5 t) fullShare ((dats m 0 c).before 5 t d)) :=
  Dat.leavesExact_idle (dats m 0 c) 5 t (idleAt5 t (fun h => h1 ((hcond1 t).mp h))) (noFlush5 t (fun h => h1 ((hcond1 t).mp h)))

set_option maxHeartbeats 4800000 in
/-- The body at any point. The inputs' buffers hold their blocks; the point's position in its row block selects the
    run: at the first column tile the scratch, whatever it held, ends at the step from the initial state; at a middle
    tile it goes from the state the point before left to its step; at the last tile so too, and the output's buffer
    ends at the step's result. Elsewhere the output's buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4]
  have hN : t.val < 32 := lt_of_lt_of_eq t.isLt (show cfg0.N = 32 from N_0)
  by_cases h0 : t.val % 8 = 0
  · have h1 : ¬t.val % 8 = 7 := by omega
    rw [leaves5_idle m c t h1, stAt_first m c t h0]
    unfold ptStep
    by_cases hz : t.val = 0
    · rw [PhiS_castSucc m c t, PhiS_zero m c _ _ hz, scoped0_eq]
      iintro ⟨⟨HM, HS, HA⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ ((hcond0 t).mpr h0) (fun h => h1 ((hcond1 t).mp h))
        (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      isplitl [HA]; · iexact HA
      iintro ⟨H0, H1, H2, H3, H4, H5, HM, HS, HA⟩
      isplitl [HM HS HA]
      · isplitl [HM]; · iexact HM
        isplitl [HS]; · iexact HS
        iexact HA
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HM, HS, HA⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ ((hcond0 t).mpr h0) (fun h => h1 ((hcond1 t).mp h))
        (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexists _; iexact HM
      isplitl [HS]; · iexists _; iexact HS
      isplitl [HA]; · iexists _; iexact HA
      iintro ⟨H0, H1, H2, H3, H4, H5, HM, HS, HA⟩
      isplitl [HM HS HA]
      · isplitl [HM]; · iexact HM
        isplitl [HS]; · iexact HS
        iexact HA
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [leaves5_live m c t h1, stAt_next m c t h0]
      unfold ptStep
      rw [PhiS_castSucc m c t, PhiS_pos m c _ _ hz]
      iintro ⟨⟨HM, HS, HA⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ _ _ _ _ (fun h => h0 ((hcond0 t).mp h)) ((hcond1 t).mpr h1)
        (iblk m c 0 t) (iblk m c 1 t) (iblk m c 2 t) (iblk m c 3 t) (iblk m c 4 t)
        (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HM]; · iexact HM
      isplitl [HS]; · iexact HS
      isplitl [HA]; · iexact HA
      iintro ⟨H0, H1, H2, H3, H4, H5, HM, HS, HA⟩
      isplitl [HM HS HA]
      · isplitl [HM]; · iexact HM
        isplitl [HS]; · iexact HS
        iexact HA
      isplitl [Ho]; · iexact Ho
      isplitl [H0]; · iexact H0
      isplitl [H1]; · iexact H1
      isplitl [H2]; · iexact H2
      isplitl [H3]; · iexact H3
      isplitl [H4]; · iexact H4
      iexact H5
    · rw [leaves5_idle m c t h1, stAt_next m c t h0]
      unfold ptStep
      rw [PhiS_castSucc m c t, PhiS_pos m c _ _ hz]
      iintro ⟨⟨HM, HS, HA⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ _ _ (fun h => h0 ((hcond0 t).mp h)) (fun h => h1 ((hcond1 t).mp h))
        (iblk m c 0 t) (iblk m c 1 t) (iblk m c 2 t) (iblk m c 3 t) (iblk m c 4 t) _
        (stAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      isplitl [HA]; · iexact HA
      iintro ⟨H0, H1, H2, H3, H4, H5, HM, HS, HA⟩
      isplitl [HM HS HA]
      · isplitl [HM]; · iexact HM
        isplitl [HS]; · iexact HS
        iexact HA
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The invariant at the region's two ends -/

/-- The scoped buffers the launch hands the region are the invariant before the first point. -/
theorem Phi_in (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the invariant gives them back: the state the scratch holds is forgotten. -/
theorem Phi_out (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scoped0_eq]
  iintro ⟨HM, HS, HA⟩
  isplitl [HM]; · iexists _; iexact HM
  isplitl [HS]; · iexists _; iexact HS
  iexists _; iexact HA

end Cert.KernelIdeal.Hand

end
-- ==== Proof.KLaunch.lean ====
/-
  The kernel's launch: the run of the program from the body's obligation at every grid point. The buffers behind the
  windows' arrays make the proof data's arrays at entry (the node features' buffer split between its two windows), the
  three scratch buffers enter and leave the invariant at whatever they hold, and nothing else is routed.
-/
import proofs.«416319_j42090679501528_3_alg».proof.Proof.KFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The buffers behind the windows' arrays, each whole at the full share, are the proof data's arrays at entry: the
    node features' buffer, read by the row block's window and by the column tile's, splits into its two halves, one
    for each; every other buffer is one window's array, held whole. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0,
    show (bigSep (Finset.univ.image (Pipeline.arrRef spec0)) fun b => (((c.tc : Thread nD τ).loc b) ↦{fullShare} V m c b : sProp 𝕄))
        = iprop((((c.tc : Thread nD τ).loc main_arg0) ↦{fullShare} V m c main_arg0) ∗ (((c.tc : Thread nD τ).loc main_arg1) ↦{fullShare} V m c main_arg1)
            ∗ (((c.tc : Thread nD τ).loc main_arg2) ↦{fullShare} V m c main_arg2) ∗ (((c.tc : Thread nD τ).loc main_arg3) ↦{fullShare} V m c main_arg3)
            ∗ (((c.tc : Thread nD τ).loc main_v0) ↦{fullShare} V m c main_v0))
      from bigSep_eq_bigSepL_of_eq [main_arg0, main_arg1, main_arg2, main_arg3, main_v0] (by decide) (by decide) _]
  simp only [View.set_whole]
  have e0 : (dats m 0 c).share 0 = fullShare.left := rfl
  have e1 : (dats m 0 c).share 1 = fullShare.right := rfl
  have e2 : (dats m 0 c).share 2 = fullShare := rfl
  have e3 : (dats m 0 c).share 3 = fullShare := rfl
  have e4 : (dats m 0 c).share 4 = fullShare := rfl
  have e5 : (dats m 0 c).share 5 = fullShare := rfl
  rw [e0, e1, e2, e3, e4, e5]
  iintro ⟨H0, H1, H2, H3, H4⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  isplitl [H3]; · iexact H3
  iexact H4

/-! ## The launch -/

/-- The staging cells' launch element: every cell's owner at round 0 and a duty token for every transfer the
    pipeline issues. -/
def launchElt : UR sig nD τ := initOf (Pipeline.cells cfgs cellOf_inj) (Pipeline.launchToks cfgs cellOf_inj)

/-- Before the first point the invariant is the three scratch buffers at whatever they hold. -/
theorem phi_first (c : Dev nD) :
    iprop(emp ∗ Pipeline.scopedRest (Ix := Unit) (Name := ℕ) (U := UR sig nD τ) (Lvl := ℕ) (Val := Elt F) spec0 c)
      ⊢ (dats m 0 c).Φ 0 := by
  show _ ⊢ PhiS m c 0 (Nat.zero_le _)
  unfold PhiS
  iintro ⟨-, H⟩; iexact H

/-- What the invariant holds after the last point gives the three scratch buffers back, at whatever they hold. -/
theorem phi_last (c : Dev nD) :
    (dats m 0 c).Φ (Fin.last cfg0.N)
      ⊢ iprop(emp ∗ Pipeline.scopedRest (Ix := Unit) (Name := ℕ) (U := UR sig nD τ) (Lvl := ℕ) (Val := Elt F) spec0 c) := by
  rw [scoped0_eq]
  show PhiS m c (31 + 1) _ ⊢ _
  unfold PhiS
  iintro ⟨H1, H2, H3⟩
  isplitr; · iempintro
  isplitl [H1]; · iexists _; iexact H1
  isplitl [H2]; · iexists _; iexact H2
  iexists _; iexact H3

set_option backward.isDefEq.respectTransparency.types false in
/-- From any memory with zero counters, given the body's obligation at every grid point: every weakly fair execution
    of the program terminates, and every window's array ends at what the write-backs of all the points leave in it. -/
theorem run_main_of (hbody : ∀ c : Dev nD, Pipeline.BodyObligationLoose (dats m 0 c) (defs₀ (F := F)) Variants.none () Set.univ) :
    θ_run (defs (F := F)) (onTc (τ := τ) (main (F := F))) ⟨m, fun _ => 0, ρ⟩ (fun r => ∀ c : Dev nD, ∀ w : Fin cfg0.W,
      r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := hbody) (hne := block_pos0) (harr := arr_whole0) (hstage := stage_whole0) (howed := fun _ _ => rfl)
    (u₀ := launchElt) (hu₀ := .rfl)
    (V := V m)
    (hmain := fun c Q => by
      simp only [main, Prog.lift, Prog.bind_op, Prog.bind_ret]
      iintro ⟨Hk, Hb⟩; iapply Hk; iexact Hb)
    (hsplit := arrays_entry m)
    (X := fun _ => iprop(emp)) (Y := fun _ => iprop(emp)) (Z := fun _ => iprop(emp))
    (hX := fun c => by rw [unscopedRest0_eq]; iintro -; isplitr <;> iempintro)
    (hin := phi_first m)
    (hout := phi_last m)
    (QY := fun _ _ => True)
    (hY := fun c s' => by
      iintro ⟨-, -, HSI⟩; imodintro
      isplitr; · ipureintro; trivial
      iexact HSI)
    (hQ := fun _ h c w => (h c).1 w)

end Cert.KernelIdeal.Hand

end
-- ==== Proof.KFrameOf.lean ====
/-
  The frame claim's post, and the result array named, from the launch's post: an input window's array ends as it
  began, so each of the four argument arrays is unchanged, and the result array ends at what the pipeline's
  write-backs leave.
-/
import proofs.«416319_j42090679501528_3_alg».proof.Proof.KLaunch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The run of @main: the launch, given the body obligation at every grid point. -/
theorem run_main : θ_run (defs (F := F)) (onTc (τ := τ) (main (F := F))) ⟨m, fun _ => 0, ρ⟩ (fun r => ∀ c : Dev nD, ∀ w : Fin cfg0.W,
      r.2.mem (((cfg0).spec w).arr.view.loc (c.tc : Thread nD τ)) = (dats m 0 c).arrAt w cfg0.N) :=
  run_main_of m ρ (fun c => (body_obligation m c).loose)

/-- An input window's array after the run is the array the region found. -/
theorem kept0 (c : Dev nD) : (dats m 0 c).arrAt 0 cfg0.N = m ((c : Thread nD τ).loc main_arg0) :=
  ((dats m 0 c).arrAt_in 0 rfl _).trans (A_eq m c 0)
theorem kept2 (c : Dev nD) : (dats m 0 c).arrAt 2 cfg0.N = m ((c : Thread nD τ).loc main_arg1) :=
  ((dats m 0 c).arrAt_in 2 rfl _).trans (A_eq m c 2)
theorem kept3 (c : Dev nD) : (dats m 0 c).arrAt 3 cfg0.N = m ((c : Thread nD τ).loc main_arg2) :=
  ((dats m 0 c).arrAt_in 3 rfl _).trans (A_eq m c 3)
theorem kept4 (c : Dev nD) : (dats m 0 c).arrAt 4 cfg0.N = m ((c : Thread nD τ).loc main_arg3) :=
  ((dats m 0 c).arrAt_in 4 rfl _).trans (A_eq m c 4)

/-- The run with the result array named and the four arguments unchanged. -/
theorem run_out : θ_run (defs (F := F)) (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨h c 5, (h c 0).trans (kept0 m c), (h c 2).trans (kept2 m c), (h c 3).trans (kept3 m c),
    (h c 4).trans (kept4 m c)⟩) (run_main m ρ)

/-- The frame: the program runs and its argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_out m ρ)

end Cert.KernelIdeal.Hand

end
-- ==== Proof.Spec.lean ====
/-
  What both programs compute, as one function of the four argument arrays over the extended reals.

  Nodes r, c range over 4096 rows of `hidden`; a relation code adj[r, c] in 1..4 selects which of four
  bilinear scores gates the pair. With
    score k r c = (sum over d of hidden[r, d] * hidden[c, d] * W[k, d]) + b[k]      (scoreOf, over the two feature rows),
    lrelu x     = x where 0 ≤ x, slope * x elsewhere,
    alpha r c   = lrelu (score (adj[r, c] - 1) r c) when adj[r, c] is 1, 2, 3 or 4 (the largest code tested last wins), a
                  large negative fill otherwise,
  the result is the row-softmax of alpha applied to hidden:
    out[r, d] = sum over c of (exp (alpha r c - M r) / S r) * hidden[c, d],
  M r the maximum of row r of alpha and S r the sum over c of exp (alpha r c - M r).
-/
import Idealize.ShloMosaic.PureOps.Ideal
import Idealize.ShloMosaic.Lib.ValueIdx

noncomputable section

open scoped BigOperators

namespace Cert.Attn

open Idealize.ShloMosaic Idealize.ShloMosaic.ValueIdx

/-- The node features, 4096 nodes by 128 channels. -/
abbrev Hid : Type := (⟨2, ![4096, 128]⟩ : Shape).Idx → EReal
/-- The relation codes of the node pairs. -/
abbrev Adj : Type := (⟨2, ![4096, 4096]⟩ : Shape).Idx → BitVec 32
/-- The four relations' channel weights. -/
abbrev Wt : Type := (⟨2, ![4, 128]⟩ : Shape).Idx → EReal
/-- The four relations' biases. -/
abbrev Bs : Type := (⟨1, ![4]⟩ : Shape).Idx → EReal

/-- The rectifier's slope on the negative side: the binary value of the f32 nearest 0.2. -/
def slope : EReal := Ideal.ofBits .f32 0x3E4CCCCD#32
/-- The fill of a pair no relation gates: the binary value of the f32 nearest -9e15. -/
def negBig : EReal := Ideal.ofBits .f32 0xD9FFCB9E#32

/-- The leaky rectifier. -/
def lrelu (x : EReal) : EReal := if (0 : EReal) ≤ x then x else slope * x

/-- The bilinear score of relation `k` between two nodes given by their feature rows `u` and `v`, with its bias. -/
def scoreOf (u v : Fin 128 → EReal) (W : Wt) (b : Bs) (k : Fin 4) : EReal :=
  (∑ d : Fin 128, u d * v d * W (ix2 k d)) + b (ix1 k)

/-- The gated logit of a pair of nodes with feature rows `u`, `v` and relation code `code`: the rectified score of
    the relation the code names (the largest code tested last), the fill for any other code. -/
def alphaOf (u v : Fin 128 → EReal) (code : BitVec 32) (W : Wt) (b : Bs) : EReal :=
  if code = 4#32 then lrelu (scoreOf u v W b 3)
  else if code = 3#32 then lrelu (scoreOf u v W b 2)
  else if code = 2#32 then lrelu (scoreOf u v W b 1)
  else if code = 1#32 then lrelu (scoreOf u v W b 0)
  else negBig

/-- The gated logit of the pair of nodes (r, c). -/
def alpha (h : Hid) (adj : Adj) (W : Wt) (b : Bs) (r c : Fin 4096) : EReal :=
  alphaOf (fun d => h (ix2 r d)) (fun d => h (ix2 c d)) (adj (ix2 r c)) W b

/-- The maximum of a row of logits. -/
def rowMax (a : Fin 4096 → EReal) : EReal := Finset.univ.sup a
/-- A logit's unnormalised weight: the exponential of its distance below the row's maximum. -/
def wgt (a : Fin 4096 → EReal) (c : Fin 4096) : EReal := Ideal.exp (a c - rowMax a)
/-- The row's normaliser. -/
def rowSum (a : Fin 4096 → EReal) : EReal := ∑ c : Fin 4096, wgt a c

/-- The attention output: each row's normalised weights applied to the node features. -/
def out (h : Hid) (adj : Adj) (W : Wt) (b : Bs) : Hid := fun y =>
  ∑ c : Fin 4096, Ideal.div (wgt (alpha h adj W b (y 0)) c) (rowSum (alpha h adj W b (y 0))) * h (ix2 c (y 1))

/-- Every entry of the three float arguments is a real number. -/
structure Finite (h : Hid) (W : Wt) (b : Bs) : Prop where
  h : ∀ i, ∃ x : ℝ, h i = (x : EReal)
  W : ∀ i, ∃ x : ℝ, W i = (x : EReal)
  b : ∀ i, ∃ x : ℝ, b i = (x : EReal)

end Cert.Attn

end
-- ==== Proof.KAlpha.lean ====
/-
  The tile's gated logits read at an index: entry (p, q) of the tile is the gated logit of the block's row p and the
  column block's row q under the tile's relation code there.

  The body multiplies the row block [1024, 128] by the transpose of a [2048, 128] stack: the column block four times
  over, copy k with each channel scaled by relation k's weight of that channel. Entry (p, 512 k + q) of the product
  is therefore the channel sum of x0[p, d] * (x1[q, d] * W[k, d]), relation k's bilinear form of the two nodes.
  Columns [512 k, 512 k + 512) plus the relation's bias are its scores on the tile; each passes the leaky rectifier
  (a select on "at least zero" between the score and its multiple by the slope), and the relation code picks among
  the four, code 4 tested last so it wins, the fill where no code matches.
-/
import proofs.«416319_j42090679501528_3_alg».proof.Proof.KState
import proofs.«416319_j42090679501528_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

namespace Alpha

/-! ## The product of a [1024, 128] by a [128, 2048] matrix read at an index

The contraction runs over the one shared axis of 128 channels: the left operand's index at output (p, c) and
contraction position d is (p, d), the right operand's is (d, c). -/

theorem lhs_dotRW_0 (j : S1024x2048.Idx) (k : dot_S1024x128_S128x2048_S1024x2048_1_0_0_1_n_n.contr.Idx) :
    ((dot_S1024x128_S128x2048_S1024x2048_1_0_0_1_n_n.lhsIdx j k) 0).val = (j 0).val := by
  unfold DotDims.lhsIdx
  rw [dif_neg (show ¬(0 : Fin S1024x128.rank) ∈ dot_S1024x128_S128x2048_S1024x2048_1_0_0_1_n_n.lhsBatch by decide),
    dif_pos (show (0 : Fin S1024x128.rank) ∈ dot_S1024x128_S128x2048_S1024x2048_1_0_0_1_n_n.lhsNonContracting by decide)]
  rfl

theorem lhs_dotRW_1 (j : S1024x2048.Idx) (k : dot_S1024x128_S128x2048_S1024x2048_1_0_0_1_n_n.contr.Idx) :
    ((dot_S1024x128_S128x2048_S1024x2048_1_0_0_1_n_n.lhsIdx j k) 1).val = (k ⟨0, by decide⟩).val :=
  DotDims.lhsIdx_val_of_single _ rfl j k

theorem rhs_dotRW_0 (j : S1024x2048.Idx) (k : dot_S1024x128_S128x2048_S1024x2048_1_0_0_1_n_n.contr.Idx) :
    ((dot_S1024x128_S128x2048_S1024x2048_1_0_0_1_n_n.rhsIdx j k) 0).val = (k ⟨0, by decide⟩).val :=
  DotDims.rhsIdx_val_of_single _ rfl j k

theorem rhs_dotRW_1 (j : S1024x2048.Idx) (k : dot_S1024x128_S128x2048_S1024x2048_1_0_0_1_n_n.contr.Idx) :
    ((dot_S1024x128_S128x2048_S1024x2048_1_0_0_1_n_n.rhsIdx j k) 1).val = (j 1).val := by
  unfold DotDims.rhsIdx
  rw [dif_neg (show ¬(1 : Fin S128x2048.rank) ∈ dot_S1024x128_S128x2048_S1024x2048_1_0_0_1_n_n.rhsBatch by decide),
    dif_pos (show (1 : Fin S128x2048.rank) ∈ dot_S1024x128_S128x2048_S1024x2048_1_0_0_1_n_n.rhsNonContracting by decide)]
  rfl

/-- The product into the zero accumulator at (p, c): the sum over the 128 channels. -/
theorem matmulRW_apply (A : FVec Ideal S1024x128 .bf16) (B : FVec Ideal S128x2048 .bf16) (p : Fin 1024) (c : Fin 2048) :
    matmul dot_S1024x128_S128x2048_S1024x2048_1_0_0_1_n_n none A B (constant (F := Ideal) S1024x2048 .f32 0x00000000#32) (ix2 p c)
      = ∑ d : Fin 128, A (ix2 p d) * B (ix2 d c) := by
  refine (Ideal.matmul_constant_zero_apply dot_S1024x128_S128x2048_S1024x2048_1_0_0_1_n_n none A B (ix2 p c)).trans ?_
  rw [← Equiv.sum_comp (contrEquiv1 dot_S1024x128_S128x2048_S1024x2048_1_0_0_1_n_n 128 rfl rfl).symm]
  refine Finset.sum_congr rfl fun d _ => ?_
  have hk := contrEquiv1_symm_val dot_S1024x128_S128x2048_S1024x2048_1_0_0_1_n_n 128 rfl rfl d
  have hl : dot_S1024x128_S128x2048_S1024x2048_1_0_0_1_n_n.lhsIdx (ix2 p c)
      ((contrEquiv1 dot_S1024x128_S128x2048_S1024x2048_1_0_0_1_n_n 128 rfl rfl).symm d) = ix2 p d := by
    funext a; apply Fin.ext
    match a with
    | ⟨0, _⟩ => exact lhs_dotRW_0 _ _
    | ⟨1, _⟩ => exact (lhs_dotRW_1 _ _).trans hk
  have hr : dot_S1024x128_S128x2048_S1024x2048_1_0_0_1_n_n.rhsIdx (ix2 p c)
      ((contrEquiv1 dot_S1024x128_S128x2048_S1024x2048_1_0_0_1_n_n 128 rfl rfl).symm d) = ix2 d c := by
    funext a; apply Fin.ext
    match a with
    | ⟨0, _⟩ => exact (rhs_dotRW_0 _ _).trans hk
    | ⟨1, _⟩ => exact rhs_dotRW_1 _ _
  rw [hl, hr]

/-! ## The column block weighted by a relation's channel weights, and the four stacked -/

/-- Row `k` of the weights cut out of the 4 x 128 block. -/
theorem slicesW (k : Fin 4) : S4x128.Slices ![k.val, 0] S1x128 := by
  revert k; decide

/-- The 512 column nodes' features, each channel scaled by relation `k`'s weight of that channel. -/
def wpiece (x1 : Vec Ideal S512x128 .f32) (x3 : Vec Ideal S4x128 .f32) (k : Fin 4) : FVec Ideal S512x128 .f32 :=
  mulf x1 (broadcastTo S512x128 (shapeCast S1x128 (shapeCast S128 (extractStridedSlice S1x128 ![k.val, 0] x3 (slicesW k))
    shapeCasts_S1x128_S128) shapeCasts_S128_S1x128) broadcasts_S1x128_S512x128)

theorem wpiece_apply (x1 : Vec Ideal S512x128 .f32) (x3 : Vec Ideal S4x128 .f32) (k : Fin 4) (q : Fin 512) (d : Fin 128) :
    wpiece x1 x3 k (ix2 q d) = x1 (ix2 q d) * x3 (ix2 k d) := by
  unfold wpiece
  refine congrArg (x1 (ix2 q d) * ·) ?_
  refine (broadcastTo_1b_ab_apply _ _ q d).trans ?_
  refine (shapeCast_a_1a_apply _ _ 0 d).trans ?_
  refine (shapeCast_1a_a_apply _ _ d).trans ?_
  exact slice2_axis0_apply k.val x3 (slicesW k) (0 : Fin 1) d k rfl

/-- Four 512-row pieces stacked along the rows, read at row 512 k + q: piece `k` at row `q`. -/
theorem stack4_apply (a : Fin 4 → FVec Ideal S512x128 .f32) (k : Fin 4) (q : Fin 512) (d : Fin 128) (c : Fin 2048)
    (hc : c.val = 512 * k.val + q.val) :
    concatenate S2048x128 0 [⟨S512x128, a 0⟩, ⟨S512x128, a 1⟩, ⟨S512x128, a 2⟩, ⟨S512x128, a 3⟩]
      concatenates_S512x128_S512x128_S512x128_S512x128_S2048x128_d0 (ix2 c d) = a k (ix2 q d) := by
  have hi : ∀ b : Fin S512x128.rank, b.cast (rfl : S512x128.rank = S2048x128.rank) ≠ (0 : Fin S2048x128.rank) →
      ((ix2 q d : S512x128.Idx) b).val = ((ix2 c d : S2048x128.Idx) (b.cast rfl)).val := fun b hb => by
    match b, hb with
    | ⟨0, _⟩, hb => exact absurd rfl hb
    | ⟨1, _⟩, _ => rfl
  match k, hc with
  | ⟨0, _⟩, hc =>
    exact concatenate_apply_piece 0 _ _ (ix2 c d) 0 (by show (0 : ℕ) < 4; decide) S512x128 (a 0) rfl rfl 0 rfl (ix2 q d) hi
      (by have hc' : c.val = 512 * 0 + q.val := hc; show 0 + q.val = c.val; omega)
  | ⟨1, _⟩, hc =>
    exact concatenate_apply_piece 0 _ _ (ix2 c d) 1 (by show (1 : ℕ) < 4; decide) S512x128 (a 1) rfl rfl 512 rfl (ix2 q d) hi
      (by have hc' : c.val = 512 * 1 + q.val := hc; show 512 + q.val = c.val; omega)
  | ⟨2, _⟩, hc =>
    exact concatenate_apply_piece 0 _ _ (ix2 c d) 2 (by show (2 : ℕ) < 4; decide) S512x128 (a 2) rfl rfl 1024 rfl (ix2 q d) hi
      (by have hc' : c.val = 512 * 2 + q.val := hc; show 1024 + q.val = c.val; omega)
  | ⟨3, _⟩, hc =>
    exact concatenate_apply_piece 0 _ _ (ix2 c d) 3 (by show (3 : ℕ) < 4; decide) S512x128 (a 3) rfl rfl 1536 rfl (ix2 q d) hi
      (by have hc' : c.val = 512 * 3 + q.val := hc; show 1536 + q.val = c.val; omega)

/-- The product the body forms is the row block times the transposed stack of the four weighted column blocks. -/
theorem pay11_eq (x0 : Vec Ideal S1024x128 .f32) (x1 : Vec Ideal S512x128 .f32) (x3 : Vec Ideal S4x128 .f32) :
    k0_pay11 x0 x1 x3 = matmul dot_S1024x128_S128x2048_S1024x2048_1_0_0_1_n_n none (truncf .bf16 x0 bitsLt_bf16_f32)
      (transpose S128x2048 [1, 0] (truncf .bf16 (concatenate S2048x128 0
        [⟨S512x128, wpiece x1 x3 0⟩, ⟨S512x128, wpiece x1 x3 1⟩, ⟨S512x128, wpiece x1 x3 2⟩, ⟨S512x128, wpiece x1 x3 3⟩]
        concatenates_S512x128_S512x128_S512x128_S512x128_S2048x128_d0) bitsLt_bf16_f32) transposes_S2048x128_p1_0_S128x2048)
      (constant (F := Ideal) S1024x2048 .f32 0x00000000#32) := rfl

/-- The product at (p, 512 k + q): the channel sum of the row node's features times the column node's weighted ones. -/
theorem pay11_apply (x0 : Vec Ideal S1024x128 .f32) (x1 : Vec Ideal S512x128 .f32) (x3 : Vec Ideal S4x128 .f32)
    (p : Fin 1024) (k : Fin 4) (q : Fin 512) (c : Fin 2048) (hc : c.val = 512 * k.val + q.val) :
    k0_pay11 x0 x1 x3 (ix2 p c) = ∑ d : Fin 128, x0 (ix2 p d) * (x1 (ix2 q d) * x3 (ix2 k d)) := by
  rw [pay11_eq]
  refine (matmulRW_apply _ _ p c).trans ?_
  refine Finset.sum_congr rfl fun d _ => ?_
  refine congrArg (x0 (ix2 p d) * ·) ?_
  refine (transpose_ix2_apply _ _ d c).trans ?_
  refine (stack4_apply (wpiece x1 x3) k q d c hc).trans ?_
  exact wpiece_apply x1 x3 k q d

/-! ## A relation's score, its rectifier, and the choice by the relation code -/

/-- Columns [512 k, 512 k + 512) of the product plus relation `k`'s bias, at (p, q): the relation's bilinear score of
    row node p and column node q. -/
theorem score_apply (x0 : Vec Ideal S1024x128 .f32) (x1 : Vec Ideal S512x128 .f32) (x3 : Vec Ideal S4x128 .f32)
    (x4 : Vec Ideal S4 .f32) (k : Fin 4) (o : Nat) (ho : o = 512 * k.val) (h : S1024x2048.Slices ![0, o] S1024x512)
    (p : Fin 1024) (q : Fin 512) :
    addf (extractStridedSlice S1024x512 ![0, o] (k0_pay11 x0 x1 x3) h)
        (broadcast S1024x512 (extractAt ![0] (biasAt x4 k) inpos_S1_p0)) (ix2 p q)
      = Cert.Attn.scoreOf (fun d => x0 (ix2 p d)) (fun d => x1 (ix2 q d)) x3 x4 k := by
  subst ho
  unfold Cert.Attn.scoreOf
  refine (addf_apply _ _ _).trans ?_
  refine congrArg₂ (· + ·) ?_ rfl
  refine (slice2_axis1_apply (512 * k.val) _ h p q ⟨512 * k.val + q.val, by omega⟩ rfl).trans ?_
  refine (pay11_apply x0 x1 x3 p k q _ rfl).trans ?_
  exact Finset.sum_congr rfl fun d _ => (mul_assoc _ _ _).symm

/-- The select on "the score is at least zero" between the score and its multiple by the slope is the leaky rectifier. -/
theorem rect_apply (s : FVec Ideal S1024x512 .f32) (i : S1024x512.Idx) :
    select (cmpf .oge s (broadcast S1024x512 (Scalar.ofBits .f32 0x00000000#32))) s
        (mulf (broadcast S1024x512 (Scalar.ofBits .f32 0x3E4CCCCD#32)) s) i = Cert.Attn.lrelu (s i) := by
  unfold Cert.Attn.lrelu Cert.Attn.slope
  show Scalar.select (Ideal.cmp .oge (s i) (Ideal.ofBits .f32 0x00000000#32)) (s i) (Ideal.ofBits .f32 0x3E4CCCCD#32 * s i) = _
  rw [Ideal.ofBits_zero_f32]
  unfold Ideal.cmp Scalar.select
  by_cases h : (0 : EReal) ≤ s i
  · rw [if_pos h]
    show (if BitVec.ofBool (decide ((0 : EReal) ≤ s i)) = 1 then s i else _) = s i
    rw [decide_eq_true h]
    exact if_pos rfl
  · rw [if_neg h]
    show (if BitVec.ofBool (decide ((0 : EReal) ≤ s i)) = 1 then s i else Ideal.ofBits .f32 0x3E4CCCCD#32 * s i) = _
    rw [decide_eq_false h]
    exact if_neg (by decide)

/-- The select on "the relation code is `w`" is the choice by that equation. -/
theorem gate_apply (x2 : IVec S1024x512 32) (w : BitVec 32) (u v : FVec Ideal S1024x512 .f32) (i : S1024x512.Idx) :
    select (cmpi .eq x2 (broadcast S1024x512 w)) u v i = if x2 i = w then u i else v i := by
  show Scalar.select (IntOp.cmpi .eq (x2 i) w) (u i) (v i) = _
  unfold Scalar.select IntOp.cmpi
  by_cases h : x2 i = w
  · rw [if_pos h]
    have hb : (x2 i == w) = true := beq_iff_eq.mpr h
    show (if BitVec.ofBool (x2 i == w) = 1 then u i else v i) = u i
    rw [hb]
    exact if_pos rfl
  · rw [if_neg h]
    have hb : (x2 i == w) = false := beq_eq_false_iff_ne.mpr h
    show (if BitVec.ofBool (x2 i == w) = 1 then u i else v i) = v i
    rw [hb]
    exact if_neg (by decide)

end Alpha

open Alpha

/-- Entry (p, q) of the tile's gated logits is the gated logit of row node p and column node q under the code there. -/
theorem tileAlpha_apply (x0 : Vec Ideal S1024x128 .f32) (x1 : Vec Ideal S512x128 .f32) (x2 : Vec Ideal S1024x512 .i32)
    (x3 : Vec Ideal S4x128 .f32) (x4 : Vec Ideal S4 .f32) (p : Fin 1024) (q : Fin 512) :
    tileAlpha (F := Ideal) x0 x1 x2 x3 x4 (ix2 p q)
      = Cert.Attn.alphaOf (fun d => x0 (ix2 p d)) (fun d => x1 (ix2 q d)) (x2 (ix2 p q)) x3 x4 := by
  have s0 := score_apply x0 x1 x3 x4 0 0 rfl slices_S1024x2048_o0_0_S1024x512 p q
  have s1 := score_apply x0 x1 x3 x4 1 512 rfl slices_S1024x2048_o0_512_S1024x512 p q
  have s2 := score_apply x0 x1 x3 x4 2 1024 rfl slices_S1024x2048_o0_1024_S1024x512 p q
  have s3 := score_apply x0 x1 x3 x4 3 1536 rfl slices_S1024x2048_o0_1536_S1024x512 p q
  unfold tileAlpha k0_pay16 Cert.Attn.alphaOf
  refine (gate_apply x2 4#32 _ _ (ix2 p q)).trans ?_
  refine ite_congr rfl (fun _ => ?_) (fun _ => ?_)
  · exact (rect_apply _ _).trans (congrArg Cert.Attn.lrelu s3)
  refine (gate_apply x2 3#32 _ _ (ix2 p q)).trans ?_
  refine ite_congr rfl (fun _ => ?_) (fun _ => ?_)
  · exact (rect_apply _ _).trans (congrArg Cert.Attn.lrelu s2)
  refine (gate_apply x2 2#32 _ _ (ix2 p q)).trans ?_
  refine ite_congr rfl (fun _ => ?_) (fun _ => ?_)
  · exact (rect_apply _ _).trans (congrArg Cert.Attn.lrelu s1)
  refine (gate_apply x2 1#32 _ _ (ix2 p q)).trans ?_
  refine ite_congr rfl (fun _ => ?_) (fun _ => ?_)
  · exact (rect_apply (k0_pay13 x0 x1 x3 (biasAt x4 0)) _).trans (congrArg Cert.Attn.lrelu s0)
  · rfl

end Cert.KernelIdeal.Hand

end
-- ==== Proof.Online.lean ====
/-
  The online softmax of ONE row, abstractly: the row's logits arrive in 8 tiles of 512; the state is the running
  maximum, the running sum of exponentials below it and, per channel, the running weighted sum of the column nodes'
  features; each tile rescales the two sums from the old maximum to the new one and adds its own terms; at the end
  the weighted sum is divided by the sum. This module only states the recurrence (over the extended reals, with the
  ideal instance's `exp` and division); that it computes the row's softmax-weighted sum is proved apart.
-/
import proofs.«416319_j42090679501528_3_alg».proof.Proof.Spec

noncomputable section

open scoped BigOperators

namespace Cert.Attn

open Idealize.ShloMosaic Idealize.ShloMosaic.ValueIdx

/-- Row `p` of row block `i`. -/
def rowIx (i : Fin 4) (p : Fin 1024) : Fin 4096 := ⟨1024 * i.val + p.val, by omega⟩
/-- Column `q` of column tile `j` (tiles beyond the eighth wrap around; only `j < 8` is used). -/
def colAt (j : ℕ) (q : Fin 512) : Fin 4096 := ⟨(512 * j + q.val) % 4096, Nat.mod_lt _ (by norm_num)⟩

theorem colAt_val (j : ℕ) (hj : j < 8) (q : Fin 512) : (colAt j q).val = 512 * j + q.val := by
  have := q.isLt
  simp only [colAt]; omega

/-- One row's running quantities. -/
structure RowSt where
  mx : EReal
  sm : EReal
  acc : Fin 128 → EReal

/-- Before the first tile: maximum -inf, both sums zero. -/
def RowSt.init : RowSt := ⟨⊥, 0, fun _ => 0⟩

/-- One tile folded in: `a` the tile's 512 logits of the row, `v` the tile's 512 column nodes' features. -/
def RowSt.step (a : Fin 512 → EReal) (v : Fin 512 → Fin 128 → EReal) (s : RowSt) : RowSt :=
  let mx' := max s.mx (Finset.univ.sup a)
  ⟨mx', Ideal.exp (s.mx - mx') * s.sm + ∑ q : Fin 512, Ideal.exp (a q - mx'),
    fun d => Ideal.exp (s.mx - mx') * s.acc d + ∑ q : Fin 512, Ideal.exp (a q - mx') * v q d⟩

/-- The row's output: the weighted sum over the sum of weights. -/
def RowSt.result (s : RowSt) : Fin 128 → EReal := fun d => Ideal.div (s.acc d) s.sm

/-- The state after tiles 0..j, the tiles' logits `a j` and features `v j`. -/
def RowSt.foldTiles (a : ℕ → Fin 512 → EReal) (v : ℕ → Fin 512 → Fin 128 → EReal) : ℕ → RowSt
  | 0 => RowSt.step (a 0) (v 0) RowSt.init
  | j + 1 => RowSt.step (a (j + 1)) (v (j + 1)) (RowSt.foldTiles a v j)

end Cert.Attn

end
-- ==== Proof.LibColumn.lean ====
/-
  Two layout facts about a column kept as a trailing unit axis (`keepdims`): a vector `[a]` cast to a
  column `[a, 1]` reads, at `(i, u)`, the vector at `i`; a column `[a, 1]` broadcast along its unit axis to
  `[a, b]` reads, at `(i, j)`, the column at `(i, 0)`.  Together: a per-row quantity spread over the row.
-/
import Idealize.ShloMosaic.Lib.Pipeline.Value
import Idealize.ShloMosaic.Lib.ValueIdx

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Column
-- ==== Proof.KStep.lean ====
/-
  The body's step read row by row: row p of the state after a tile is the abstract row step applied to row p of the
  state before it, with the tile's logits of that row and the column block's features.
-/
import proofs.«416319_j42090679501528_3_alg».proof.Proof.KState
import proofs.«416319_j42090679501528_3_alg».proof.Proof.Online
import proofs.«416319_j42090679501528_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- Row `p` of a state. -/
def rowOf (s : St Ideal) (p : Fin 1024) : Cert.Attn.RowSt :=
  ⟨s.mx (ix2 p 0), s.sm (ix2 p 0), fun d => s.acc (ix2 p d)⟩

/-- The word of negative infinity denotes the bottom of the extended reals. -/
private theorem ofBits_neg_inf : Ideal.ofBits .f32 0xFF800000#32 = ⊥ := by simp [Ideal.ofBits, Ideal.ieee]

/-- Over row `p`, the tile index with lane `q` inserted on the reduced axis is `(p, q)`. -/
private theorem lift_row (h : S1024x512.Reduces [1] S1024) (p : Fin 1024) (q : Fin 512) :
    h.lift (ix1 p) q = ix2 p q := by
  funext c
  apply Fin.ext
  match c with
  | ⟨0, _⟩ => rfl
  | ⟨1, _⟩ => rfl

/-- The fold of `max` from the bottom over a finite set is the set's supremum. -/
private theorem fold_max_bot {ι : Type} (s : Finset ι) (f : ι → EReal) : s.fold max ⊥ f = s.sup f := rfl

/-- The new running maximum of row `p`: the old one against the largest of the row's 512 logits. -/
theorem pay1_apply (al : FVec Ideal S1024x512 .f32) (mx : FVec Ideal S1024x1 .f32) (p : Fin 1024) :
    k0_pay1 al mx (ix2 p 0) = max (mx (ix2 p 0)) (Finset.univ.sup fun q : Fin 512 => al (ix2 p q)) := by
  unfold k0_pay1
  show max (mx (ix2 p 0)) (shapeCast S1024x1 _ shapeCasts_S1024_S1024x1 (ix2 p 0)) = _
  rw [Cert.Column.shapeCast_a_a1_apply]
  refine congrArg (max (mx (ix2 p 0))) ?_
  refine (Ideal.multiReduction_maximumf_single al _ reduces_S1024x512_S1024 _ _ (ix1 p)).trans ?_
  have hf : (al ∘ reduces_S1024x512_S1024.lift (ix1 p)) = fun q : Fin 512 => al (ix2 p q) :=
    funext fun q => congrArg al (lift_row _ p q)
  rw [hf]
  show Finset.fold max (Ideal.ofBits .f32 0xFF800000#32) _ _ = _
  rw [ofBits_neg_inf]
  exact fold_max_bot _ _

/-- The factor that rescales row `p`'s old sums from the old maximum to the new one. -/
theorem pay2_apply (al : FVec Ideal S1024x512 .f32) (mx : FVec Ideal S1024x1 .f32) (p : Fin 1024) :
    k0_pay2 al mx (ix2 p 0) = Ideal.exp (mx (ix2 p 0) - k0_pay1 al mx (ix2 p 0)) := by
  unfold k0_pay2
  rfl

/-- The tile's weights: each logit's exponential below its row's new maximum. -/
theorem pay3_apply (al : FVec Ideal S1024x512 .f32) (mx : FVec Ideal S1024x1 .f32) (p : Fin 1024) (q : Fin 512) :
    k0_pay3 al mx (ix2 p q) = Ideal.exp (al (ix2 p q) - k0_pay1 al mx (ix2 p 0)) := by
  unfold k0_pay3
  show Ideal.exp (al (ix2 p q) - broadcastTo S1024x512 (k0_pay1 al mx) broadcasts_S1024x1_S1024x512 (ix2 p q)) = _
  rw [Cert.Column.broadcastTo_a1_ab_apply]

/-- Row `p`'s new running sum: the old one rescaled, plus the tile's 512 weights. -/
theorem pay4_apply (al : FVec Ideal S1024x512 .f32) (mx sm : FVec Ideal S1024x1 .f32) (p : Fin 1024) :
    k0_pay4 al mx sm (ix2 p 0)
      = k0_pay2 al mx (ix2 p 0) * sm (ix2 p 0) + ∑ q : Fin 512, k0_pay3 al mx (ix2 p q) := by
  unfold k0_pay4
  rw [shapeCast_self]
  show k0_pay2 al mx (ix2 p 0) * sm (ix2 p 0) + shapeCast S1024x1 _ shapeCasts_S1024_S1024x1 (ix2 p 0) = _
  rw [Cert.Column.shapeCast_a_a1_apply]
  refine congrArg (k0_pay2 al mx (ix2 p 0) * sm (ix2 p 0) + ·) ?_
  refine (Ideal.multiReduction_add_single (k0_pay3 al mx) _ reduces_S1024x512_S1024 _ _ (ix1 p)).trans ?_
  exact Finset.sum_congr rfl fun q _ => congrArg (k0_pay3 al mx) (lift_row _ p q)

/-- The left operand's index of the weights-by-features product keeps the output's row. -/
theorem lhs_av_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide),
    dif_pos (show (0 : Fin S1024x512.rank) ∈ dot_S1024x512_S512x128_S1024x128_1_0_0_1_n_n.lhsNonContracting by decide)]
  rfl

/-- … and runs over the contracted lane on its second axis. -/
theorem lhs_av_1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q

/-- The right operand's index runs over the contracted node on its first axis … -/
theorem rhs_av_0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q

/-- … and keeps the output's channel. -/
theorem rhs_av_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide),
    dif_pos (show (1 : Fin S512x128.rank) ∈ dot_S1024x512_S512x128_S1024x128_1_0_0_1_n_n.rhsNonContracting by decide)]
  rfl

/-- The weights-by-features product into a zero accumulator, at row `p` and channel `d`: the sum over the tile's 512
    column nodes of the weight times the node's feature. -/
theorem matmul_av_apply (A : FVec Ideal S1024x512 .bf16) (B : FVec Ideal S512x128 .bf16) (p : Fin 1024) (d : Fin 128) :
    matmul dot_S1024x512_S512x128_S1024x128_1_0_0_1_n_n none A B (constant (F := Ideal) S1024x128 .f32 0x00000000#32) (ix2 p d)
      = ∑ q : Fin 512, A (ix2 p q) * B (ix2 q d) := by
  simp only [matmul]
  rw [Ideal.matmul_constant_zero_apply,
    ← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 p d)
      ((contrEquiv1 dot_S1024x512_S512x128_S1024x128_1_0_0_1_n_n 512 rfl rfl).symm k) = ix2 p k :=
    funext fun a => Fin.ext (by
      match a with
      | ⟨0, _⟩ => exact lhs_av_0 _ _
      | ⟨1, _⟩ => exact (lhs_av_1 _ _).trans hk)
  have er : dot_S1024x512_S512x128_S1024x128_1_0_0_1_n_n.rhsIdx (ix2 p d)
      ((contrEquiv1 dot_S1024x512_S512x128_S1024x128_1_0_0_1_n_n 512 rfl rfl).symm k) = ix2 k d :=
    funext fun a => Fin.ext (by
      match a with
      | ⟨0, _⟩ => exact (rhs_av_0 _ _).trans hk
      | ⟨1, _⟩ => exact rhs_av_1 _ _)
  rw [el, er]

/-- Row `p`'s new weighted sum of features at channel `d`: the old one rescaled, plus the tile's weights applied to the
    column nodes' features (the narrowing of both factors is the identity on ideal values). -/
theorem pay5_apply (x1 : FVec Ideal S512x128 .f32) (al : FVec Ideal S1024x512 .f32) (mx : FVec Ideal S1024x1 .f32)
    (acc : FVec Ideal S1024x128 .f32) (p : Fin 1024) (d : Fin 128) :
    k0_pay5 x1 al mx acc (ix2 p d)
      = k0_pay2 al mx (ix2 p 0) * acc (ix2 p d) + ∑ q : Fin 512, k0_pay3 al mx (ix2 p q) * x1 (ix2 q d) := by
  unfold k0_pay5
  rw [shapeCast_self]
  show broadcastTo S1024x128 (k0_pay2 al mx) broadcasts_S1024x1_S1024x128 (ix2 p d) * acc (ix2 p d)
    + matmul dot_S1024x512_S512x128_S1024x128_1_0_0_1_n_n none (truncf .bf16 (k0_pay3 al mx) bitsLt_bf16_f32)
        (truncf .bf16 x1 bitsLt_bf16_f32) (constant (F := Ideal) S1024x128 .f32 0x00000000#32) (ix2 p d) = _
  rw [Cert.Column.broadcastTo_a1_ab_apply, matmul_av_apply]
  rfl

/-- The stored maximum is the new maximum itself. -/
theorem pay6_eq (al : FVec Ideal S1024x512 .f32) (mx : FVec Ideal S1024x1 .f32) : k0_pay6 al mx = k0_pay1 al mx := by
  unfold k0_pay6
  exact shapeCast_self _ _

theorem rowOf_init (p : Fin 1024) : rowOf (St.init (F := Ideal)) p = Cert.Attn.RowSt.init := by
  unfold rowOf St.init Cert.Attn.RowSt.init k0_pay8 k0_pay9 k0_pay10
  simp only [shapeCast_self, broadcast_apply]
  show Cert.Attn.RowSt.mk (Ideal.ofBits .f32 0xFF800000#32) (Ideal.ofBits .f32 0x00000000#32)
    (fun _ => Ideal.ofBits .f32 0x00000000#32) = _
  rw [ofBits_neg_inf, Ideal.ofBits_zero_f32]

/-- The step with the tile's logits as one given vector. -/
theorem rowOf_step_of (x1 : FVec Ideal S512x128 .f32) (al : FVec Ideal S1024x512 .f32) (s : St Ideal) (p : Fin 1024) :
    rowOf ⟨k0_pay6 al s.mx, k0_pay4 al s.mx s.sm, k0_pay5 x1 al s.mx s.acc⟩ p
      = Cert.Attn.RowSt.step (fun q => al (ix2 p q)) (fun q d => x1 (ix2 q d)) (rowOf s p) := by
  have e1 := pay1_apply al s.mx p
  have e2 : k0_pay2 al s.mx (ix2 p 0)
      = Ideal.exp (s.mx (ix2 p 0) - max (s.mx (ix2 p 0)) (Finset.univ.sup fun q : Fin 512 => al (ix2 p q))) := by
    rw [pay2_apply, e1]
  have e3 : ∀ q : Fin 512, k0_pay3 al s.mx (ix2 p q)
      = Ideal.exp (al (ix2 p q) - max (s.mx (ix2 p 0)) (Finset.univ.sup fun q : Fin 512 => al (ix2 p q))) := fun q => by
    rw [pay3_apply, e1]
  have e6 : k0_pay6 al s.mx (ix2 p 0) = max (s.mx (ix2 p 0)) (Finset.univ.sup fun q : Fin 512 => al (ix2 p q)) := by
    rw [pay6_eq, e1]
  have e4 : k0_pay4 al s.mx s.sm (ix2 p 0)
      = Ideal.exp (s.mx (ix2 p 0) - max (s.mx (ix2 p 0)) (Finset.univ.sup fun q : Fin 512 => al (ix2 p q))) * s.sm (ix2 p 0)
        + ∑ q : Fin 512, Ideal.exp (al (ix2 p q) - max (s.mx (ix2 p 0)) (Finset.univ.sup fun q : Fin 512 => al (ix2 p q))) := by
    rw [pay4_apply, e2]
    exact congrArg (_ + ·) (Finset.sum_congr rfl fun q _ => e3 q)
  have e5 : ∀ d : Fin 128, k0_pay5 x1 al s.mx s.acc (ix2 p d)
      = Ideal.exp (s.mx (ix2 p 0) - max (s.mx (ix2 p 0)) (Finset.univ.sup fun q : Fin 512 => al (ix2 p q))) * s.acc (ix2 p d)
        + ∑ q : Fin 512, Ideal.exp (al (ix2 p q) - max (s.mx (ix2 p 0)) (Finset.univ.sup fun q : Fin 512 => al (ix2 p q)))
            * x1 (ix2 q d) := fun d => by
    rw [pay5_apply, e2]
    exact congrArg (_ + ·) (Finset.sum_congr rfl fun q _ => by rw [e3 q])
  unfold rowOf Cert.Attn.RowSt.step
  dsimp only
  rw [e6, e4]
  exact congrArg (Cert.Attn.RowSt.mk _ _) (funext e5)

theorem rowOf_step (x0 : Vec Ideal S1024x128 .f32) (x1 : Vec Ideal S512x128 .f32) (x2 : Vec Ideal S1024x512 .i32)
    (x3 : Vec Ideal S4x128 .f32) (x4 : Vec Ideal S4 .f32) (s : St Ideal) (p : Fin 1024) :
    rowOf (St.step x0 x1 x2 x3 x4 s) p
      = Cert.Attn.RowSt.step (fun q => tileAlpha (F := Ideal) x0 x1 x2 x3 x4 (ix2 p q)) (fun q d => x1 (ix2 q d)) (rowOf s p) :=
  rowOf_step_of x1 (tileAlpha (F := Ideal) x0 x1 x2 x3 x4) s p

theorem result_apply (s : St Ideal) (p : Fin 1024) (d : Fin 128) :
    St.result s (ix2 p d) = (rowOf s p).result d := by
  unfold St.result k0_pay7
  show Ideal.div (s.acc (ix2 p d)) (broadcastTo S1024x128 s.sm broadcasts_S1024x1_S1024x128 (ix2 p d)) = _
  rw [Cert.Column.broadcastTo_a1_ab_apply]
  rfl

theorem rowOf_tileSt (x0 : Vec Ideal S1024x128 .f32) (x1 : ℕ → Vec Ideal S512x128 .f32) (x2 : ℕ → Vec Ideal S1024x512 .i32)
    (x3 : Vec Ideal S4x128 .f32) (x4 : Vec Ideal S4 .f32) (j : ℕ) (p : Fin 1024) :
    rowOf (tileSt x0 x1 x2 x3 x4 j) p
      = Cert.Attn.RowSt.foldTiles (fun j q => tileAlpha (F := Ideal) x0 (x1 j) (x2 j) x3 x4 (ix2 p q)) (fun j q d => x1 j (ix2 q d)) j := by
  induction j with
  | zero =>
    unfold tileSt Cert.Attn.RowSt.foldTiles
    rw [rowOf_step, rowOf_init]
  | succ j ih =>
    unfold tileSt Cert.Attn.RowSt.foldTiles
    rw [rowOf_step, ih]

end Cert.KernelIdeal.Hand

end
-- ==== Proof.OnlineMath.lean ====
/-
  The online softmax of a row computes the row's softmax-weighted sum, when every logit and feature is a real number.

  Over real data every quantity of the recurrence is the coercion of a real: the running maximum after tiles 0..j is the
  greatest of the logits seen so far, the running sums are the sums over those logits of exp (logit - maximum), alone and
  times the feature; a tile's rescaling is exp (m - m') * exp (a - m) = exp (a - m'). After the eighth tile the 4096
  columns are all in, and the quotient of the two sums is the sum of the normalised weights times the features.
-/
import proofs.«416319_j42090679501528_3_alg».proof.Proof.Online
import Mathlib.Data.EReal.Basic
import Mathlib.Data.EReal.Operations
import Mathlib.Data.EReal.Inv
import Mathlib.Analysis.Complex.Exponential
import Mathlib.Algebra.BigOperators.Fin
import Mathlib.Algebra.Order.BigOperators.Group.Finset

noncomputable section

open scoped BigOperators

namespace Cert.Attn

open Idealize.ShloMosaic Idealize.ShloMosaic.ValueIdx

/-! ### Real operations under the coercion into the extended reals -/

/-- The coercion commutes with the maximum of two reals. -/
theorem coe_max' (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

/-- The coercion commutes with finite sums. -/
theorem coe_sum' {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- The supremum of finitely many (at least one) coerced reals is one of them, the greatest. -/
theorem sup_coe_attained {ι : Type*} [Fintype ι] [Nonempty ι] (f : ι → ℝ) :
    ∃ q0 : ι, (Finset.univ.sup fun q => (f q : EReal)) = (f q0 : EReal) ∧ ∀ q, f q ≤ f q0 := by
  obtain ⟨q0, -, hq0⟩ := Finset.exists_max_image Finset.univ f Finset.univ_nonempty
  refine ⟨q0, le_antisymm (Finset.sup_le fun q _ => EReal.coe_le_coe_iff.2 (hq0 q (Finset.mem_univ q))) ?_,
    fun q => hq0 q (Finset.mem_univ q)⟩
  exact Finset.le_sup (f := fun q => (f q : EReal)) (Finset.mem_univ q0)

/-! ### The gated logit is real -/

/-- A binary pattern whose exponent field is not all ones denotes a real number. -/
theorem ieee_real (e m : ℕ) {w : ℕ} (b : BitVec w) (h : (b.extractLsb' m e).toNat ≠ 2 ^ e - 1) :
    ∃ x : ℝ, Ideal.ieee e m b = (x : EReal) := by
  simp only [Ideal.ieee, if_neg h]
  split_ifs <;> exact ⟨_, rfl⟩

/-- The fill is a real: its exponent field is 179. -/
theorem negBig_real : ∃ x : ℝ, negBig = (x : EReal) :=
  ieee_real 8 23 (0xD9FFCB9E#32 : BitVec 32) (by decide)

/-- The slope is a real: its exponent field is 124. -/
theorem slope_real : ∃ x : ℝ, slope = (x : EReal) :=
  ieee_real 8 23 (0x3E4CCCCD#32 : BitVec 32) (by decide)

/-- The rectifier of a real is a real. -/
theorem lrelu_real {x : EReal} (hx : ∃ r : ℝ, x = (r : EReal)) : ∃ r : ℝ, lrelu x = (r : EReal) := by
  obtain ⟨r, rfl⟩ := hx
  obtain ⟨s, hs⟩ := slope_real
  unfold lrelu
  split_ifs
  · exact ⟨r, rfl⟩
  · exact ⟨s * r, by rw [hs, EReal.coe_mul]⟩

/-- A bilinear score of real rows, weights and bias is a real: a finite sum of products of reals plus a real. -/
theorem scoreOf_real (u v : Fin 128 → EReal) (W : Wt) (b : Bs) (k : Fin 4)
    (hu : ∀ d, ∃ x : ℝ, u d = (x : EReal)) (hv : ∀ d, ∃ x : ℝ, v d = (x : EReal))
    (hW : ∀ i, ∃ x : ℝ, W i = (x : EReal)) (hb : ∀ i, ∃ x : ℝ, b i = (x : EReal)) :
    ∃ x : ℝ, scoreOf u v W b k = (x : EReal) := by
  choose u' hu' using hu
  choose v' hv' using hv
  choose W' hW' using hW
  choose b' hb' using hb
  refine ⟨(∑ d : Fin 128, u' d * v' d * W' (ix2 k d)) + b' (ix1 k), ?_⟩
  rw [scoreOf, EReal.coe_add, coe_sum', hb']
  congr 1
  refine Finset.sum_congr rfl fun d _ => ?_
  rw [hu', hv', hW', EReal.coe_mul, EReal.coe_mul]

/-- A gated logit of real feature rows, weights and biases is a real number. -/
theorem alphaOf_real (u v : Fin 128 → EReal) (code : BitVec 32) (W : Wt) (b : Bs)
    (hu : ∀ d, ∃ x : ℝ, u d = (x : EReal)) (hv : ∀ d, ∃ x : ℝ, v d = (x : EReal))
    (hW : ∀ i, ∃ x : ℝ, W i = (x : EReal)) (hb : ∀ i, ∃ x : ℝ, b i = (x : EReal)) :
    ∃ x : ℝ, alphaOf u v code W b = (x : EReal) := by
  unfold alphaOf
  split_ifs
  · exact lrelu_real (scoreOf_real u v W b 3 hu hv hW hb)
  · exact lrelu_real (scoreOf_real u v W b 2 hu hv hW hb)
  · exact lrelu_real (scoreOf_real u v W b 1 hu hv hW hb)
  · exact lrelu_real (scoreOf_real u v W b 0 hu hv hW hb)
  · exact negBig_real

/-! ### One tile, over real data -/

/-- The first tile: from maximum -inf and zero sums, the tile's own maximum and sums. -/
theorem step_init_coe (x : Fin 512 → ℝ) (w : Fin 512 → Fin 128 → ℝ) (q0 : Fin 512)
    (hsup : (Finset.univ.sup fun q => (x q : EReal)) = (x q0 : EReal)) :
    RowSt.step (fun q => (x q : EReal)) (fun q d => (w q d : EReal)) RowSt.init
      = ⟨(x q0 : EReal), ((∑ q, Real.exp (x q - x q0) : ℝ) : EReal),
          fun d => ((∑ q, Real.exp (x q - x q0) * w q d : ℝ) : EReal)⟩ := by
  simp only [RowSt.step, RowSt.init, hsup, max_bot_left, mul_zero, zero_add, ← EReal.coe_sub, Ideal.exp_coe,
    ← EReal.coe_mul, ← coe_sum']

/-- A later tile: the new maximum, and both sums rescaled to it plus the tile's terms. -/
theorem step_coe (x : Fin 512 → ℝ) (w : Fin 512 → Fin 128 → ℝ) (M S : ℝ) (A : Fin 128 → ℝ) (q0 : Fin 512)
    (hsup : (Finset.univ.sup fun q => (x q : EReal)) = (x q0 : EReal)) :
    RowSt.step (fun q => (x q : EReal)) (fun q d => (w q d : EReal)) ⟨(M : EReal), (S : EReal), fun d => (A d : EReal)⟩
      = ⟨((max M (x q0) : ℝ) : EReal),
          ((Real.exp (M - max M (x q0)) * S + ∑ q, Real.exp (x q - max M (x q0)) : ℝ) : EReal),
          fun d => ((Real.exp (M - max M (x q0)) * A d + ∑ q, Real.exp (x q - max M (x q0)) * w q d : ℝ) : EReal)⟩ := by
  simp only [RowSt.step, hsup, ← coe_max', ← EReal.coe_sub, Ideal.exp_coe, ← EReal.coe_mul, ← coe_sum',
    ← EReal.coe_add]

/-- Rescaling the sums of tiles 0..n-1 from the maximum `M` to `M'` and adding tile n's terms at `M'`:
    exp (M - M') * exp (a - M) = exp (a - M'). -/
theorem rescale_sum (n : ℕ) (x : ℕ → Fin 512 → ℝ) (c : ℕ → Fin 512 → ℝ) (M M' : ℝ) :
    Real.exp (M - M') * (∑ i ∈ Finset.range n, ∑ q, Real.exp (x i q - M) * c i q)
        + ∑ q, Real.exp (x n q - M') * c n q
      = ∑ i ∈ Finset.range (n + 1), ∑ q, Real.exp (x i q - M') * c i q := by
  rw [Finset.sum_range_succ, Finset.mul_sum]
  congr 1
  refine Finset.sum_congr rfl fun i _ => ?_
  rw [Finset.mul_sum]
  refine Finset.sum_congr rfl fun q _ => ?_
  rw [← mul_assoc, ← Real.exp_add]
  congr 2
  ring

/-! ### The state after tiles 0..j -/

/-- After tiles 0..j of real logits `x i q` and real features `w i q d`: the maximum is the greatest logit seen,
    the sums run over all the logits seen, each at its distance below that maximum. -/
theorem foldTiles_coe (x : ℕ → Fin 512 → ℝ) (w : ℕ → Fin 512 → Fin 128 → ℝ) (j : ℕ) :
    ∃ M : ℝ, (∀ i ≤ j, ∀ q, x i q ≤ M) ∧ (∃ i ≤ j, ∃ q, x i q = M) ∧
      RowSt.foldTiles (fun i q => (x i q : EReal)) (fun i q d => (w i q d : EReal)) j
        = ⟨(M : EReal), ((∑ i ∈ Finset.range (j + 1), ∑ q, Real.exp (x i q - M) : ℝ) : EReal),
            fun d => ((∑ i ∈ Finset.range (j + 1), ∑ q, Real.exp (x i q - M) * w i q d : ℝ) : EReal)⟩ := by
  induction j with
  | zero =>
    obtain ⟨q0, hsup, hmax⟩ := sup_coe_attained (x 0)
    refine ⟨x 0 q0, ?_, ⟨0, le_rfl, q0, rfl⟩, ?_⟩
    · intro i hi q
      obtain rfl : i = 0 := Nat.le_zero.1 hi
      exact hmax q
    · show RowSt.step _ _ RowSt.init = _
      rw [step_init_coe (x 0) (w 0) q0 hsup]
      simp only [zero_add, Finset.sum_range_one]
  | succ j ih =>
    obtain ⟨M, hle, ⟨i0, hi0, q1, hq1⟩, hst⟩ := ih
    obtain ⟨q0, hsup, hmax⟩ := sup_coe_attained (x (j + 1))
    refine ⟨max M (x (j + 1) q0), ?_, ?_, ?_⟩
    · intro i hi q
      rcases Nat.lt_or_ge i (j + 1) with h | h
      · exact le_trans (hle i (Nat.lt_succ_iff.1 h) q) (le_max_left _ _)
      · obtain rfl : i = j + 1 := le_antisymm hi h
        exact le_trans (hmax q) (le_max_right _ _)
    · rcases le_total M (x (j + 1) q0) with h | h
      · exact ⟨j + 1, le_rfl, q0, (max_eq_right h).symm⟩
      · exact ⟨i0, Nat.le_succ_of_le hi0, q1, by rw [hq1, max_eq_left h]⟩
    · show RowSt.step _ _ (RowSt.foldTiles _ _ j) = _
      rw [hst, step_coe (x (j + 1)) (w (j + 1)) M _ _ q0 hsup]
      have hs := rescale_sum (j + 1) x (fun _ _ => 1) M (max M (x (j + 1) q0))
      have ha := fun d => rescale_sum (j + 1) x (fun i q => w i q d) M (max M (x (j + 1) q0))
      simp only [mul_one] at hs
      simp only [hs, ha]

/-! ### The 4096 columns as 8 tiles of 512 -/

/-- Column `512 * j + q` is lane `q` of tile `j`. -/
def tileEquiv : Fin 8 × Fin 512 ≃ Fin 4096 where
  toFun p := colAt p.1.val p.2
  invFun c := (⟨c.val / 512, by have := c.isLt; omega⟩, ⟨c.val % 512, Nat.mod_lt _ (by norm_num)⟩)
  left_inv p := by
    have h := colAt_val p.1.val p.1.isLt p.2
    have h2 := p.2.isLt
    refine Prod.ext (Fin.ext ?_) (Fin.ext ?_)
    · show (colAt p.1.val p.2).val / 512 = p.1.val
      omega
    · show (colAt p.1.val p.2).val % 512 = p.2.val
      omega
  right_inv c := by
    have hc := c.isLt
    refine Fin.ext ?_
    show (colAt (c.val / 512) ⟨c.val % 512, _⟩).val = c.val
    rw [colAt_val _ (by omega)]
    show 512 * (c.val / 512) + c.val % 512 = c.val
    omega

/-- A sum over the columns, tile by tile. -/
theorem sum_tiles (F : Fin 4096 → ℝ) :
    ∑ i ∈ Finset.range 8, ∑ q : Fin 512, F (colAt i q) = ∑ c : Fin 4096, F c := by
  rw [← Fin.sum_univ_eq_sum_range (fun i => ∑ q : Fin 512, F (colAt i q)) 8, ← Fintype.sum_prod_type']
  exact Fintype.sum_equiv tileEquiv _ _ (fun p => rfl)

/-! ### The row's result -/

/-- Folding a row's 4096 real logits `al` in 8 tiles of 512, with real features `g`, ends at the row's
    softmax-weighted sum of the features. -/
theorem foldTiles_result (al : Fin 4096 → EReal) (g : Fin 4096 → Fin 128 → EReal)
    (hal : ∀ c, ∃ x : ℝ, al c = (x : EReal)) (hg : ∀ c d, ∃ x : ℝ, g c d = (x : EReal)) (d : Fin 128) :
    (RowSt.foldTiles (fun j q => al (colAt j q)) (fun j q d => g (colAt j q) d) 7).result d
      = ∑ c : Fin 4096, Ideal.div (wgt al c) (rowSum al) * g c d := by
  choose a ha using hal
  choose γ hγ using hg
  obtain rfl : al = fun c => (a c : EReal) := funext ha
  obtain rfl : g = fun c d => (γ c d : EReal) := funext fun c => funext (hγ c)
  obtain ⟨M, hle, ⟨i0, hi0, q0, hq0⟩, hst⟩ :=
    foldTiles_coe (fun i q => a (colAt i q)) (fun i q d => γ (colAt i q) d) 7
  -- `M` is the greatest of the row's logits: every column is a lane of one of the eight tiles
  have hleM : ∀ c, a c ≤ M := fun c => by
    have h := hle (tileEquiv.symm c).1.val (by have := (tileEquiv.symm c).1.isLt; omega) (tileEquiv.symm c).2
    have e : colAt (tileEquiv.symm c).1.val (tileEquiv.symm c).2 = c := tileEquiv.apply_symm_apply c
    rwa [e] at h
  have hmax : rowMax (fun c => (a c : EReal)) = (M : EReal) := by
    rw [rowMax]
    refine le_antisymm (Finset.sup_le fun c _ => EReal.coe_le_coe_iff.2 (hleM c)) ?_
    rw [← hq0]
    exact Finset.le_sup (f := fun c => (a c : EReal)) (Finset.mem_univ (colAt i0 q0))
  have hw : ∀ c, wgt (fun c => (a c : EReal)) c = ((Real.exp (a c - M) : ℝ) : EReal) := fun c => by
    rw [wgt, hmax, ← EReal.coe_sub, Ideal.exp_coe]
  have hS : rowSum (fun c => (a c : EReal)) = ((∑ c, Real.exp (a c - M) : ℝ) : EReal) := by
    rw [rowSum, coe_sum']
    exact Finset.sum_congr rfl fun c _ => hw c
  have hpos : (0 : ℝ) < ∑ c, Real.exp (a c - M) :=
    Finset.sum_pos (fun c _ => Real.exp_pos _) Finset.univ_nonempty
  simp only [RowSt.result, hst, hw, hS, sum_tiles (fun c => Real.exp (a c - M)),
    sum_tiles (fun c => Real.exp (a c - M) * γ c d), Ideal.div_coe hpos.ne', ← EReal.coe_mul, ← coe_sum']
  rw [EReal.coe_eq_coe_iff, Finset.sum_mul]
  refine Finset.sum_congr rfl fun c _ => ?_
  ring

end Cert.Attn

end
-- ==== Proof.KRowMath.lean ====
/-
  One row block through its eight column tiles ends at the specification's rows.

  The blocks are named as functions of the whole arrays: rows [1024 i, 1024 i + 1024) of the features (the row block),
  rows [512 j, 512 j + 512) of the features (column tile j's nodes) and the matching tile of relation codes. Entry
  (p, q) of tile j's logits is then the specification's gated logit of nodes 1024 i + p and 512 j + q, row p of the
  state after the eighth tile is the abstract online softmax of that row's 4096 logits, and the abstract recurrence
  ends at the softmax-weighted sum: the specification's output at row 1024 i + p.
-/
import proofs.«416319_j42090679501528_3_alg».proof.Proof.KAlpha
import proofs.«416319_j42090679501528_3_alg».proof.Proof.KStep
import proofs.«416319_j42090679501528_3_alg».proof.Proof.OnlineMath

noncomputable section

open scoped BigOperators

namespace Cert.KernelIdeal.Hand

open Idealize.ShloMosaic Idealize.ShloMosaic.ValueIdx Cert.KernelIdeal Cert.KernelIdeal.Gen
open Cert.Attn (Hid Adj Wt Bs rowIx colAt)

/-- Row block `i` of the node features. -/
def rowBlk (h : Hid) (i : Fin 4) : Vec Ideal S1024x128 .f32 := fun y => h (ix2 (rowIx i (y 0)) (y 1))
/-- Column tile `j`'s nodes' features. -/
def colBlk (h : Hid) (j : ℕ) : Vec Ideal S512x128 .f32 := fun y => h (ix2 (colAt j (y 0)) (y 1))
/-- The relation codes of row block `i` against column tile `j`. -/
def adjBlk (adj : Adj) (i : Fin 4) (j : ℕ) : Vec Ideal S1024x512 .i32 := fun y => adj (ix2 (rowIx i (y 0)) (colAt j (y 1)))

/-- Entry (p, q) of tile (i, j)'s logits is the gated logit of the two nodes it pairs. -/
theorem tileAlpha_blocks (h : Hid) (adj : Adj) (W : Wt) (b : Bs) (i : Fin 4) (j : ℕ) (p : Fin 1024) (q : Fin 512) :
    tileAlpha (F := Ideal) (rowBlk h i) (colBlk h j) (adjBlk adj i j) W b (ix2 p q)
      = Cert.Attn.alpha h adj W b (rowIx i p) (colAt j q) := by
  rw [tileAlpha_apply]
  rfl

/-- The eighth tile's result at row p, channel d, is the specification's output at row 1024 i + p. -/
theorem rowBlock_result (h : Hid) (adj : Adj) (W : Wt) (b : Bs) (hf : Cert.Attn.Finite h W b) (i : Fin 4) (p : Fin 1024) (d : Fin 128) :
    (tileSt (F := Ideal) (rowBlk h i) (colBlk h) (adjBlk adj i) W b 7).result (ix2 p d)
      = Cert.Attn.out h adj W b (ix2 (rowIx i p) d) := by
  rw [result_apply, rowOf_tileSt]
  have e1 : (fun (j : ℕ) (q : Fin 512) => tileAlpha (F := Ideal) (rowBlk h i) (colBlk h j) (adjBlk adj i j) W b (ix2 p q))
      = fun j q => Cert.Attn.alpha h adj W b (rowIx i p) (colAt j q) :=
    funext fun j => funext fun q => tileAlpha_blocks h adj W b i j p q
  rw [e1]
  have hal : ∀ c, ∃ x : ℝ, Cert.Attn.alpha h adj W b (rowIx i p) c = (x : EReal) := fun c =>
    Cert.Attn.alphaOf_real _ _ _ W b (fun d => hf.h _) (fun d => hf.h _) hf.W hf.b
  exact Cert.Attn.foldTiles_result (Cert.Attn.alpha h adj W b (rowIx i p)) (fun c d => h (ix2 c d)) hal (fun c d => hf.h _) d

end Cert.KernelIdeal.Hand

end
-- ==== Proof.KFinal.lean ====
/-
  The result array after the run is the specification's output of the four argument arrays, when their float entries
  are real numbers.

  Over the 32 grid points, point t is row block t / 8 and column tile t % 8: the features' window 0 reads row block
  t / 8, window 1 reads the column tile's 512 rows, the relation codes' window reads tile (t / 8, t % 8), and the
  output's window writes row block t / 8 back at the row block's last point (t % 8 = 7). So the state after point t
  is the row block's state after column tiles 0 .. t % 8, the block written back at 8 i + 7 is the specification's
  rows [1024 i, 1024 i + 1024), and the four write-backs tile the result array.
-/
import proofs.«416319_j42090679501528_3_alg».proof.Proof.KFrame
import proofs.«416319_j42090679501528_3_alg».proof.Proof.KRowMath

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Attn (Hid Adj Wt Bs rowIx colAt)

variable (m : (ℓ : Loc nD τ sig) → Buf (Elt Ideal) ℓ) (ρ : Dev nD → PrngReg)

/-- The four argument arrays as the specification's types. -/
abbrev hidA (c : Dev nD) : Hid := m ((c : Thread nD τ).loc main_arg0)
abbrev adjA (c : Dev nD) : Adj := m ((c : Thread nD τ).loc main_arg1)
abbrev wA (c : Dev nD) : Wt := m ((c : Thread nD τ).loc main_arg2)
abbrev bA (c : Dev nD) : Bs := m ((c : Thread nD τ).loc main_arg3)

/-- A grid point's row block. -/
def rbOf (t : Fin cfg0.N) : Fin 4 := ⟨t.val / 8, by have h := t.isLt; have e : cfg0.N = 32 := N_0; omega⟩

/-- The printed index maps over the grid: window 0 and the output follow the row block, window 1 the column tile,
    the relation codes both; the weights and biases are one block. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = 0 ∧ win0_3.index t (1 : Fin 2) = 0
    ∧ win0_4.index t (0 : Fin 1) = 0
    ∧ win0_5.index t (0 : Fin 2) = t.val / 8 ∧ win0_5.index t (1 : Fin 2) = 0 :=
  (by decide +kernel : ∀ t : Fin grid0.N, _)

/-! ## Each window's block as rows of its array -/

theorem iblk0_eq (c : Dev nD) (t : Fin cfg0.N) : iblk m c 0 t = rowBlk (hidA m c) (rbOf t) := by
  obtain ⟨e0, e1, -⟩ := idx_facts t
  funext y
  show hidA m c (((cfg0.win 0).blk t).view.emb y) = hidA m c (ix2 (rowIx (rbOf t) (y 0)) (y 1))
  refine congrArg _ ?_
  funext a; apply Fin.ext
  match a with
  | ⟨0, _⟩ => show win0_0.index t (0 : Fin 2) * 1024 + 1 * (y 0).val = 1024 * (t.val / 8) + (y 0).val; omega
  | ⟨1, _⟩ => show win0_0.index t (1 : Fin 2) * 128 + 1 * (y 1).val = (y 1).val; omega

theorem iblk1_eq (c : Dev nD) (t : Fin cfg0.N) : iblk m c 1 t = colBlk (hidA m c) (t.val % 8) := by
  obtain ⟨-, -, e0, e1, -⟩ := idx_facts t
  funext y
  obtain ⟨q, d, rfl⟩ : ∃ (q : Fin 512) (d : Fin 128), y = ix2 q d := ⟨y 0, y 1, eq_ix2 y⟩
  show hidA m c (((cfg0.win 1).blk t).view.emb (ix2 q d)) = hidA m c (ix2 (colAt (t.val % 8) q) d)
  refine congrArg _ ?_
  have hc : (colAt (t.val % 8) q).val = 512 * (t.val % 8) + q.val := Cert.Attn.colAt_val _ (Nat.mod_lt _ (by norm_num)) q
  funext a; apply Fin.ext
  match a with
  | ⟨0, _⟩ =>
    show win0_1.index t (0 : Fin 2) * 512 + 1 * q.val = (colAt (t.val % 8) q).val
    omega
  | ⟨1, _⟩ => show win0_1.index t (1 : Fin 2) * 128 + 1 * d.val = d.val; omega

theorem iblk2_eq (c : Dev nD) (t : Fin cfg0.N) : iblk m c 2 t = adjBlk (adjA m c) (rbOf t) (t.val % 8) := by
  obtain ⟨-, -, -, -, e0, e1, -⟩ := idx_facts t
  funext y
  obtain ⟨p, q, rfl⟩ : ∃ (p : Fin 1024) (q : Fin 512), y = ix2 p q := ⟨y 0, y 1, eq_ix2 y⟩
  show adjA m c (((cfg0.win 2).blk t).view.emb (ix2 p q)) = adjA m c (ix2 (rowIx (rbOf t) p) (colAt (t.val % 8) q))
  refine congrArg _ ?_
  have hc : (colAt (t.val % 8) q).val = 512 * (t.val % 8) + q.val := Cert.Attn.colAt_val _ (Nat.mod_lt _ (by norm_num)) q
  funext a; apply Fin.ext
  match a with
  | ⟨0, _⟩ => show win0_2.index t (0 : Fin 2) * 1024 + 1 * p.val = 1024 * (t.val / 8) + p.val; omega
  | ⟨1, _⟩ =>
    show win0_2.index t (1 : Fin 2) * 512 + 1 * q.val = (colAt (t.val % 8) q).val
    omega

theorem iblk3_eq (c : Dev nD) (t : Fin cfg0.N) : iblk m c 3 t = wA m c := by
  obtain ⟨-, -, -, -, -, -, e0, e1, -⟩ := idx_facts t
  funext y
  show wA m c (((cfg0.win 3).blk t).view.emb y) = wA m c y
  refine congrArg _ ?_
  funext a; apply Fin.ext
  match a with
  | ⟨0, _⟩ => show win0_3.index t (0 : Fin 2) * 4 + 1 * (y 0).val = (y 0).val; omega
  | ⟨1, _⟩ => show win0_3.index t (1 : Fin 2) * 128 + 1 * (y 1).val = (y 1).val; omega

theorem iblk4_eq (c : Dev nD) (t : Fin cfg0.N) : iblk m c 4 t = bA m c := by
  obtain ⟨-, -, -, -, -, -, -, -, e0, -⟩ := idx_facts t
  funext y
  show bA m c (((cfg0.win 4).blk t).view.emb y) = bA m c y
  refine congrArg _ ?_
  funext a; apply Fin.ext
  match a with
  | ⟨0, _⟩ => show win0_4.index t (0 : Fin 1) * 4 + 1 * (y 0).val = (y 0).val; omega

/-! ## The state after a point is the row block's state after its column tiles so far -/

theorem stAt_tile (c : Dev nD) : ∀ (n : ℕ) (hn : n < cfg0.N),
    stAt m c n hn = tileSt (rowBlk (hidA m c) (rbOf ⟨n, hn⟩)) (colBlk (hidA m c)) (adjBlk (adjA m c) (rbOf ⟨n, hn⟩)) (wA m c) (bA m c) (n % 8)
  | 0, hn => by
    rw [show stAt m c 0 hn = ptStep m c ⟨0, hn⟩ St.init from rfl]
    unfold ptStep
    rw [iblk0_eq, iblk1_eq, iblk2_eq, iblk3_eq, iblk4_eq]
    rfl
  | n + 1, hn => by
    by_cases h0 : (n + 1) % 8 = 0
    · rw [stAt_first m c ⟨n + 1, hn⟩ h0]
      unfold ptStep
      rw [iblk0_eq, iblk1_eq, iblk2_eq, iblk3_eq, iblk4_eq]
      show St.step _ (colBlk _ ((n + 1) % 8)) (adjBlk _ _ ((n + 1) % 8)) _ _ St.init = tileSt _ _ _ _ _ ((n + 1) % 8)
      rw [h0]; rfl
    · rw [stAt_next m c ⟨n + 1, hn⟩ h0]
      unfold ptStep
      rw [iblk0_eq, iblk1_eq, iblk2_eq, iblk3_eq, iblk4_eq]
      have ih := stAt_tile c n (Nat.lt_of_succ_lt hn)
      have hrb : rbOf ⟨n, Nat.lt_of_succ_lt hn⟩ = rbOf ⟨n + 1, hn⟩ := Fin.ext (by show n / 8 = (n + 1) / 8; omega)
      have hk : (n + 1) % 8 = n % 8 + 1 := by omega
      show St.step _ (colBlk _ ((n + 1) % 8)) (adjBlk _ _ ((n + 1) % 8)) _ _ (stAt m c n _) = tileSt _ _ _ _ _ ((n + 1) % 8)
      rw [ih, hrb, hk]; rfl

/-! ## What a row block's last point writes back, and the write-backs' cover -/

theorem flushed5_eq (c : Dev nD) (hf : Cert.Attn.Finite (hidA m c) (wA m c) (bA m c)) (t : Fin cfg0.N) (h7 : t.val % 8 = 7) :
    (dats m 0 c).flushed 5 t
      = ((cfg0.win 5).blk t).view.read (Elt Ideal) (Cert.Attn.out (hidA m c) (adjA m c) (wA m c) (bA m c)) := by
  show (cfg0.win 5).cut (grid0.coords t) ((dats m 0 c).after 5 t) = _
  rw [after5, stAt_tile m c t.val t.isLt, h7]
  obtain ⟨-, -, -, -, -, -, -, -, -, e0, e1⟩ := idx_facts t
  funext y
  obtain ⟨p, d, rfl⟩ : ∃ (p : Fin 1024) (d : Fin 128), y = ix2 p d := ⟨y 0, y 1, eq_ix2 y⟩
  show (tileSt (rowBlk (hidA m c) (rbOf t)) (colBlk (hidA m c)) (adjBlk (adjA m c) (rbOf t)) (wA m c) (bA m c) 7).result (ix2 p d)
    = Cert.Attn.out (hidA m c) (adjA m c) (wA m c) (bA m c) (((cfg0.win 5).blk t).view.emb (ix2 p d))
  rw [rowBlock_result _ _ _ _ hf]
  refine congrArg _ ?_
  funext a; apply Fin.ext
  match a with
  | ⟨0, _⟩ => show 1024 * (t.val / 8) + p.val = win0_5.index t (0 : Fin 2) * 1024 + 1 * p.val; omega
  | ⟨1, _⟩ => show d.val = win0_5.index t (1 : Fin 2) * 128 + 1 * d.val; omega

/-- An index of the result array is in point `t`'s block iff each coordinate is in the block's range on its axis. -/
theorem mem_blk5 (t : Fin cfg0.N) (i : S4096x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v0).slice (win0_5.rect t)).set ↔ _
  rw [View.set_slice_whole, Rect.mem_set_unit]
  exact Iff.rfl

/-- Every index of the result array is in the block written back at its row block's last point. -/
theorem cover5 (i : S4096x128.Idx) : ∃ t : Fin cfg0.N, (cfg0.win 5).flush t = true ∧ i ∈ ((cfg0.win 5).blk t).view.set := by
  have hi0 : (i 0).val < 4096 := (i 0).isLt
  have hi1 : (i 1).val < 128 := (i 1).isLt
  have hN : cfg0.N = 32 := N_0
  let t : Fin cfg0.N := ⟨8 * ((i 0).val / 1024) + 7, by omega⟩
  obtain ⟨-, -, -, -, -, -, -, -, -, e0, e1⟩ := idx_facts t
  have tv : t.val = 8 * ((i 0).val / 1024) + 7 := rfl
  refine ⟨t, (flush0_5 t).mpr (by omega), ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 128 ≤ (i 1).val ∧ (i 1).val < win0_5.index t (1 : Fin 2) * 128 + 128; omega

/-- The result array after the run. -/
theorem final5 (c : Dev nD) (hf : Cert.Attn.Finite (hidA m c) (wA m c) (bA m c)) :
    (dats m 0 c).arrAt 5 cfg0.N = Cert.Attn.out (hidA m c) (adjA m c) (wA m c) (bA m c) :=
  (dats m 0 c).arrAt_eq_of_cover 5 _ (fun t ht => flushed5_eq m c hf t ((flush0_5 t).mp ht)) cover5

end Cert.KernelIdeal.Hand

end
-- ==== Proof.RefTerm.lean ====
/-
  The reference's result as one term: the composition of the functions of its operations, in the
  program's order, over the four argument arrays.
-/
import proofs.«416319_j42090679501528_3_alg».proof.Proof.Gen.ReferenceIdeal

noncomputable section

namespace Cert.ReferenceIdeal.Hand

open Idealize.ShloMosaic
open Cert.ReferenceIdeal Cert.ReferenceIdeal.Facts₀

variable {F : FTy → Type} [FloatOps F]

/-- The value the reference's last operation writes, as a function of the four arguments: each line
    is the function of one operation of the program, the bodies of the local functions in place. -/
noncomputable def refTerm (h : Vec F S4096x128 .f32) (adj : Vec F S4096x4096 .i32) (W : Vec F S4x128 .f32)
    (b : Vec F S4 .f32) : Vec F S4096x128 .f32 :=
  have v0 : Vec F S1x4096x128 .f32 := broadcastInDim S1x4096x128 ![1, 2] bcast_S4096x128_S1x4096x128_1_2 h
  have v1 : Vec F S4x1x128 .f32 := broadcastInDim S4x1x128 ![0, 2] bcast_S4x128_S4x1x128_0_2 W
  have v2 : Vec F S4x4096x128 .f32 := broadcastInDim S4x4096x128 ![0, 1, 2] bcast_S1x4096x128_S4x4096x128_0_1_2 v0
  have v3 : Vec F S4x4096x128 .f32 := broadcastInDim S4x4096x128 ![0, 1, 2] bcast_S4x1x128_S4x4096x128_0_1_2 v1
  have v4 : Vec F S4x4096x128 .f32 := mulf v2 v3
  have v5 : Vec F S4x4096x4096 .f32 := Host.dotGeneral dot_S4x4096x128_S4096x128_S4x4096x4096_2_1_01_0_n_n none v4 h
  have v6 : Vec F S4x1x1 .f32 := broadcastInDim S4x1x1 ![0] bcast_S4_S4x1x1_0 b
  have v7 : Vec F S4x4096x4096 .f32 := broadcastInDim S4x4096x4096 ![0, 1, 2] bcast_S4x1x1_S4x4096x4096_0_1_2 v6
  have v8 : Vec F S4x4096x4096 .f32 := addf v5 v7
  have cst : Vec F S_ .f32 := constant (F := F) S_ .f32 0x3E4CCCCD#32
  -- the rectifier
  have l_cst : Vec F S_ .f32 := constant (F := F) S_ .f32 0x00000000#32
  have l_v0 : Vec F S4x4096x4096 .f32 := broadcastInDim S4x4096x4096 ![] bcast_S_S4x4096x4096 l_cst
  have l_v1 : Vec F S4x4096x4096 .i1 := cmpf .oge v8 l_v0
  have l_v2 : Vec F S_ .f32 := id cst
  have l_v3 : Vec F S4x4096x4096 .f32 := broadcastInDim S4x4096x4096 ![] bcast_S_S4x4096x4096 l_v2
  have l_v4 : Vec F S4x4096x4096 .f32 := mulf l_v3 v8
  have v9 : Vec F S4x4096x4096 .f32 := select l_v1 v8 l_v4
  -- relation 1
  have c : Vec F S_ .i32 := constantI S_ 32 1#32
  have v10 : Vec F S4096x4096 .i32 := broadcastInDim S4096x4096 ![] bcast_S_S4096x4096 c
  have v11 : Vec F S4096x4096 .i1 := cmpi .eq adj v10
  have v12 : Vec F S1x4096x4096 .f32 := extractStridedSlice S1x4096x4096 ![0, 0, 0] v9 slices_S4x4096x4096_S1x4096x4096_0_0_0
  have v13 : Vec F S4096x4096 .f32 := shapeCast S4096x4096 v12 shapeCasts_S1x4096x4096_S4096x4096
  have cst_0 : Vec F S_ .f32 := constant (F := F) S_ .f32 0xD9FFCB9E#32
  have w_v0 : Vec F S4096x4096 .f32 := broadcastInDim S4096x4096 ![] bcast_S_S4096x4096 cst_0
  have v14 : Vec F S4096x4096 .f32 := select v11 v13 w_v0
  -- relation 2
  have c_1 : Vec F S_ .i32 := constantI S_ 32 2#32
  have v15 : Vec F S4096x4096 .i32 := broadcastInDim S4096x4096 ![] bcast_S_S4096x4096 c_1
  have v16 : Vec F S4096x4096 .i1 := cmpi .eq adj v15
  have v17 : Vec F S1x4096x4096 .f32 := extractStridedSlice S1x4096x4096 ![1, 0, 0] v9 slices_S4x4096x4096_S1x4096x4096_1_0_0
  have v18 : Vec F S4096x4096 .f32 := shapeCast S4096x4096 v17 shapeCasts_S1x4096x4096_S4096x4096
  have v19 : Vec F S4096x4096 .f32 := select v16 v18 v14
  -- relation 3
  have c_2 : Vec F S_ .i32 := constantI S_ 32 3#32
  have v20 : Vec F S4096x4096 .i32 := broadcastInDim S4096x4096 ![] bcast_S_S4096x4096 c_2
  have v21 : Vec F S4096x4096 .i1 := cmpi .eq adj v20
  have v22 : Vec F S1x4096x4096 .f32 := extractStridedSlice S1x4096x4096 ![2, 0, 0] v9 slices_S4x4096x4096_S1x4096x4096_2_0_0
  have v23 : Vec F S4096x4096 .f32 := shapeCast S4096x4096 v22 shapeCasts_S1x4096x4096_S4096x4096
  have v24 : Vec F S4096x4096 .f32 := select v21 v23 v19
  -- relation 4
  have c_3 : Vec F S_ .i32 := constantI S_ 32 4#32
  have v25 : Vec F S4096x4096 .i32 := broadcastInDim S4096x4096 ![] bcast_S_S4096x4096 c_3
  have v26 : Vec F S4096x4096 .i1 := cmpi .eq adj v25
  have v27 : Vec F S1x4096x4096 .f32 := extractStridedSlice S1x4096x4096 ![3, 0, 0] v9 slices_S4x4096x4096_S1x4096x4096_3_0_0
  have v28 : Vec F S4096x4096 .f32 := shapeCast S4096x4096 v27 shapeCasts_S1x4096x4096_S4096x4096
  have v29 : Vec F S4096x4096 .f32 := select v26 v28 v24
  -- the row softmax
  have cst_4 : Vec F S_ .f32 := constant (F := F) S_ .f32 0xFF800000#32
  have v30 : Vec F S4096 .f32 := Host.reduce FloatOps.maximumf v29 cst_4 reducesTo_S4096x4096_S4096_d1 h_S_
  have cst_5 : Vec F S_ .f32 := constant (F := F) S_ .f32 0xFF800000#32
  have v31 : Vec F S4096 .f32 := broadcastInDim S4096 ![] bcast_S_S4096 cst_5
  have v32 : Vec F S4096 .f32 := maximumf v31 v30
  have v33 : Vec F S4096x1 .f32 := broadcastInDim S4096x1 ![0] bcast_S4096_S4096x1_0 v32
  have v34 : Vec F S4096x4096 .f32 := broadcastInDim S4096x4096 ![0, 1] bcast_S4096x1_S4096x4096_0_1 v33
  have v35 : Vec F S4096x4096 .f32 := subf v29 v34
  have v36 : Vec F S4096x4096 .f32 := Host.exp v35
  have cst_6 : Vec F S_ .f32 := constant (F := F) S_ .f32 0x00000000#32
  have v37 : Vec F S4096 .f32 := Host.reduceAdd v36 cst_6 reducesTo_S4096x4096_S4096_d1 h_S_
  have v38 : Vec F S4096x1 .f32 := broadcastInDim S4096x1 ![0] bcast_S4096_S4096x1_0 v37
  have v39 : Vec F S4096x4096 .f32 := broadcastInDim S4096x4096 ![0, 1] bcast_S4096x1_S4096x4096_0_1 v38
  have v40 : Vec F S4096x4096 .f32 := Host.divf v36 v39
  have v41 : Vec F S4096x128 .f32 := Host.dotGeneral dot_S4096x4096_S4096x128_S4096x128_1_0_0_1_n_n none v40 h
  v41

end Cert.ReferenceIdeal.Hand

end
-- ==== Proof.RefRun.lean ====
/-
  The run of the reference program: its operations as one straight line, every local function's body in place of its
  call, and what the result buffer holds at the end as the composed term of the four argument arrays.
-/
import proofs.«416319_j42090679501528_3_alg».proof.Proof.Gen.ReferenceIdeal
import Idealize.ShloMosaic.Lib.StableHlo.Run
import proofs.«416319_j42090679501528_3_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the reference in program order, every call replaced by the callee's operations over that call's
    buffers: the scores (two broadcasts of the features and of the weights, their product, the contraction with the
    features, the bias broadcast and added), the leaky rectifier (compare with zero, scale by the slope, select), then
    per relation the mask (the adjacency compared with the relation's number), the relation's slice of the scores and
    the select that layers it over what the earlier relations left (the first over the constant fill), and last the
    softmax along rows (row maximum, subtract, exponential, row sum, divide) and its product with the features. -/
abbrev ops : List (HloOp τ sig (Elt F)) :=
  [ unary main_arg0 main_v0 (broadcastInDim S1x4096x128 ![1, 2] bcast_S4096x128_S1x4096x128_1_2 : (⟨S4096x128, .f32⟩ : BufTy).Contents (Elt F) → (⟨S1x4096x128, .f32⟩ : BufTy).Contents (Elt F)),
    unary main_arg2 main_v1 (broadcastInDim S4x1x128 ![0, 2] bcast_S4x128_S4x1x128_0_2 : (⟨S4x128, .f32⟩ : BufTy).Contents (Elt F) → (⟨S4x1x128, .f32⟩ : BufTy).Contents (Elt F)),
    unary main_v0 main_v2 (broadcastInDim S4x4096x128 ![0, 1, 2] bcast_S1x4096x128_S4x4096x128_0_1_2 : (⟨S1x4096x128, .f32⟩ : BufTy).Contents (Elt F) → (⟨S4x4096x128, .f32⟩ : BufTy).Contents (Elt F)),
    unary main_v1 main_v3 (broadcastInDim S4x4096x128 ![0, 1, 2] bcast_S4x1x128_S4x4096x128_0_1_2 : (⟨S4x1x128, .f32⟩ : BufTy).Contents (Elt F) → (⟨S4x4096x128, .f32⟩ : BufTy).Contents (Elt F)),
    binary main_v2 main_v3 main_v4 (mulf : (⟨S4x4096x128, .f32⟩ : BufTy).Contents (Elt F) → (⟨S4x4096x128, .f32⟩ : BufTy).Contents (Elt F) → (⟨S4x4096x128, .f32⟩ : BufTy).Contents (Elt F)),
    binary main_v4 main_arg0 main_v5 ((fun l r => Host.dotGeneral dot_S4x4096x128_S4096x128_S4x4096x4096_2_1_01_0_n_n none l r) : (⟨S4x4096x128, .f32⟩ : BufTy).Contents (Elt F) → (⟨S4096x128, .f32⟩ : BufTy).Contents (Elt F) → (⟨S4x4096x4096, .f32⟩ : BufTy).Contents (Elt F)),
    unary main_arg3 main_v6 (broadcastInDim S4x1x1 ![0] bcast_S4_S4x1x1_0 : (⟨S4, .f32⟩ : BufTy).Contents (Elt F) → (⟨S4x1x1, .f32⟩ : BufTy).Contents (Elt F)),
    unary main_v6 main_v7 (broadcastInDim S4x4096x4096 ![0, 1, 2] bcast_S4x1x1_S4x4096x4096_0_1_2 : (⟨S4x1x1, .f32⟩ : BufTy).Contents (Elt F) → (⟨S4x4096x4096, .f32⟩ : BufTy).Contents (Elt F)),
    binary main_v5 main_v7 main_v8 (addf : (⟨S4x4096x4096, .f32⟩ : BufTy).Contents (Elt F) → (⟨S4x4096x4096, .f32⟩ : BufTy).Contents (Elt F) → (⟨S4x4096x4096, .f32⟩ : BufTy).Contents (Elt F)),
    nullary main_cst (constant S_ .f32 0x3E4CCCCD#32),
    TRef.nullary main_call0.cst (constant S_ .f32 0x00000000#32),
    TRef.unary main_call0.cst main_call0.v0 (broadcastInDim S4x4096x4096 ![] bcast_S_S4x4096x4096),
    TRef.binary (.of main_v8 : TRef sig ⟨S4x4096x4096, .f32⟩) main_call0.v0 main_call0.v1 (cmpf .oge),
    TRef.unary (.of main_cst : TRef sig ⟨S_, .f32⟩) main_call0.v2 id,
    TRef.unary main_call0.v2 main_call0.v3 (broadcastInDim S4x4096x4096 ![] bcast_S_S4x4096x4096),
    TRef.binary main_call0.v3 (.of main_v8 : TRef sig ⟨S4x4096x4096, .f32⟩) main_call0.v4 mulf,
    TRef.ternary main_call0.v1 (.of main_v8 : TRef sig ⟨S4x4096x4096, .f32⟩) main_call0.v4 main_call0.call0.v0 select,
    nullary main_c (constantI S_ 32 1#32),
    unary main_c main_v10 (broadcastInDim S4096x4096 ![] bcast_S_S4096x4096 : (⟨S_, .i32⟩ : BufTy).Contents (Elt F) → (⟨S4096x4096, .i32⟩ : BufTy).Contents (Elt F)),
    binary main_arg1 main_v10 main_v11 (cmpi .eq : (⟨S4096x4096, .i32⟩ : BufTy).Contents (Elt F) → (⟨S4096x4096, .i32⟩ : BufTy).Contents (Elt F) → (⟨S4096x4096, .i1⟩ : BufTy).Contents (Elt F)),
    unary main_v9 main_v12 ((extractStridedSlice S1x4096x4096 ![0, 0, 0] · slices_S4x4096x4096_S1x4096x4096_0_0_0) : (⟨S4x4096x4096, .f32⟩ : BufTy).Contents (Elt F) → (⟨S1x4096x4096, .f32⟩ : BufTy).Contents (Elt F)),
    reshape main_v12 main_v13 rfl shapeCasts_S1x4096x4096_S4096x4096,
    nullary main_cst_0 (constant S_ .f32 0xD9FFCB9E#32),
    TRef.unary (.of main_cst_0 : TRef sig ⟨S_, .f32⟩) main_call1.v0 (broadcastInDim S4096x4096 ![] bcast_S_S4096x4096),
    TRef.ternary (.of main_v11 : TRef sig ⟨S4096x4096, .i1⟩) (.of main_v13 : TRef sig ⟨S4096x4096, .f32⟩) main_call1.v0 main_call1.v1 select,
    nullary main_c_1 (constantI S_ 32 2#32),
    unary main_c_1 main_v15 (broadcastInDim S4096x4096 ![] bcast_S_S4096x4096 : (⟨S_, .i32⟩ : BufTy).Contents (Elt F) → (⟨S4096x4096, .i32⟩ : BufTy).Contents (Elt F)),
    binary main_arg1 main_v15 main_v16 (cmpi .eq : (⟨S4096x4096, .i32⟩ : BufTy).Contents (Elt F) → (⟨S4096x4096, .i32⟩ : BufTy).Contents (Elt F) → (⟨S4096x4096, .i1⟩ : BufTy).Contents (Elt F)),
    unary main_v9 main_v17 ((extractStridedSlice S1x4096x4096 ![1, 0, 0] · slices_S4x4096x4096_S1x4096x4096_1_0_0) : (⟨S4x4096x4096, .f32⟩ : BufTy).Contents (Elt F) → (⟨S1x4096x4096, .f32⟩ : BufTy).Contents (Elt F)),
    reshape main_v17 main_v18 rfl shapeCasts_S1x4096x4096_S4096x4096,
    TRef.ternary (.of main_v16 : TRef sig ⟨S4096x4096, .i1⟩) (.of main_v18 : TRef sig ⟨S4096x4096, .f32⟩) (.of main_v14 : TRef sig ⟨S4096x4096, .f32⟩) main_call2.v0 select,
    nullary main_c_2 (constantI S_ 32 3#32),
    unary main_c_2 main_v20 (broadcastInDim S4096x4096 ![] bcast_S_S4096x4096 : (⟨S_, .i32⟩ : BufTy).Contents (Elt F) → (⟨S4096x4096, .i32⟩ : BufTy).Contents (Elt F)),
    binary main_arg1 main_v20 main_v21 (cmpi .eq : (⟨S4096x4096, .i32⟩ : BufTy).Contents (Elt F) → (⟨S4096x4096, .i32⟩ : BufTy).Contents (Elt F) → (⟨S4096x4096, .i1⟩ : BufTy).Contents (Elt F)),
    unary main_v9 main_v22 ((extractStridedSlice S1x4096x4096 ![2, 0, 0] · slices_S4x4096x4096_S1x4096x4096_2_0_0) : (⟨S4x4096x4096, .f32⟩ : BufTy).Contents (Elt F) → (⟨S1x4096x4096, .f32⟩ : BufTy).Contents (Elt F)),
    reshape main_v22 main_v23 rfl shapeCasts_S1x4096x4096_S4096x4096,
    TRef.ternary (.of main_v21 : TRef sig ⟨S4096x4096, .i1⟩) (.of main_v23 : TRef sig ⟨S4096x4096, .f32⟩) (.of main_v19 : TRef sig ⟨S4096x4096, .f32⟩) main_call3.v0 select,
    nullary main_c_3 (constantI S_ 32 4#32),
    unary main_c_3 main_v25 (broadcastInDim S4096x4096 ![] bcast_S_S4096x4096 : (⟨S_, .i32⟩ : BufTy).Contents (Elt F) → (⟨S4096x4096, .i32⟩ : BufTy).Contents (Elt F)),
    binary main_arg1 main_v25 main_v26 (cmpi .eq : (⟨S4096x4096, .i32⟩ : BufTy).Contents (Elt F) → (⟨S4096x4096, .i32⟩ : BufTy).Contents (Elt F) → (⟨S4096x4096, .i1⟩ : BufTy).Contents (Elt F)),
    unary main_v9 main_v27 ((extractStridedSlice S1x4096x4096 ![3, 0, 0] · slices_S4x4096x4096_S1x4096x4096_3_0_0) : (⟨S4x4096x4096, .f32⟩ : BufTy).Contents (Elt F) → (⟨S1x4096x4096, .f32⟩ : BufTy).Contents (Elt F)),
    reshape main_v27 main_v28 rfl shapeCasts_S1x4096x4096_S4096x4096,
    TRef.ternary (.of main_v26 : TRef sig ⟨S4096x4096, .i1⟩) (.of main_v28 : TRef sig ⟨S4096x4096, .f32⟩) (.of main_v24 : TRef sig ⟨S4096x4096, .f32⟩) main_call4.v0 select,
    nullary main_cst_4 (constant S_ .f32 0xFF800000#32),
    binary main_v29 main_cst_4 main_v30 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_5 (constant S_ .f32 0xFF800000#32),
    unary main_cst_5 main_v31 (broadcastInDim S4096 ![] bcast_S_S4096 : (⟨S_, .f32⟩ : BufTy).Contents (Elt F) → (⟨S4096, .f32⟩ : BufTy).Contents (Elt F)),
    binary main_v31 main_v30 main_v32 (maximumf : (⟨S4096, .f32⟩ : BufTy).Contents (Elt F) → (⟨S4096, .f32⟩ : BufTy).Contents (Elt F) → (⟨S4096, .f32⟩ : BufTy).Contents (Elt F)),
    unary main_v32 main_v33 (broadcastInDim S4096x1 ![0] bcast_S4096_S4096x1_0 : (⟨S4096, .f32⟩ : BufTy).Contents (Elt F) → (⟨S4096x1, .f32⟩ : BufTy).Contents (Elt F)),
    unary main_v33 main_v34 (broadcastInDim S4096x4096 ![0, 1] bcast_S4096x1_S4096x4096_0_1 : (⟨S4096x1, .f32⟩ : BufTy).Contents (Elt F) → (⟨S4096x4096, .f32⟩ : BufTy).Contents (Elt F)),
    binary main_v29 main_v34 main_v35 (subf : (⟨S4096x4096, .f32⟩ : BufTy).Contents (Elt F) → (⟨S4096x4096, .f32⟩ : BufTy).Contents (Elt F) → (⟨S4096x4096, .f32⟩ : BufTy).Contents (Elt F)),
    unary main_v35 main_v36 (Host.exp : (⟨S4096x4096, .f32⟩ : BufTy).Contents (Elt F) → (⟨S4096x4096, .f32⟩ : BufTy).Contents (Elt F)),
    nullary main_cst_6 (constant S_ .f32 0x00000000#32),
    binary main_v36 main_cst_6 main_v37 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v37 main_v38 (broadcastInDim S4096x1 ![0] bcast_S4096_S4096x1_0 : (⟨S4096, .f32⟩ : BufTy).Contents (Elt F) → (⟨S4096x1, .f32⟩ : BufTy).Contents (Elt F)),
    unary main_v38 main_v39 (broadcastInDim S4096x4096 ![0, 1] bcast_S4096x1_S4096x4096_0_1 : (⟨S4096x1, .f32⟩ : BufTy).Contents (Elt F) → (⟨S4096x4096, .f32⟩ : BufTy).Contents (Elt F)),
    binary main_v36 main_v39 main_v40 (Host.divf : (⟨S4096x4096, .f32⟩ : BufTy).Contents (Elt F) → (⟨S4096x4096, .f32⟩ : BufTy).Contents (Elt F) → (⟨S4096x4096, .f32⟩ : BufTy).Contents (Elt F)),
    binary main_v40 main_arg0 main_v41 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)) ]

-- fifty-eight steps in sequence, re-associated one by one
set_option maxRecDepth 2048 in
/-- The program is that straight line: the called functions unfolded at their calls, both sides are one chain of
    steps once sequencing is re-associated. -/
theorem main_eq (c : Dev nD) : main (F := F) c = seq ops := by
  simp only [main, fn_leaky_relu.body, fn_where.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., binary_bufs_sub .., unary_bufs_sub .., reshape_bufs_sub .., nullary_bufs_sub .., unary_bufs_sub ..,
    ternary_bufs_sub .., nullary_bufs_sub .., unary_bufs_sub .., binary_bufs_sub .., unary_bufs_sub .., reshape_bufs_sub ..,
    ternary_bufs_sub .., nullary_bufs_sub .., unary_bufs_sub .., binary_bufs_sub .., unary_bufs_sub .., reshape_bufs_sub ..,
    ternary_bufs_sub .., nullary_bufs_sub .., unary_bufs_sub .., binary_bufs_sub .., unary_bufs_sub .., reshape_bufs_sub ..,
    ternary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub ..⟩

/-- From any memory with zero counters every weakly fair execution of the program terminates, and each buffer ends
    at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

-- the composed term is deep: the layered logits occur under both the row maximum and the row sum
set_option maxRecDepth 8192 in
set_option maxHeartbeats 1000000 in
/-- The fold at the result buffer is the composed term of the four arguments: each operation's result at its own
    buffer is its function of what its operands' buffers hold, and any other buffer keeps what it held; the typed
    references' transports are the identity at these literal references. -/
theorem out_eq (V : Valuation τ sig (Elt F)) :
    after ops V (main_v41 : DevRef τ sig)
      = refTerm (V (main_arg0 : DevRef τ sig)) (V (main_arg1 : DevRef τ sig)) (V (main_arg2 : DevRef τ sig))
          (V (main_arg3 : DevRef τ sig)) := by
  after_results_simp
  rfl

/-- No operation writes an argument's buffer: each keeps its contents through the fold. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, for any float values, from any memory with zero counters: every weakly fair execution of the
    program terminates with the result buffer at the composed term of the arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v41) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v41).trans (out_eq _), (h c main_arg0).trans (arg0_eq _),
      (h c main_arg1).trans (arg1_eq _), (h c main_arg2).trans (arg2_eq _), (h c main_arg3).trans (arg3_eq _)⟩)
    (run_after m ρ)

end Cert.ReferenceIdeal.Hand

end
-- ==== Proof.RefValue.lean ====
/-
  The reference's term, read at an index, is the specification's attention output.

  The term is cut into four stages: the score tensor (a contraction over the channel plus the bias), the leaky
  rectifier, the four gates on the relation code, and the row softmax applied to the features (the row maximum from
  the least extended real, the exponentials, their row sum, the quotient, the contraction over the nodes). Each
  stage is read at an index by one lemma over arbitrary operands; the last theorem puts them together.
-/
import proofs.«416319_j42090679501528_3_alg».proof.Proof.RefTerm
import proofs.«416319_j42090679501528_3_alg».proof.Proof.Spec
import Idealize.ShloMosaic.PureOps.Ideal.Laws
import Idealize.ShloMosaic.Lib.ValueIdx
import Idealize.ShloMosaic.Lib.IdealHost
import Idealize.ShloMosaic.Lib.Pipeline.Value
import Idealize.ShloMosaic.Lib.Affine

noncomputable section

open scoped BigOperators

namespace Cert.ReferenceIdeal.Hand

open Idealize.ShloMosaic Idealize.ShloMosaic.ValueIdx
open Cert.ReferenceIdeal Cert.ReferenceIdeal.Facts₀

/-! ## The broadcasts, read at an index -/

/-- The node features spread over the four relations read the node's row. -/
theorem bcast_h_apply (h : FVec Ideal S4096x128 .f32) (k : Fin 4) (r : Fin 4096) (d : Fin 128) :
    broadcastInDim S4x4096x128 ![0, 1, 2] bcast_S1x4096x128_S4x4096x128_0_1_2
      (broadcastInDim S1x4096x128 ![1, 2] bcast_S4096x128_S1x4096x128_1_2 h) (ix3 k r d) = h (ix2 r d) := by
  rw [broadcastInDim_apply _ _ _ (ix3 k r d) (ix3 (0 : Fin 1) r d)
      (fun a => match a with | ⟨0, _⟩ => rfl | ⟨1, _⟩ => rfl | ⟨2, _⟩ => rfl),
    broadcastInDim_apply _ _ _ (ix3 (0 : Fin 1) r d) (ix2 r d)
      (fun a => match a with | ⟨0, _⟩ => rfl | ⟨1, _⟩ => rfl)]

/-- The relations' weights spread over the nodes read the relation's row. -/
theorem bcast_W_apply (W : FVec Ideal S4x128 .f32) (k : Fin 4) (r : Fin 4096) (d : Fin 128) :
    broadcastInDim S4x4096x128 ![0, 1, 2] bcast_S4x1x128_S4x4096x128_0_1_2
      (broadcastInDim S4x1x128 ![0, 2] bcast_S4x128_S4x1x128_0_2 W) (ix3 k r d) = W (ix2 k d) := by
  rw [broadcastInDim_apply _ _ _ (ix3 k r d) (ix3 k (0 : Fin 1) d)
      (fun a => match a with | ⟨0, _⟩ => rfl | ⟨1, _⟩ => rfl | ⟨2, _⟩ => rfl),
    broadcastInDim_apply _ _ _ (ix3 k (0 : Fin 1) d) (ix2 k d)
      (fun a => match a with | ⟨0, _⟩ => rfl | ⟨1, _⟩ => rfl)]

/-- The biases spread over the node pairs read the relation's bias. -/
theorem bcast_b_apply (b : FVec Ideal S4 .f32) (k : Fin 4) (r c : Fin 4096) :
    broadcastInDim S4x4096x4096 ![0, 1, 2] bcast_S4x1x1_S4x4096x4096_0_1_2
      (broadcastInDim S4x1x1 ![0] bcast_S4_S4x1x1_0 b) (ix3 k r c) = b (ix1 k) := by
  rw [broadcastInDim_apply _ _ _ (ix3 k r c) (ix3 k (0 : Fin 1) (0 : Fin 1))
      (fun a => match a with | ⟨0, _⟩ => rfl | ⟨1, _⟩ => rfl | ⟨2, _⟩ => rfl),
    broadcastInDim_apply _ _ _ (ix3 k (0 : Fin 1) (0 : Fin 1)) (ix1 k)
      (fun a => match a with | ⟨0, _⟩ => rfl)]

/-- A row vector spread along the columns reads the row's entry. -/
theorem bcast_col_apply (m : FVec Ideal S4096 .f32) (r c : Fin 4096) :
    broadcastInDim S4096x4096 ![0, 1] bcast_S4096x1_S4096x4096_0_1
      (broadcastInDim S4096x1 ![0] bcast_S4096_S4096x1_0 m) (ix2 r c) = m (ix1 r) := by
  rw [broadcastInDim_apply _ _ _ (ix2 r c) (ix2 r (0 : Fin 1))
      (fun a => match a with | ⟨0, _⟩ => rfl | ⟨1, _⟩ => rfl),
    broadcastInDim_apply _ _ _ (ix2 r (0 : Fin 1)) (ix1 r)
      (fun a => match a with | ⟨0, _⟩ => rfl)]

/-! ## The score tensor -/

/-- The first contraction read at an index: over the channel, the left operand at (k, r, ·) against the right at (c, ·). -/
theorem dot_score_apply (A : FVec Ideal S4x4096x128 .f32) (B : FVec Ideal S4096x128 .f32) (k : Fin 4) (r c : Fin 4096) :
    Host.dotGeneral dot_S4x4096x128_S4096x128_S4x4096x4096_2_1_01_0_n_n none A B (ix3 k r c)
      = ∑ d : Fin 128, A (ix3 k r d) * B (ix2 c d) := by
  show FloatOps.dotGeneral _ none _ A B (ix3 k r c) = _
  rw [Ideal.dotGeneral_apply,
    ← Equiv.sum_comp (contrEquiv1 dot_S4x4096x128_S4096x128_S4x4096x4096_2_1_01_0_n_n 128 rfl rfl).symm]
  refine Finset.sum_congr rfl fun d _ => ?_
  have c3 := contrEquiv1_symm_val dot_S4x4096x128_S4096x128_S4x4096x4096_2_1_01_0_n_n 128 rfl rfl d
  have l3 : dot_S4x4096x128_S4096x128_S4x4096x4096_2_1_01_0_n_n.lhsIdx (ix3 k r c)
      ((contrEquiv1 _ 128 rfl rfl).symm d) = ix3 k r d := by
    funext ax; apply Fin.ext
    match ax with
    | ⟨0, _⟩ => simp [DotDims.lhsIdx, dot_S4x4096x128_S4096x128_S4x4096x4096_2_1_01_0_n_n]; rfl
    | ⟨1, _⟩ => simp [DotDims.lhsIdx, dot_S4x4096x128_S4096x128_S4x4096x4096_2_1_01_0_n_n]; rfl
    | ⟨2, _⟩ => simp [DotDims.lhsIdx, dot_S4x4096x128_S4096x128_S4x4096x4096_2_1_01_0_n_n]; exact c3
  have r3 : dot_S4x4096x128_S4096x128_S4x4096x4096_2_1_01_0_n_n.rhsIdx (ix3 k r c)
      ((contrEquiv1 _ 128 rfl rfl).symm d) = ix2 c d := by
    funext ax; apply Fin.ext
    match ax with
    | ⟨0, _⟩ => simp [DotDims.rhsIdx, dot_S4x4096x128_S4096x128_S4x4096x4096_2_1_01_0_n_n]; rfl
    | ⟨1, _⟩ => simp [DotDims.rhsIdx, dot_S4x4096x128_S4096x128_S4x4096x4096_2_1_01_0_n_n]; exact c3
  rw [l3, r3]

/-! ## The rectifier, the slices and the gates -/

/-- The printed rectifier at an index is the leaky rectifier of the entry. -/
theorem lrelu_apply (x : FVec Ideal S4x4096x4096 .f32) (i : S4x4096x4096.Idx) :
    select (cmpf .oge x (broadcastInDim S4x4096x4096 ![] bcast_S_S4x4096x4096 (constant (F := Ideal) S_ .f32 0x00000000#32))) x
      (mulf (broadcastInDim S4x4096x4096 ![] bcast_S_S4x4096x4096 (id (constant (F := Ideal) S_ .f32 0x3E4CCCCD#32))) x) i
      = Cert.Attn.lrelu (x i) := by
  rw [select_apply, cmpf_apply, mulf_apply, broadcastInDim_scalar_apply, broadcastInDim_scalar_apply]
  show Scalar.select (Ideal.cmp .oge (x i) (Ideal.ofBits .f32 0x00000000#32)) (x i) (Ideal.ofBits .f32 0x3E4CCCCD#32 * x i) = _
  rw [Ideal.ofBits_zero_f32]
  unfold Cert.Attn.lrelu Cert.Attn.slope
  by_cases hx : (0 : EReal) ≤ x i
  · rw [if_pos hx]
    have : Ideal.cmp .oge (x i) 0 = 1#1 := by simp [Ideal.cmp, hx]
    rw [this, select_one]
  · rw [if_neg hx]
    have : Ideal.cmp .oge (x i) 0 = 0#1 := by simp [Ideal.cmp, hx]
    rw [this, select_zero]

/-- Relation `k`'s slab of the [4, N, N] tensor, with its unit axis dropped, reads the tensor at (k, r, c). -/
theorem slab_apply {α : Type} (x : S4x4096x4096.Idx → α) (o : Nat) (hs : S4x4096x4096.Slices ![o, 0, 0] S1x4096x4096)
    (k : Fin 4) (hk : k.val = o) (r c : Fin 4096) :
    shapeCast S4096x4096 (extractStridedSlice S1x4096x4096 ![o, 0, 0] x hs) shapeCasts_S1x4096x4096_S4096x4096 (ix2 r c)
      = x (ix3 k r c) := by
  rw [shapeCast_dropUnit_apply ![4096, 4096]]
  refine extractStridedSlice_apply _ _ _ _ (ix3 k r c) fun a => ?_
  match a with
  | ⟨0, _⟩ => show k.val = o + 0; omega
  | ⟨1, _⟩ => show r.val = 0 + r.val; omega
  | ⟨2, _⟩ => show c.val = 0 + c.val; omega

/-- One gate at an index: the relation code compared with a constant chooses between the two entries. -/
theorem gate_apply (adj : IVec S4096x4096 32) (n : BitVec 32) (a b : FVec Ideal S4096x4096 .f32) (i : S4096x4096.Idx) :
    select (cmpi .eq adj (broadcastInDim S4096x4096 ![] bcast_S_S4096x4096 (constantI S_ 32 n))) a b i
      = if adj i = n then a i else b i := by
  show Scalar.select (IntOp.cmpi .eq (adj i) (broadcastInDim S4096x4096 ![] bcast_S_S4096x4096 (constantI S_ 32 n) i)) (a i) (b i) = _
  rw [broadcastInDim_scalar_apply]
  show Scalar.select (IntOp.cmpi .eq (adj i) n) (a i) (b i) = _
  by_cases h : adj i = n
  · rw [if_pos h, IntOp.cmpi_eq.mpr h, select_one]
  · rw [if_neg h, eq_zero_of_ne_one (mt IntOp.cmpi_eq.mp h), select_zero]

/-! ## The row softmax applied to the features -/

/-- The row reduction's shape fact as a witness that names the inserted index. -/
theorem redRow : S4096x4096.Reduces [1] S4096 := by decide

/-- Inserting the column `c` into the row index `r` gives the pair (r, c). -/
theorem lift_row (r c : Fin 4096) : redRow.lift (ix1 r) c = ix2 r c := by
  funext a; apply Fin.ext
  match a with
  | ⟨0, _⟩ => rfl
  | ⟨1, _⟩ => rfl

/-- The pattern of the f32 negative infinity is the least extended real. -/
theorem ofBits_neg_inf : Ideal.ofBits .f32 0xFF800000#32 = (⊥ : EReal) := by simp [Ideal.ofBits, Ideal.ieee]

/-- The row maximum, as the reference takes it. -/
def mxT (a : FVec Ideal S4096x4096 .f32) : FVec Ideal S4096 .f32 :=
  maximumf (broadcastInDim S4096 ![] bcast_S_S4096 (constant (F := Ideal) S_ .f32 0xFF800000#32))
    (Host.reduce FloatOps.maximumf a (constant (F := Ideal) S_ .f32 0xFF800000#32) reducesTo_S4096x4096_S4096_d1 h_S_)

/-- The unnormalised weights, as the reference takes them. -/
def exT (a : FVec Ideal S4096x4096 .f32) : FVec Ideal S4096x4096 .f32 :=
  Host.exp (subf a (broadcastInDim S4096x4096 ![0, 1] bcast_S4096x1_S4096x4096_0_1
    (broadcastInDim S4096x1 ![0] bcast_S4096_S4096x1_0 (mxT a))))

/-- The normalised weights applied to the features, as the reference takes them. -/
def smT (a : FVec Ideal S4096x4096 .f32) (h : FVec Ideal S4096x128 .f32) : FVec Ideal S4096x128 .f32 :=
  Host.dotGeneral dot_S4096x4096_S4096x128_S4096x128_1_0_0_1_n_n none
    (Host.divf (exT a) (broadcastInDim S4096x4096 ![0, 1] bcast_S4096x1_S4096x4096_0_1
      (broadcastInDim S4096x1 ![0] bcast_S4096_S4096x1_0
        (Host.reduceAdd (exT a) (constant (F := Ideal) S_ .f32 0x00000000#32) reducesTo_S4096x4096_S4096_d1 h_S_)))) h

theorem mxT_apply (a : FVec Ideal S4096x4096 .f32) (r : Fin 4096) :
    mxT a (ix1 r) = Cert.Attn.rowMax (fun c => a (ix2 r c)) := by
  unfold mxT
  rw [maximumf_apply, broadcastInDim_scalar_apply, constant_apply,
    Host.reduce_eq_fold_single FloatOps.maximumf a _ _ redRow, ofBits_neg_inf]
  show max ⊥ ((Finset.univ : Finset (Fin 4096)).fold _ (Ideal.ofBits .f32 0xFF800000#32) (a ∘ redRow.lift (ix1 r))) = _
  rw [ofBits_neg_inf, max_eq_right bot_le,
    show (a ∘ redRow.lift (ix1 r)) = fun c : Fin 4096 => a (ix2 r c) from funext fun c => congrArg a (lift_row r c)]
  rfl

theorem exT_apply (a : FVec Ideal S4096x4096 .f32) (r c : Fin 4096) :
    exT a (ix2 r c) = Cert.Attn.wgt (fun c => a (ix2 r c)) c := by
  unfold exT
  show Ideal.exp (subf a _ (ix2 r c)) = _
  rw [subf_apply, bcast_col_apply, mxT_apply]
  rfl

theorem rowSum_apply (e : FVec Ideal S4096x4096 .f32) (r : Fin 4096) :
    Host.reduceAdd e (constant (F := Ideal) S_ .f32 0x00000000#32) reducesTo_S4096x4096_S4096_d1 h_S_ (ix1 r)
      = ∑ c : Fin 4096, e (ix2 r c) := by
  rw [hostReduceAdd_apply, Ideal.hostReduceAdd_single _ redRow, constant_apply, Ideal.ofBits_zero_f32, zero_add]
  exact Finset.sum_congr rfl fun c _ => congrArg e (lift_row r c)

/-- The last contraction read at an index: over the nodes, the weights at (r, ·) against the features at (·, d). -/
theorem dot_out_apply (P : FVec Ideal S4096x4096 .f32) (h : FVec Ideal S4096x128 .f32) (r : Fin 4096) (d : Fin 128) :
    Host.dotGeneral dot_S4096x4096_S4096x128_S4096x128_1_0_0_1_n_n none P h (ix2 r d)
      = ∑ c : Fin 4096, P (ix2 r c) * h (ix2 c d) := by
  show FloatOps.dotGeneral _ none _ P h (ix2 r d) = _
  rw [Ideal.dotGeneral_apply,
    ← Equiv.sum_comp (contrEquiv1 dot_S4096x4096_S4096x128_S4096x128_1_0_0_1_n_n 4096 rfl rfl).symm]
  refine Finset.sum_congr rfl fun c _ => ?_
  have c2 := contrEquiv1_symm_val dot_S4096x4096_S4096x128_S4096x128_1_0_0_1_n_n 4096 rfl rfl c
  have l2 : dot_S4096x4096_S4096x128_S4096x128_1_0_0_1_n_n.lhsIdx (ix2 r d)
      ((contrEquiv1 _ 4096 rfl rfl).symm c) = ix2 r c := by
    funext ax; apply Fin.ext
    match ax with
    | ⟨0, _⟩ => simp [DotDims.lhsIdx, dot_S4096x4096_S4096x128_S4096x128_1_0_0_1_n_n]; rfl
    | ⟨1, _⟩ => simp [DotDims.lhsIdx, dot_S4096x4096_S4096x128_S4096x128_1_0_0_1_n_n]; exact c2
  have r2 : dot_S4096x4096_S4096x128_S4096x128_1_0_0_1_n_n.rhsIdx (ix2 r d)
      ((contrEquiv1 _ 4096 rfl rfl).symm c) = ix2 c d := by
    funext ax; apply Fin.ext
    match ax with
    | ⟨0, _⟩ => simp [DotDims.rhsIdx, dot_S4096x4096_S4096x128_S4096x128_1_0_0_1_n_n]; exact c2
    | ⟨1, _⟩ => simp [DotDims.rhsIdx, dot_S4096x4096_S4096x128_S4096x128_1_0_0_1_n_n]; rfl
  rw [l2, r2]

/-- The reference's softmax stage at an index: the specification's weighted sum over the row `r` of the logits `a`. -/
theorem smT_apply (a : FVec Ideal S4096x4096 .f32) (h : FVec Ideal S4096x128 .f32) (r : Fin 4096) (d : Fin 128) :
    smT a h (ix2 r d) = ∑ c : Fin 4096, Ideal.div (Cert.Attn.wgt (fun c => a (ix2 r c)) c)
      (Cert.Attn.rowSum (fun c => a (ix2 r c))) * h (ix2 c d) := by
  unfold smT
  rw [dot_out_apply]
  refine Finset.sum_congr rfl fun c _ => ?_
  rw [hostDivf_apply, bcast_col_apply, rowSum_apply, exT_apply]
  unfold Cert.Attn.rowSum
  simp only [exT_apply]

/-! ## The stages of the reference's term -/

/-- The four relations' scores of every pair of nodes, as the reference takes them. -/
def scoreT (h : FVec Ideal S4096x128 .f32) (W : FVec Ideal S4x128 .f32) (b : FVec Ideal S4 .f32) :
    FVec Ideal S4x4096x4096 .f32 :=
  addf (Host.dotGeneral dot_S4x4096x128_S4096x128_S4x4096x4096_2_1_01_0_n_n none
      (mulf (broadcastInDim S4x4096x128 ![0, 1, 2] bcast_S1x4096x128_S4x4096x128_0_1_2
              (broadcastInDim S1x4096x128 ![1, 2] bcast_S4096x128_S1x4096x128_1_2 h))
            (broadcastInDim S4x4096x128 ![0, 1, 2] bcast_S4x1x128_S4x4096x128_0_1_2
              (broadcastInDim S4x1x128 ![0, 2] bcast_S4x128_S4x1x128_0_2 W))) h)
    (broadcastInDim S4x4096x4096 ![0, 1, 2] bcast_S4x1x1_S4x4096x4096_0_1_2
      (broadcastInDim S4x1x1 ![0] bcast_S4_S4x1x1_0 b))

/-- The rectifier over the score tensor, as the reference takes it. -/
def lreluT (x : FVec Ideal S4x4096x4096 .f32) : FVec Ideal S4x4096x4096 .f32 :=
  select (cmpf .oge x (broadcastInDim S4x4096x4096 ![] bcast_S_S4x4096x4096 (constant (F := Ideal) S_ .f32 0x00000000#32))) x
    (mulf (broadcastInDim S4x4096x4096 ![] bcast_S_S4x4096x4096 (id (constant (F := Ideal) S_ .f32 0x3E4CCCCD#32))) x)

/-- The gated logits, as the reference takes them: four selects on the relation code, the largest code outermost. -/
def gateT (adj : IVec S4096x4096 32) (e : FVec Ideal S4x4096x4096 .f32) : FVec Ideal S4096x4096 .f32 :=
  select (cmpi .eq adj (broadcastInDim S4096x4096 ![] bcast_S_S4096x4096 (constantI S_ 32 4#32)))
    (shapeCast S4096x4096 (extractStridedSlice S1x4096x4096 ![3, 0, 0] e slices_S4x4096x4096_S1x4096x4096_3_0_0)
      shapeCasts_S1x4096x4096_S4096x4096)
    (select (cmpi .eq adj (broadcastInDim S4096x4096 ![] bcast_S_S4096x4096 (constantI S_ 32 3#32)))
      (shapeCast S4096x4096 (extractStridedSlice S1x4096x4096 ![2, 0, 0] e slices_S4x4096x4096_S1x4096x4096_2_0_0)
        shapeCasts_S1x4096x4096_S4096x4096)
      (select (cmpi .eq adj (broadcastInDim S4096x4096 ![] bcast_S_S4096x4096 (constantI S_ 32 2#32)))
        (shapeCast S4096x4096 (extractStridedSlice S1x4096x4096 ![1, 0, 0] e slices_S4x4096x4096_S1x4096x4096_1_0_0)
          shapeCasts_S1x4096x4096_S4096x4096)
        (select (cmpi .eq adj (broadcastInDim S4096x4096 ![] bcast_S_S4096x4096 (constantI S_ 32 1#32)))
          (shapeCast S4096x4096 (extractStridedSlice S1x4096x4096 ![0, 0, 0] e slices_S4x4096x4096_S1x4096x4096_0_0_0)
            shapeCasts_S1x4096x4096_S4096x4096)
          (broadcastInDim S4096x4096 ![] bcast_S_S4096x4096 (constant (F := Ideal) S_ .f32 0xD9FFCB9E#32)))))

theorem scoreT_apply (h : FVec Ideal S4096x128 .f32) (W : FVec Ideal S4x128 .f32) (b : FVec Ideal S4 .f32)
    (k : Fin 4) (r c : Fin 4096) :
    scoreT h W b (ix3 k r c) = Cert.Attn.scoreOf (fun d => h (ix2 r d)) (fun d => h (ix2 c d)) W b k := by
  unfold scoreT Cert.Attn.scoreOf
  rw [addf_apply, dot_score_apply, bcast_b_apply]
  congr 1
  refine Finset.sum_congr rfl fun d _ => ?_
  rw [mulf_apply, bcast_h_apply, bcast_W_apply, mul_right_comm]

theorem lreluT_apply (x : FVec Ideal S4x4096x4096 .f32) (i : S4x4096x4096.Idx) :
    lreluT x i = Cert.Attn.lrelu (x i) := lrelu_apply x i

theorem gateT_apply (adj : IVec S4096x4096 32) (e : FVec Ideal S4x4096x4096 .f32) (r c : Fin 4096) :
    gateT adj e (ix2 r c)
      = if adj (ix2 r c) = 4#32 then e (ix3 3 r c)
        else if adj (ix2 r c) = 3#32 then e (ix3 2 r c)
        else if adj (ix2 r c) = 2#32 then e (ix3 1 r c)
        else if adj (ix2 r c) = 1#32 then e (ix3 0 r c)
        else Cert.Attn.negBig := by
  unfold gateT
  rw [gate_apply, gate_apply, gate_apply, gate_apply,
    slab_apply e 3 _ 3 rfl, slab_apply e 2 _ 2 rfl, slab_apply e 1 _ 1 rfl, slab_apply e 0 _ 0 rfl,
    broadcastInDim_scalar_apply]
  rfl

/-! ## The reference's term is the specification -/

/-- The term, stage by stage. -/
theorem refTerm_stages (h : FVec Ideal S4096x128 .f32) (adj : IVec S4096x4096 32) (W : FVec Ideal S4x128 .f32)
    (b : FVec Ideal S4 .f32) :
    refTerm (F := Ideal) h adj W b = smT (gateT adj (lreluT (scoreT h W b))) h := rfl

/-- The reference's result is the specification's attention output. -/
theorem refTerm_eq (h : Cert.Attn.Hid) (adj : Cert.Attn.Adj) (W : Cert.Attn.Wt) (b : Cert.Attn.Bs) :
    refTerm (F := Ideal) h adj W b = Cert.Attn.out h adj W b := by
  rw [refTerm_stages]
  funext y
  obtain ⟨r, d, rfl⟩ : ∃ (r : Fin 4096) (d : Fin 128), y = ix2 r d := ⟨y 0, y 1, eq_ix2 y⟩
  rw [smT_apply]
  have ha : (fun c => gateT adj (lreluT (scoreT h W b)) (ix2 r c)) = Cert.Attn.alpha h adj W b r := by
    funext c
    rw [gateT_apply]
    unfold Cert.Attn.alpha Cert.Attn.alphaOf
    simp only [lreluT_apply, scoreT_apply]
  rw [ha]
  rfl

end Cert.ReferenceIdeal.Hand

end
-- ==== Proof.PreFinite.lean ====
/-
  The precondition read back: when the printed predicate "every float input is finite" is all ones, every entry of the
  node features, the weights and the biases is a real number.
-/
import proofs.«416319_j42090679501528_3_alg».proof.Pre_finite_inputs
import proofs.«416319_j42090679501528_3_alg».proof.Proof.Gen.Pre_finite_inputs
import proofs.«416319_j42090679501528_3_alg».proof.Proof.Spec
import Idealize.ShloMosaic.Lib.ReduceAll

noncomputable section

namespace Cert.Attn

open Idealize.ShloMosaic Idealize.ShloMosaic.ValueIdx

/-- The shape of a scalar has exactly one index. -/
instance subsingleton_scalar_idx : Subsingleton Cert.Pre_finite_inputs.S_.Idx :=
  ⟨fun _ _ => funext fun d => d.elim0⟩

/-- The f32 pattern 0x7F800000 denotes plus infinity. -/
theorem ofBits_inf : Ideal.ofBits .f32 0x7F800000#32 = (⊤ : EReal) := by
  simp [Ideal.ofBits, Ideal.ieee]

/-- An extended real whose absolute value, max x (-x), lies strictly below plus infinity is neither infinity: it is a
    real number. -/
theorem real_of_abs_lt_top (x : EReal) (hx : max x (-x) < (⊤ : EReal)) : ∃ r : ℝ, x = (r : EReal) := by
  induction x using EReal.rec with
  | bot => exact absurd hx (by simp)
  | top => exact absurd hx (by simp)
  | coe r => exact ⟨r, rfl⟩

/-- One element of a printed test |x| < +inf: where the comparison of the absolute value against the broadcast
    constant 0x7F800000 answers 1, the entry is a real number. -/
theorem real_of_cmp_one {s : Shape} (x : FVec Ideal s .f32) (dims : Fin Cert.Pre_finite_inputs.S_.rank → Fin s.rank)
    (hb : Cert.Pre_finite_inputs.S_.BroadcastsInDim s dims) (i : s.Idx)
    (e : cmpf .olt (Host.absf x)
      (broadcastInDim s dims hb (constant (F := Ideal) Cert.Pre_finite_inputs.S_ .f32 0x7F800000#32)) i = 1#1) :
    ∃ r : ℝ, x i = (r : EReal) := by
  have e' : BitVec.ofBool (decide (max (x i) (-(x i)) < Ideal.ofBits .f32 0x7F800000#32)) = 1#1 := e
  rw [ofBits_inf] at e'
  by_cases hlt : max (x i) (-(x i)) < (⊤ : EReal)
  · exact real_of_abs_lt_top _ hlt
  · rw [decide_eq_false hlt] at e'
    exact absurd e' (by decide)

theorem finite_of_pre (h : Hid) (adj : Adj) (W : Wt) (b : Bs)
    (hp : Cert.Pre_finite_inputs.fn (F := Ideal) h adj W b = fun _ => 1#1) : Finite h W b := by
  have e := congrFun hp ValueIdx.ix0
  dsimp only [Cert.Pre_finite_inputs.fn] at e
  obtain ⟨e8, e12⟩ := IntOp.andi_eq_one.1 e
  obtain ⟨e3, e7⟩ := IntOp.andi_eq_one.1 e8
  refine ⟨fun i => ?_, fun i => ?_, fun i => ?_⟩
  · exact real_of_cmp_one h _ _ i (Host.reduce_andi_all _ _ _ _ _ e3 i)
  · exact real_of_cmp_one W _ _ i (Host.reduce_andi_all _ _ _ _ _ e7 i)
  · exact real_of_cmp_one b _ _ i (Host.reduce_andi_all _ _ _ _ _ e12 i)

end Cert.Attn

end
-- ==== Proof.lean ====
/-
  The certificate: a relation-gated attention layer computed tile by tile with an online softmax (the kernel) equals
  the plain row softmax of the gated logits applied to the node features (the reference), over the extended reals, for
  real inputs.

  Both programs run to the end, fault nowhere and leave their four argument arrays unchanged. The kernel's run is one
  pipelined region over a 4 x 8 grid whose first two windows read the same array; its three scratch buffers carry, per
  row, the running maximum, the running sum of exponentials below it and the running weighted sum of features, and
  the block written back at a row block's last column tile is the weighted sum over the sum. Row by row that
  recurrence is the softmax-weighted sum (the exponentials' addition law rescales the running sums from one maximum to
  the next; distributivity joins the final quotient to the reference's sum of quotients), which is where the inputs'
  finiteness is used. The reference's run composes its operations; read at an index they are the specification
  term by term. The idealization rewrote nothing, so the kernel's idealized text is its own text.
-/
import proofs.«416319_j42090679501528_3_alg».proof.Defs
import proofs.«416319_j42090679501528_3_alg».proof.Proof.Gen.Kernel
import proofs.«416319_j42090679501528_3_alg».proof.Proof.Gen.KernelIdeal
import proofs.«416319_j42090679501528_3_alg».proof.Proof.Gen.ReferenceIdeal
import proofs.«416319_j42090679501528_3_alg».proof.Proof.Gen.Pre_finite_inputs
import proofs.«416319_j42090679501528_3_alg».proof.Proof.Bits.KFrameOf
import proofs.«416319_j42090679501528_3_alg».proof.Proof.KFrameOf
import proofs.«416319_j42090679501528_3_alg».proof.Proof.KFinal
import proofs.«416319_j42090679501528_3_alg».proof.Proof.RefRun
import proofs.«416319_j42090679501528_3_alg».proof.Proof.RefValue
import proofs.«416319_j42090679501528_3_alg».proof.Proof.PreFinite
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Hand.frame m ρ

/-- So does its idealized text. -/
theorem frame_kernelIdeal : Cert.frame_KernelIdeal := fun m ρ _ => Cert.KernelIdeal.Hand.frame m ρ

/-- The reference's run, its result dropped. -/
theorem frame_reference : Cert.frame_ReferenceIdeal := fun m ρ _ =>
  (θ_run Cert.ReferenceIdeal.defs _ _).mono (fun _ h c => (h c).2) (Cert.ReferenceIdeal.Hand.run (F := Ideal) m ρ)

/-- The idealization's ledger is empty. -/
theorem preserves : Cert.preserves_Kernel_KernelIdeal := trivial

/-- Both runs end at the specification's output of the (agreeing) argument arrays. -/
theorem algebraic : Cert.algebraic_KernelIdeal_ReferenceIdeal := by
  intro m ρ m' ρ' hpre hagree
  refine ⟨fun c => Cert.Attn.out (Cert.KernelIdeal.Hand.hidA m c) (Cert.KernelIdeal.Hand.adjA m c) (Cert.KernelIdeal.Hand.wA m c)
    (Cert.KernelIdeal.Hand.bA m c), ?_, ?_⟩
  · exact (θ_run Cert.KernelIdeal.defs _ _).mono
      (fun _ h c => ⟨(h c).1.trans (Cert.KernelIdeal.Hand.final5 m c (Cert.Attn.finite_of_pre _ _ _ _ (hpre c))), (h c).2⟩)
      (Cert.KernelIdeal.Hand.run_out (F := Ideal) m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2]
    exact Cert.ReferenceIdeal.Hand.refTerm_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
